-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S8192x1 .f32 .bf16
  ∧ IdealRules.truncf_extf.Statement Cert.KernelIdeal.S8192x1 .f32 .bf16
  ∧ IdealRules.truncf_extf.Statement Cert.KernelIdeal.S8192x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S256 : Shape := ⟨1, ![256]⟩
abbrev S_ : Shape := ⟨0, ![]⟩
abbrev S262144x1 : Shape := ⟨2, ![262144, 1]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256 : S_.BroadcastsInDim S256 (![] : Fin 0 → Fin S256.rank)
  bcast_S262144_S262144x1_0 : S262144.BroadcastsInDim S262144x1 (![0] : Fin 1 → Fin S262144x1.rank)
  reducesTo_S256_S_d0 : S256.ReducesTo [0] S_
  scatter_S256_S262144x1_S262144_n_0_0_1_wf : ScatterDims.WF S256 S262144x1 S262144 [] [0] [0] 1

variable [Facts]

def scatter_S256_S262144x1_S262144_n_0_0_1 : ScatterDims S256 S262144x1 S262144 where
  updateWindowDims := []
  insertedWindowDims := [0]
  scatterDimsToOperandDims := [0]
  indexVectorDim := 1
  wf := scatter_S256_S262144x1_S262144_n_0_0_1_wf
def fn_part1 {F : FTy → Type} [FloatOps F] (main_arg1 : IVec S262144 32) (main_v12 : IVec S_ 1) (main_v14 : FVec F S262144 .f32) (main_v15 : FVec F S256 .f32) : IVec S_ 1 :=
  let main_v16 : IVec S262144x1 32 := broadcastInDim S262144x1 ![0] bcast_S262144_S262144x1_0 main_arg1
  let main_v17 : FVec F S256 .f32 := (fun x i u => Host.scatterAdd scatter_S256_S262144x1_S262144_n_0_0_1 x i u) main_v15 main_v16 main_v14
  let main_cst_6 : FVec F S_ .f32 := constant S_ .f32 0x00000000#32
  let main_v18 : FVec F S256 .f32 := broadcastInDim S256 ![] bcast_S_S256 main_cst_6
  let main_v19 : IVec S256 1 := cmpf .une main_v17 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v12 main_v20
  main_v21

def fn {F : FTy → Type} [FloatOps F] (main_arg0 : FVec F S262144x128 .f32) (main_arg1 : IVec S262144 32) (main_arg2 : FVec F S262144 .f32) (main_arg3 : IVec S256 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_cst_2 : FVec F S_ .f32 := constant S_ .f32 0x00000000#32
  let main_v9 : FVec F S262144 .f32 := broadcastInDim S262144 ![] bcast_S_S262144 main_cst_2
  let main_v10 : IVec S262144 1 := cmpf .oge main_arg2 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_cst_4 : FVec F S_ .f32 := constant S_ .f32 0x3F000000#32
  let main_v13 : FVec F S262144 .f32 := broadcastInDim S262144 ![] bcast_S_S262144 main_cst_4
  let main_v14 : FVec F S262144 .f32 := Host.powf main_arg2 main_v13
  let main_cst_5 : FVec F S_ .f32 := constant S_ .f32 0x00000000#32
  let main_v15 : FVec F S256 .f32 := broadcastInDim S256 ![] bcast_S_S256 main_cst_5
  fn_part1 (F := F) main_arg1 main_v12 main_v14 main_v15
-- ==== Kernel.lean ====
abbrev S262144x128 : Shape := ⟨2, ![262144, 128]⟩
abbrev S262144 : Shape := ⟨1, ![262144]⟩
abbrev S256 : Shape := ⟨1, ![256]⟩
abbrev S2x256x384 : Shape := ⟨3, ![2, 256, 384]⟩
abbrev S8192x128 : Shape := ⟨2, ![8192, 128]⟩
abbrev S8192 : Shape := ⟨1, ![8192]⟩
abbrev S1x256x384 : Shape := ⟨3, ![1, 256, 384]⟩
abbrev S256x384 : Shape := ⟨2, ![256, 384]⟩
abbrev S8192x1 : Shape := ⟨2, ![8192, 1]⟩
abbrev S8192x124 : Shape := ⟨2, ![8192, 124]⟩
abbrev S8192x256 : Shape := ⟨2, ![8192, 256]⟩
abbrev S8192x384 : Shape := ⟨2, ![8192, 384]⟩
abbrev S_ : Shape := ⟨0, ![]⟩
abbrev S256x128 : Shape := ⟨2, ![256, 128]⟩
abbrev S256x1 : Shape := ⟨2, ![256, 1]⟩
abbrev S256x256 : Shape := ⟨2, ![256, 256]⟩
abbrev S65536 : Shape := ⟨1, ![65536]⟩
abbrev S32640 : Shape := ⟨1, ![32640]⟩
abbrev S65536x1 : Shape := ⟨2, ![65536, 1]⟩
abbrev S32640x1 : Shape := ⟨2, ![32640, 1]⟩
abbrev S32640x128 : Shape := ⟨2, ![32640, 128]⟩

abbrev nBuf : Space → Nat
  | .hbm => 211
  | .vmem => 8
  | .smem => 0
  | _ => 0

abbrev hbmTy0_0 (i : Nat) : BufTy := match i % 128 with
  | 0 => ⟨S262144x128, .f32⟩
  | 1 => ⟨S262144, .i32⟩
  | 2 => ⟨S262144, .f32⟩
  | 3 => ⟨S256, .i32⟩
  | 4 => ⟨S2x256x384, .f32⟩
  | 5 => ⟨S_, .f32⟩
  | 6 => ⟨S256x384, .f32⟩
  | 7 => ⟨S256x128, .f32⟩
  | 8 => ⟨S256x128, .f32⟩
  | 9 => ⟨S256x1, .f32⟩
  | 10 => ⟨S256, .f32⟩
  | 11 => ⟨S256x1, .f32⟩
  | 12 => ⟨S256, .f32⟩
  | 13 => ⟨S256x1, .f32⟩
  | 14 => ⟨S256, .f32⟩
  | 15 => ⟨S256x1, .f32⟩
  | 16 => ⟨S256, .f32⟩
  | 17 => ⟨S256, .f32⟩
  | 18 => ⟨S256x1, .f32⟩
  | 19 => ⟨S256x128, .f32⟩
  | 20 => ⟨S256x128, .f32⟩
  | 21 => ⟨S256x128, .f32⟩
  | 22 => ⟨S_, .f32⟩
  | 23 => ⟨S256, .f32⟩
  | 24 => ⟨S256x128, .f32⟩
  | 25 => ⟨S_, .f32⟩
  | 26 => ⟨S256, .f32⟩
  | 27 => ⟨S_, .f32⟩
  | 28 => ⟨S256, .f32⟩
  | 29 => ⟨S256, .f32⟩
  | 30 => ⟨S256, .f32⟩
  | 31 => ⟨S256, .f32⟩
  | 32 => ⟨S256, .f32⟩
  | 33 => ⟨S256, .f32⟩
  | 34 => ⟨S_, .f32⟩
  | 35 => ⟨S_, .f32⟩
  | 36 => ⟨S_, .f32⟩
  | 37 => ⟨S_, .f32⟩
  | 38 => ⟨S_, .f32⟩
  | 39 => ⟨S256x256, .f32⟩
  | 40 => ⟨S256x256, .i32⟩
  | 41 => ⟨S_, .i32⟩
  | 42 => ⟨S256x256, .i32⟩
  | 43 => ⟨S256x256, .i32⟩
  | 44 => ⟨S256x256, .i32⟩
  | 45 => ⟨S256x256, .i1⟩
  | 46 => ⟨S_, .f32⟩
  | 47 => ⟨S256x256, .f32⟩
  | 48 => ⟨S256x256, .f32⟩
  | 49 => ⟨S_, .f32⟩
  | 50 => ⟨S256x256, .f32⟩
  | 51 => ⟨S256x256, .i1⟩
  | 52 => ⟨S65536, .i1⟩
  | 53 => ⟨S65536, .i32⟩
  | 54 => ⟨S_, .i32⟩
  | 55 => ⟨S_, .i32⟩
  | 56 => ⟨S65536, .i32⟩
  | 57 => ⟨S_, .i32⟩
  | 58 => ⟨S32640, .i32⟩
  | 59 => ⟨S_, .i32⟩
  | 60 => ⟨S_, .i32⟩
  | 61 => ⟨S65536, .i32⟩
  | 62 => ⟨S65536, .i32⟩
  | 63 => ⟨S_, .i32⟩
  | 64 => ⟨S65536, .i32⟩
  | 65 => ⟨S65536, .i1⟩
  | 66 => ⟨S_, .i32⟩
  | 67 => ⟨S65536, .i32⟩
  | 68 => ⟨S65536, .i32⟩
  | 69 => ⟨S65536, .i32⟩
  | 70 => ⟨S65536x1, .i32⟩
  | 71 => ⟨S_, .i32⟩
  | 72 => ⟨S65536, .i32⟩
  | 73 => ⟨S32640, .i32⟩
  | 74 => ⟨S_, .i32⟩
  | 75 => ⟨S_, .i32⟩
  | 76 => ⟨S32640, .i32⟩
  | 77 => ⟨S_, .i32⟩
  | 78 => ⟨S32640, .i32⟩
  | 79 => ⟨S32640, .i32⟩
  | 80 => ⟨S32640, .i32⟩
  | 81 => ⟨S_, .i32⟩
  | 82 => ⟨S32640, .i32⟩
  | 83 => ⟨S32640, .i1⟩
  | 84 => ⟨S32640, .i32⟩
  | 85 => ⟨S32640, .i32⟩
  | 86 => ⟨S_, .i32⟩
  | 87 => ⟨S32640, .i32⟩
  | 88 => ⟨S32640, .i1⟩
  | 89 => ⟨S32640, .i1⟩
  | 90 => ⟨S_, .i32⟩
  | 91 => ⟨S32640, .i32⟩
  | 92 => ⟨S32640, .i32⟩
  | 93 => ⟨S32640, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S32640, .i32⟩
  | 101 => ⟨S32640, .i32⟩
  | 102 => ⟨S_, .i32⟩
  | 103 => ⟨S32640, .i32⟩
  | 104 => ⟨S32640, .i1⟩
  | 105 => ⟨S_, .i32⟩
  | 106 => ⟨S32640, .i32⟩
  | 107 => ⟨S32640, .i1⟩
  | 108 => ⟨S_, .i32⟩
  | 109 => ⟨S_, .i1⟩
  | 110 => ⟨S32640, .i1⟩
  | 111 => ⟨S32640, .i1⟩
  | 112 => ⟨S32640, .i1⟩
  | 113 => ⟨S32640, .i32⟩
  | 114 => ⟨S32640, .i32⟩
  | 115 => ⟨S32640, .i32⟩
  | 116 => ⟨S_, .i32⟩
  | 117 => ⟨S32640, .i32⟩
  | 118 => ⟨S32640, .i32⟩
  | 119 => ⟨S32640, .i32⟩
  | 120 => ⟨S_, .i32⟩
  | 121 => ⟨S32640, .i32⟩
  | 122 => ⟨S32640, .i1⟩
  | 123 => ⟨S32640, .i32⟩
  | 124 => ⟨S32640, .i32⟩
  | 125 => ⟨S_, .i32⟩
  | 126 => ⟨S32640, .i32⟩
  | 127 => ⟨S32640, .i1⟩
  | _ => ⟨S262144x128, .f32⟩

abbrev hbmTy0_1 (i : Nat) : BufTy := match i % 128 with
  | 0 => ⟨S32640, .i1⟩
  | 1 => ⟨S_, .i32⟩
  | 2 => ⟨S32640, .i32⟩
  | 3 => ⟨S32640, .i32⟩
  | 4 => ⟨S32640, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S32640, .i32⟩
  | 12 => ⟨S32640, .i32⟩
  | 13 => ⟨S_, .i32⟩
  | 14 => ⟨S32640, .i32⟩
  | 15 => ⟨S32640, .i1⟩
  | 16 => ⟨S_, .i32⟩
  | 17 => ⟨S32640, .i32⟩
  | 18 => ⟨S32640, .i1⟩
  | 19 => ⟨S_, .i32⟩
  | 20 => ⟨S_, .i1⟩
  | 21 => ⟨S32640, .i1⟩
  | 22 => ⟨S32640, .i1⟩
  | 23 => ⟨S32640, .i1⟩
  | 24 => ⟨S32640, .i32⟩
  | 25 => ⟨S32640, .i32⟩
  | 26 => ⟨S32640, .i32⟩
  | 27 => ⟨S_, .i32⟩
  | 28 => ⟨S32640, .i32⟩
  | 29 => ⟨S32640, .i1⟩
  | 30 => ⟨S_, .i32⟩
  | 31 => ⟨S32640, .i32⟩
  | 32 => ⟨S32640, .i32⟩
  | 33 => ⟨S32640, .i32⟩
  | 34 => ⟨S32640x1, .i32⟩
  | 35 => ⟨S32640x128, .f32⟩
  | 36 => ⟨S_, .i32⟩
  | 37 => ⟨S32640, .i32⟩
  | 38 => ⟨S32640, .i1⟩
  | 39 => ⟨S_, .i32⟩
  | 40 => ⟨S32640, .i32⟩
  | 41 => ⟨S32640, .i32⟩
  | 42 => ⟨S32640, .i32⟩
  | 43 => ⟨S32640x1, .i32⟩
  | 44 => ⟨S32640x128, .f32⟩
  | 45 => ⟨S32640x128, .f32⟩
  | 46 => ⟨S32640x128, .f32⟩
  | 47 => ⟨S_, .f32⟩
  | 48 => ⟨S32640, .f32⟩
  | 49 => ⟨S32640, .f32⟩
  | 50 => ⟨S256, .f32⟩
  | 51 => ⟨S_, .f32⟩
  | 52 => ⟨S256, .f32⟩
  | 53 => ⟨S256, .f32⟩
  | 54 => ⟨S_, .i32⟩
  | 55 => ⟨S32640, .i32⟩
  | 56 => ⟨S32640, .i1⟩
  | 57 => ⟨S_, .i32⟩
  | 58 => ⟨S32640, .i32⟩
  | 59 => ⟨S32640, .i32⟩
  | 60 => ⟨S32640, .i32⟩
  | 61 => ⟨S32640x1, .i32⟩
  | 62 => ⟨S32640, .f32⟩
  | 63 => ⟨S_, .i32⟩
  | 64 => ⟨S32640, .i32⟩
  | 65 => ⟨S32640, .i1⟩
  | 66 => ⟨S_, .i32⟩
  | 67 => ⟨S32640, .i32⟩
  | 68 => ⟨S32640, .i32⟩
  | 69 => ⟨S32640, .i32⟩
  | 70 => ⟨S32640x1, .i32⟩
  | 71 => ⟨S32640, .f32⟩
  | 72 => ⟨S32640, .f32⟩
  | 73 => ⟨S32640, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192, .i32⟩
  | .local _ .vmem, ⟨3, _⟩ => ⟨S8192, .i32⟩
  | .local _ .vmem, ⟨4, _⟩ => ⟨S8192, .f32⟩
  | .local _ .vmem, ⟨5, _⟩ => ⟨S8192, .f32⟩
  | .local _ .vmem, ⟨6, _⟩ => ⟨S1x256x384, .f32⟩
  | .local _ .vmem, ⟨7, _⟩ => ⟨S1x256x384, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_cst : Ref sig .tc := ⟨.hbm, 46, rfl⟩
abbrev main_call0_v5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_v1 : Ref sig .tc := ⟨.hbm, 53, rfl⟩
abbrev main_call1_call0_c : Ref sig .tc := ⟨.hbm, 54, rfl⟩
abbrev main_call1_call0_v0 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_call3_call0_c : Ref sig .tc := ⟨.hbm, 74, rfl⟩
abbrev main_call3_call0_v0 : Ref sig .tc := ⟨.hbm, 75, rfl⟩
abbrev main_v43 : Ref sig .tc := ⟨.hbm, 76, rfl⟩
abbrev main_c_11 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_c : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_call4_c_0 : Ref sig .tc := ⟨.hbm, 90, rfl⟩
abbrev main_call4_v11 : Ref sig .tc := ⟨.hbm, 91, rfl⟩
abbrev main_call4_v12 : Ref sig .tc := ⟨.hbm, 92, rfl⟩
abbrev main_v44 : Ref sig .tc := ⟨.hbm, 93, rfl⟩
abbrev main_c_12 : Ref sig .tc := ⟨.hbm, 94, rfl⟩
abbrev main_call5_v0 : Ref sig .tc := ⟨.hbm, 95, rfl⟩
abbrev main_call5_c : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_c_1 : Ref sig .tc := ⟨.hbm, 102, rfl⟩
abbrev main_call5_v5 : Ref sig .tc := ⟨.hbm, 103, rfl⟩
abbrev main_call5_v6 : Ref sig .tc := ⟨.hbm, 104, rfl⟩
abbrev main_call5_c_2 : Ref sig .tc := ⟨.hbm, 105, rfl⟩
abbrev main_call5_v7 : Ref sig .tc := ⟨.hbm, 106, rfl⟩
abbrev main_call5_v8 : Ref sig .tc := ⟨.hbm, 107, rfl⟩
abbrev main_call5_c_3 : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_v45 : Ref sig .tc := ⟨.hbm, 115, rfl⟩
abbrev main_c_13 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_v6 : Ref sig .tc := ⟨.hbm, 123, rfl⟩
abbrev main_call6_v7 : Ref sig .tc := ⟨.hbm, 124, rfl⟩
abbrev main_call6_c : Ref sig .tc := ⟨.hbm, 125, rfl⟩
abbrev main_call6_v8 : Ref sig .tc := ⟨.hbm, 126, rfl⟩
abbrev main_call6_v9 : Ref sig .tc := ⟨.hbm, 127, rfl⟩
abbrev main_call6_v10 : Ref sig .tc := ⟨.hbm, 128, rfl⟩
abbrev main_call6_c_0 : Ref sig .tc := ⟨.hbm, 129, rfl⟩
abbrev main_call6_v11 : Ref sig .tc := ⟨.hbm, 130, rfl⟩
abbrev main_call6_v12 : Ref sig .tc := ⟨.hbm, 131, rfl⟩
abbrev main_v46 : Ref sig .tc := ⟨.hbm, 132, rfl⟩
abbrev main_c_14 : Ref sig .tc := ⟨.hbm, 133, rfl⟩
abbrev main_call7_v0 : Ref sig .tc := ⟨.hbm, 134, rfl⟩
abbrev main_call7_c : Ref sig .tc := ⟨.hbm, 135, rfl⟩
abbrev main_call7_v1 : Ref sig .tc := ⟨.hbm, 136, rfl⟩
abbrev main_call7_c_0 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_c_1 : Ref sig .tc := ⟨.hbm, 141, rfl⟩
abbrev main_call7_v5 : Ref sig .tc := ⟨.hbm, 142, rfl⟩
abbrev main_call7_v6 : Ref sig .tc := ⟨.hbm, 143, rfl⟩
abbrev main_call7_c_2 : Ref sig .tc := ⟨.hbm, 144, rfl⟩
abbrev main_call7_v7 : Ref sig .tc := ⟨.hbm, 145, rfl⟩
abbrev main_call7_v8 : Ref sig .tc := ⟨.hbm, 146, rfl⟩
abbrev main_call7_c_3 : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_v12 : Ref sig .tc := ⟨.hbm, 151, rfl⟩
abbrev main_call7_v13 : Ref sig .tc := ⟨.hbm, 152, rfl⟩
abbrev main_call7_v14 : Ref sig .tc := ⟨.hbm, 153, rfl⟩
abbrev main_v47 : Ref sig .tc := ⟨.hbm, 154, rfl⟩
abbrev main_c_15 : Ref sig .tc := ⟨.hbm, 155, rfl⟩
abbrev main_v48 : Ref sig .tc := ⟨.hbm, 156, rfl⟩
abbrev main_v49 : Ref sig .tc := ⟨.hbm, 157, rfl⟩
abbrev main_c_16 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_c_17 : Ref sig .tc := ⟨.hbm, 164, rfl⟩
abbrev main_v55 : Ref sig .tc := ⟨.hbm, 165, rfl⟩
abbrev main_v56 : Ref sig .tc := ⟨.hbm, 166, rfl⟩
abbrev main_c_18 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_cst_19 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_cst_20 : Ref sig .tc := ⟨.hbm, 179, rfl⟩
abbrev main_v67 : Ref sig .tc := ⟨.hbm, 180, rfl⟩
abbrev main_v68 : Ref sig .tc := ⟨.hbm, 181, rfl⟩
abbrev main_c_21 : Ref sig .tc := ⟨.hbm, 182, rfl⟩
abbrev main_v69 : Ref sig .tc := ⟨.hbm, 183, rfl⟩
abbrev main_v70 : Ref sig .tc := ⟨.hbm, 184, rfl⟩
abbrev main_c_22 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_c_23 : Ref sig .tc := ⟨.hbm, 191, rfl⟩
abbrev main_v76 : Ref sig .tc := ⟨.hbm, 192, rfl⟩
abbrev main_v77 : Ref sig .tc := ⟨.hbm, 193, rfl⟩
abbrev main_c_24 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_cst_25 : Ref sig .tc := ⟨.hbm, 202, rfl⟩
abbrev main_v85 : Ref sig .tc := ⟨.hbm, 203, rfl⟩
abbrev main_cst_26 : Ref sig .tc := ⟨.hbm, 204, rfl⟩
abbrev main_v86 : Ref sig .tc := ⟨.hbm, 205, rfl⟩
abbrev main_cst_27 : Ref sig .tc := ⟨.hbm, 206, rfl⟩
abbrev main_v87 : Ref sig .tc := ⟨.hbm, 207, rfl⟩
abbrev main_v88 : Ref sig .tc := ⟨.hbm, 208, rfl⟩
abbrev main_cst_28 : Ref sig .tc := ⟨.hbm, 209, rfl⟩
abbrev main_v89 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  shapeCasts_S256x384_S1x256x384 : S256x384.ShapeCasts S1x256x384
  inb_S8192_S8192_0 : ∀ a, (![0] : Fin 1 → Nat) a + S8192.size a ≤ S8192.size a
  h_S8192 : 0 < S8192.numel
  inb_S8192x128_S8192x128_0_0 : ∀ a, (![0, 0] : Fin 2 → Nat) a + S8192x128.size a ≤ S8192x128.size a
  h_S8192x128 : 0 < S8192x128.numel
  shapeCasts_S8192_S8192x1 : S8192.ShapeCasts S8192x1
  broadcasts_S8192x1_S8192x128 : S8192x1.Broadcasts S8192x128
  reduces_S8192x128_S8192 : S8192x128.Reduces [1] S8192
  bitsLt_bf16_f32 : FTy.bits .bf16 < FTy.bits .f32
  concatenates_S8192x1_S8192x1_S8192x1_S8192x1_S8192x124_S8192x128_d1 : Shape.Concatenates [S8192x1, S8192x1, S8192x1, S8192x1, S8192x124] S8192x128 1
  iota_S8192x256_d1_w32 : S8192x256.Iotas .tc 32 [1]
  broadcasts_S8192x1_S8192x256 : S8192x1.Broadcasts S8192x256
  natLt_1_32 : 1 < 32
  concatenates_S8192x128_S8192x128_S8192x128_S8192x384_d1 : Shape.Concatenates [S8192x128, S8192x128, S8192x128] S8192x384 1
  reducesTo_S2x256x384_S256x384_d0 : S2x256x384.ReducesTo [0] S256x384
  h_S_ : 0 < S_.numel
  slices_S256x384_S256x128_0_0 : S256x384.Slices ![0, 0] S256x128
  slices_S256x384_S256x128_0_128 : S256x384.Slices ![0, 128] S256x128
  slices_S256x384_S256x1_0_256 : S256x384.Slices ![0, 256] S256x1
  shapeCasts_S256x1_S256 : S256x1.ShapeCasts S256
  slices_S256x384_S256x1_0_257 : S256x384.Slices ![0, 257] S256x1
  slices_S256x384_S256x1_0_258 : S256x384.Slices ![0, 258] S256x1
  slices_S256x384_S256x1_0_259 : S256x384.Slices ![0, 259] S256x1
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S256x128_S256_d1 : S256x128.ReducesTo [1] S256
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  shapeCasts_S256x256_S65536 : S256x256.ShapeCasts S65536
  bcast_S_S_ : S_.BroadcastsInDim S_ (![] : Fin 0 → Fin S_.rank)
  reduceWindows_S65536_S65536_w65536s1p65535_0 : S65536.ReduceWindows (![65536] : Fin 1 → Nat) ![1] ![65535] ![0] S65536
  bcast_S_S32640 : S_.BroadcastsInDim S32640 (![] : Fin 0 → Fin S32640.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32640_S32640_w32640s1p32639_0 : S32640.ReduceWindows (![32640] : Fin 1 → Nat) ![1] ![32639] ![0] S32640
  bcast_S32640_S32640x1_0 : S32640.BroadcastsInDim S32640x1 (![0] : Fin 1 → Fin S32640x1.rank)
  reducesTo_S32640x128_S32640_d1 : S32640x128.ReducesTo [1] S32640
  reducesTo_S32640_S_d0 : S32640.ReducesTo [0] S_
  dot_S8192x256_S8192x384_S256x384_0_0_1_1_n_n_wf : DotDims.WF S8192x256 S8192x384 S256x384 [0] [0] [1] [1] [] []
  scatter_S32640_S65536x1_S65536_n_0_0_1_wf : ScatterDims.WF S32640 S65536x1 S65536 [] [0] [0] 1
  gather_S256x128_S32640x1_S32640x128_1_0_n_n_0_1_1128_wf : GatherDims.WF S256x128 S32640x1 S32640x128 [1] [0] [] [0] [] 1 ![1, 128]
  gather_S256_S32640x1_S32640_n_0_n_n_0_1_1_wf : GatherDims.WF S256 S32640x1 S32640 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S262144.size a
  hwx0_1 : ∀ i : grid0.Coords, EltTy.bits .i32 = 32 ∨ (Rect.block (s := S262144) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S262144.size a
  hwx0_2 : ∀ i : grid0.Coords, EltTy.bits .f32 = 32 ∨ (Rect.block (s := S262144) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x384.size a ≤ S2x256x384.size a
  hwx0_3 : ∀ i : grid0.Coords, EltTy.bits .f32 = 32 ∨ (Rect.block (s := S2x256x384) S1x256x384.size (cc0_transform_3 i) (hinb0_3 i)).WholeWords (EltTy.packing .f32)

variable [Facts₀]

def dot_S8192x256_S8192x384_S256x384_0_0_1_1_n_n : DotDims S8192x256 S8192x384 S256x384 where
  lhsContracting := [0]
  rhsContracting := [0]
  lhsNonContracting := [1]
  rhsNonContracting := [1]
  lhsBatch := []
  rhsBatch := []
  wf := dot_S8192x256_S8192x384_S256x384_0_0_1_1_n_n_wf
def scatter_S32640_S65536x1_S65536_n_0_0_1 : ScatterDims S32640 S65536x1 S65536 where
  updateWindowDims := []
  insertedWindowDims := [0]
  scatterDimsToOperandDims := [0]
  indexVectorDim := 1
  wf := scatter_S32640_S65536x1_S65536_n_0_0_1_wf
def gather_S256x128_S32640x1_S32640x128_1_0_n_n_0_1_1128 : GatherDims S256x128 S32640x1 S32640x128 where
  offsetDims := [1]
  collapsedSliceDims := [0]
  operandBatchingDims := []
  startIndicesBatchingDims := []
  startIndexMap := [0]
  indexVectorDim := 1
  sliceSizes := ![1, 128]
  wf := gather_S256x128_S32640x1_S32640x128_1_0_n_n_0_1_1128_wf
def gather_S256_S32640x1_S32640_n_0_n_n_0_1_1 : GatherDims S256 S32640x1 S32640 where
  offsetDims := []
  collapsedSliceDims := [0]
  operandBatchingDims := []
  startIndicesBatchingDims := []
  startIndexMap := [0]
  indexVectorDim := 1
  sliceSizes := ![1]
  wf := gather_S256_S32640x1_S32640_n_0_n_n_0_1_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S256 : Shape := ⟨1, ![256]⟩
abbrev S_ : Shape := ⟨0, ![]⟩
abbrev S262144x1 : Shape := ⟨2, ![262144, 1]⟩
abbrev S256x128 : Shape := ⟨2, ![256, 128]⟩
abbrev S256x1 : Shape := ⟨2, ![256, 1]⟩
abbrev S256x256 : Shape := ⟨2, ![256, 256]⟩
abbrev S65536 : Shape := ⟨1, ![65536]⟩
abbrev S32640 : Shape := ⟨1, ![32640]⟩
abbrev S65536x1 : Shape := ⟨2, ![65536, 1]⟩
abbrev S32640x1 : Shape := ⟨2, ![32640, 1]⟩
abbrev S32640x128 : Shape := ⟨2, ![32640, 128]⟩

abbrev nBuf : Space → Nat
  | .hbm => 222
  | .vmem => 0
  | .smem => 0
  | _ => 0

abbrev hbmTy0_0 (i : Nat) : BufTy := match i % 128 with
  | 0 => ⟨S262144x128, .f32⟩
  | 1 => ⟨S262144, .i32⟩
  | 2 => ⟨S262144, .f32⟩
  | 3 => ⟨S256, .i32⟩
  | 4 => ⟨S_, .f32⟩
  | 5 => ⟨S262144, .f32⟩
  | 6 => ⟨S262144, .f32⟩
  | 7 => ⟨S262144x1, .f32⟩
  | 8 => ⟨S262144x128, .f32⟩
  | 9 => ⟨S262144x128, .f32⟩
  | 10 => ⟨S_, .f32⟩
  | 11 => ⟨S256x128, .f32⟩
  | 12 => ⟨S262144x1, .i32⟩
  | 13 => ⟨S256x128, .f32⟩
  | 14 => ⟨S_, .f32⟩
  | 15 => ⟨S256, .f32⟩
  | 16 => ⟨S262144x1, .i32⟩
  | 17 => ⟨S256, .f32⟩
  | 18 => ⟨S256x1, .f32⟩
  | 19 => ⟨S256x128, .f32⟩
  | 20 => ⟨S256x128, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x128, .f32⟩
  | 30 => ⟨S262144x128, .f32⟩
  | 31 => ⟨S262144x128, .f32⟩
  | 32 => ⟨S_, .f32⟩
  | 33 => ⟨S262144, .f32⟩
  | 34 => ⟨S_, .f32⟩
  | 35 => ⟨S262144, .f32⟩
  | 36 => ⟨S_, .f32⟩
  | 37 => ⟨S256, .f32⟩
  | 38 => ⟨S262144x1, .i32⟩
  | 39 => ⟨S256, .f32⟩
  | 40 => ⟨S_, .f32⟩
  | 41 => ⟨S256, .f32⟩
  | 42 => ⟨S262144x1, .i32⟩
  | 43 => ⟨S256, .f32⟩
  | 44 => ⟨S256, .f32⟩
  | 45 => ⟨S_, .f32⟩
  | 46 => ⟨S_, .f32⟩
  | 47 => ⟨S_, .f32⟩
  | 48 => ⟨S_, .f32⟩
  | 49 => ⟨S_, .f32⟩
  | 50 => ⟨S256x256, .f32⟩
  | 51 => ⟨S256x256, .i32⟩
  | 52 => ⟨S_, .i32⟩
  | 53 => ⟨S256x256, .i32⟩
  | 54 => ⟨S256x256, .i32⟩
  | 55 => ⟨S256x256, .i32⟩
  | 56 => ⟨S256x256, .i1⟩
  | 57 => ⟨S_, .f32⟩
  | 58 => ⟨S256x256, .f32⟩
  | 59 => ⟨S256x256, .f32⟩
  | 60 => ⟨S_, .f32⟩
  | 61 => ⟨S256x256, .f32⟩
  | 62 => ⟨S256x256, .i1⟩
  | 63 => ⟨S65536, .i1⟩
  | 64 => ⟨S65536, .i32⟩
  | 65 => ⟨S_, .i32⟩
  | 66 => ⟨S_, .i32⟩
  | 67 => ⟨S65536, .i32⟩
  | 68 => ⟨S_, .i32⟩
  | 69 => ⟨S32640, .i32⟩
  | 70 => ⟨S_, .i32⟩
  | 71 => ⟨S_, .i32⟩
  | 72 => ⟨S65536, .i32⟩
  | 73 => ⟨S65536, .i32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S_, .i32⟩
  | 83 => ⟨S65536, .i32⟩
  | 84 => ⟨S32640, .i32⟩
  | 85 => ⟨S_, .i32⟩
  | 86 => ⟨S_, .i32⟩
  | 87 => ⟨S32640, .i32⟩
  | 88 => ⟨S_, .i32⟩
  | 89 => ⟨S32640, .i32⟩
  | 90 => ⟨S32640, .i32⟩
  | 91 => ⟨S32640, .i32⟩
  | 92 => ⟨S_, .i32⟩
  | 93 => ⟨S32640, .i32⟩
  | 94 => ⟨S32640, .i1⟩
  | 95 => ⟨S32640, .i32⟩
  | 96 => ⟨S32640, .i32⟩
  | 97 => ⟨S_, .i32⟩
  | 98 => ⟨S32640, .i32⟩
  | 99 => ⟨S32640, .i1⟩
  | 100 => ⟨S32640, .i1⟩
  | 101 => ⟨S_, .i32⟩
  | 102 => ⟨S32640, .i32⟩
  | 103 => ⟨S32640, .i32⟩
  | 104 => ⟨S32640, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S32640, .i32⟩
  | 112 => ⟨S32640, .i32⟩
  | 113 => ⟨S_, .i32⟩
  | 114 => ⟨S32640, .i32⟩
  | 115 => ⟨S32640, .i1⟩
  | 116 => ⟨S_, .i32⟩
  | 117 => ⟨S32640, .i32⟩
  | 118 => ⟨S32640, .i1⟩
  | 119 => ⟨S_, .i32⟩
  | 120 => ⟨S_, .i1⟩
  | 121 => ⟨S32640, .i1⟩
  | 122 => ⟨S32640, .i1⟩
  | 123 => ⟨S32640, .i1⟩
  | 124 => ⟨S32640, .i32⟩
  | 125 => ⟨S32640, .i32⟩
  | 126 => ⟨S32640, .i32⟩
  | 127 => ⟨S_, .i32⟩
  | _ => ⟨S262144x128, .f32⟩

abbrev hbmTy0_1 (i : Nat) : BufTy := match i % 128 with
  | 0 => ⟨S32640, .i32⟩
  | 1 => ⟨S32640, .i32⟩
  | 2 => ⟨S32640, .i32⟩
  | 3 => ⟨S_, .i32⟩
  | 4 => ⟨S32640, .i32⟩
  | 5 => ⟨S32640, .i1⟩
  | 6 => ⟨S32640, .i32⟩
  | 7 => ⟨S32640, .i32⟩
  | 8 => ⟨S_, .i32⟩
  | 9 => ⟨S32640, .i32⟩
  | 10 => ⟨S32640, .i1⟩
  | 11 => ⟨S32640, .i1⟩
  | 12 => ⟨S_, .i32⟩
  | 13 => ⟨S32640, .i32⟩
  | 14 => ⟨S32640, .i32⟩
  | 15 => ⟨S32640, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S32640, .i32⟩
  | 23 => ⟨S32640, .i32⟩
  | 24 => ⟨S_, .i32⟩
  | 25 => ⟨S32640, .i32⟩
  | 26 => ⟨S32640, .i1⟩
  | 27 => ⟨S_, .i32⟩
  | 28 => ⟨S32640, .i32⟩
  | 29 => ⟨S32640, .i1⟩
  | 30 => ⟨S_, .i32⟩
  | 31 => ⟨S_, .i1⟩
  | 32 => ⟨S32640, .i1⟩
  | 33 => ⟨S32640, .i1⟩
  | 34 => ⟨S32640, .i1⟩
  | 35 => ⟨S32640, .i32⟩
  | 36 => ⟨S32640, .i32⟩
  | 37 => ⟨S32640, .i32⟩
  | 38 => ⟨S_, .i32⟩
  | 39 => ⟨S32640, .i32⟩
  | 40 => ⟨S32640, .i1⟩
  | 41 => ⟨S_, .i32⟩
  | 42 => ⟨S32640, .i32⟩
  | 43 => ⟨S32640, .i32⟩
  | 44 => ⟨S32640, .i32⟩
  | 45 => ⟨S32640x1, .i32⟩
  | 46 => ⟨S32640x128, .f32⟩
  | 47 => ⟨S_, .i32⟩
  | 48 => ⟨S32640, .i32⟩
  | 49 => ⟨S32640, .i1⟩
  | 50 => ⟨S_, .i32⟩
  | 51 => ⟨S32640, .i32⟩
  | 52 => ⟨S32640, .i32⟩
  | 53 => ⟨S32640, .i32⟩
  | 54 => ⟨S32640x1, .i32⟩
  | 55 => ⟨S32640x128, .f32⟩
  | 56 => ⟨S32640x128, .f32⟩
  | 57 => ⟨S32640x128, .f32⟩
  | 58 => ⟨S_, .f32⟩
  | 59 => ⟨S32640, .f32⟩
  | 60 => ⟨S32640, .f32⟩
  | 61 => ⟨S256, .f32⟩
  | 62 => ⟨S_, .f32⟩
  | 63 => ⟨S256, .f32⟩
  | 64 => ⟨S256, .f32⟩
  | 65 => ⟨S_, .i32⟩
  | 66 => ⟨S32640, .i32⟩
  | 67 => ⟨S32640, .i1⟩
  | 68 => ⟨S_, .i32⟩
  | 69 => ⟨S32640, .i32⟩
  | 70 => ⟨S32640, .i32⟩
  | 71 => ⟨S32640, .i32⟩
  | 72 => ⟨S32640x1, .i32⟩
  | 73 => ⟨S32640, .f32⟩
  | 74 => ⟨S_, .i32⟩
  | 75 => ⟨S32640, .i32⟩
  | 76 => ⟨S32640, .i1⟩
  | 77 => ⟨S_, .i32⟩
  | 78 => ⟨S32640, .i32⟩
  | 79 => ⟨S32640, .i32⟩
  | 80 => ⟨S32640, .i32⟩
  | 81 => ⟨S32640x1, .i32⟩
  | 82 => ⟨S32640, .f32⟩
  | 83 => ⟨S32640, .f32⟩
  | 84 => ⟨S32640, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_cst : Ref sig .tc := ⟨.hbm, 57, rfl⟩
abbrev main_call0_v5 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_call1_v0 : Ref sig .tc := ⟨.hbm, 63, rfl⟩
abbrev main_call1_v1 : Ref sig .tc := ⟨.hbm, 64, rfl⟩
abbrev main_call1_call0_c : Ref sig .tc := ⟨.hbm, 65, rfl⟩
abbrev main_call1_call0_v0 : Ref sig .tc := ⟨.hbm, 66, rfl⟩
abbrev main_v38 : Ref sig .tc := ⟨.hbm, 67, rfl⟩
abbrev main_c_11 : Ref sig .tc := ⟨.hbm, 68, rfl⟩
abbrev main_v39 : Ref sig .tc := ⟨.hbm, 69, rfl⟩
abbrev main_c_12 : Ref sig .tc := ⟨.hbm, 70, rfl⟩
abbrev main_call2_v0 : Ref sig .tc := ⟨.hbm, 71, rfl⟩
abbrev main_call2_v1 : Ref sig .tc := ⟨.hbm, 72, rfl⟩
abbrev main_v40 : Ref sig .tc := ⟨.hbm, 73, rfl⟩
abbrev main_c_13 : Ref sig .tc := ⟨.hbm, 74, rfl⟩
abbrev main_v41 : Ref sig .tc := ⟨.hbm, 75, rfl⟩
abbrev main_v42 : Ref sig .tc := ⟨.hbm, 76, rfl⟩
abbrev main_c_14 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_15 : Ref sig .tc := ⟨.hbm, 82, rfl⟩
abbrev main_v47 : Ref sig .tc := ⟨.hbm, 83, rfl⟩
abbrev main_v48 : Ref sig .tc := ⟨.hbm, 84, rfl⟩
abbrev main_call3_call0_c : Ref sig .tc := ⟨.hbm, 85, rfl⟩
abbrev main_call3_call0_v0 : Ref sig .tc := ⟨.hbm, 86, rfl⟩
abbrev main_v49 : Ref sig .tc := ⟨.hbm, 87, rfl⟩
abbrev main_c_16 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_c : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_c_0 : Ref sig .tc := ⟨.hbm, 101, rfl⟩
abbrev main_call4_v11 : Ref sig .tc := ⟨.hbm, 102, rfl⟩
abbrev main_call4_v12 : Ref sig .tc := ⟨.hbm, 103, rfl⟩
abbrev main_v50 : Ref sig .tc := ⟨.hbm, 104, rfl⟩
abbrev main_c_17 : Ref sig .tc := ⟨.hbm, 105, rfl⟩
abbrev main_call5_v0 : Ref sig .tc := ⟨.hbm, 106, rfl⟩
abbrev main_call5_c : Ref sig .tc := ⟨.hbm, 107, rfl⟩
abbrev main_call5_v1 : Ref sig .tc := ⟨.hbm, 108, rfl⟩
abbrev main_call5_c_0 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_c_1 : Ref sig .tc := ⟨.hbm, 113, rfl⟩
abbrev main_call5_v5 : Ref sig .tc := ⟨.hbm, 114, rfl⟩
abbrev main_call5_v6 : Ref sig .tc := ⟨.hbm, 115, rfl⟩
abbrev main_call5_c_2 : Ref sig .tc := ⟨.hbm, 116, rfl⟩
abbrev main_call5_v7 : Ref sig .tc := ⟨.hbm, 117, rfl⟩
abbrev main_call5_v8 : Ref sig .tc := ⟨.hbm, 118, rfl⟩
abbrev main_call5_c_3 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_v12 : Ref sig .tc := ⟨.hbm, 123, rfl⟩
abbrev main_call5_v13 : Ref sig .tc := ⟨.hbm, 124, rfl⟩
abbrev main_call5_v14 : Ref sig .tc := ⟨.hbm, 125, rfl⟩
abbrev main_v51 : Ref sig .tc := ⟨.hbm, 126, rfl⟩
abbrev main_c_18 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_v5 : Ref sig .tc := ⟨.hbm, 133, rfl⟩
abbrev main_call6_v6 : Ref sig .tc := ⟨.hbm, 134, rfl⟩
abbrev main_call6_v7 : Ref sig .tc := ⟨.hbm, 135, rfl⟩
abbrev main_call6_c : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_c_0 : Ref sig .tc := ⟨.hbm, 140, rfl⟩
abbrev main_call6_v11 : Ref sig .tc := ⟨.hbm, 141, rfl⟩
abbrev main_call6_v12 : Ref sig .tc := ⟨.hbm, 142, rfl⟩
abbrev main_v52 : Ref sig .tc := ⟨.hbm, 143, rfl⟩
abbrev main_c_19 : Ref sig .tc := ⟨.hbm, 144, rfl⟩
abbrev main_call7_v0 : Ref sig .tc := ⟨.hbm, 145, rfl⟩
abbrev main_call7_c : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_c_1 : Ref sig .tc := ⟨.hbm, 152, rfl⟩
abbrev main_call7_v5 : Ref sig .tc := ⟨.hbm, 153, rfl⟩
abbrev main_call7_v6 : Ref sig .tc := ⟨.hbm, 154, rfl⟩
abbrev main_call7_c_2 : Ref sig .tc := ⟨.hbm, 155, rfl⟩
abbrev main_call7_v7 : Ref sig .tc := ⟨.hbm, 156, rfl⟩
abbrev main_call7_v8 : Ref sig .tc := ⟨.hbm, 157, rfl⟩
abbrev main_call7_c_3 : Ref sig .tc := ⟨.hbm, 158, rfl⟩
abbrev main_call7_v9 : Ref sig .tc := ⟨.hbm, 159, rfl⟩
abbrev main_call7_v10 : Ref sig .tc := ⟨.hbm, 160, rfl⟩
abbrev main_call7_v11 : Ref sig .tc := ⟨.hbm, 161, rfl⟩
abbrev main_call7_v12 : Ref sig .tc := ⟨.hbm, 162, rfl⟩
abbrev main_call7_v13 : Ref sig .tc := ⟨.hbm, 163, rfl⟩
abbrev main_call7_v14 : Ref sig .tc := ⟨.hbm, 164, rfl⟩
abbrev main_v53 : Ref sig .tc := ⟨.hbm, 165, rfl⟩
abbrev main_c_20 : Ref sig .tc := ⟨.hbm, 166, rfl⟩
abbrev main_v54 : Ref sig .tc := ⟨.hbm, 167, rfl⟩
abbrev main_v55 : Ref sig .tc := ⟨.hbm, 168, rfl⟩
abbrev main_c_21 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_c_22 : Ref sig .tc := ⟨.hbm, 175, rfl⟩
abbrev main_v61 : Ref sig .tc := ⟨.hbm, 176, rfl⟩
abbrev main_v62 : Ref sig .tc := ⟨.hbm, 177, rfl⟩
abbrev main_c_23 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_cst_24 : Ref sig .tc := ⟨.hbm, 186, rfl⟩
abbrev main_v70 : Ref sig .tc := ⟨.hbm, 187, rfl⟩
abbrev main_v71 : Ref sig .tc := ⟨.hbm, 188, rfl⟩
abbrev main_v72 : Ref sig .tc := ⟨.hbm, 189, rfl⟩
abbrev main_cst_25 : Ref sig .tc := ⟨.hbm, 190, rfl⟩
abbrev main_v73 : Ref sig .tc := ⟨.hbm, 191, rfl⟩
abbrev main_v74 : Ref sig .tc := ⟨.hbm, 192, rfl⟩
abbrev main_c_26 : Ref sig .tc := ⟨.hbm, 193, rfl⟩
abbrev main_v75 : Ref sig .tc := ⟨.hbm, 194, rfl⟩
abbrev main_v76 : Ref sig .tc := ⟨.hbm, 195, rfl⟩
abbrev main_c_27 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_c_28 : Ref sig .tc := ⟨.hbm, 202, rfl⟩
abbrev main_v82 : Ref sig .tc := ⟨.hbm, 203, rfl⟩
abbrev main_v83 : Ref sig .tc := ⟨.hbm, 204, rfl⟩
abbrev main_c_29 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_30 : Ref sig .tc := ⟨.hbm, 213, rfl⟩
abbrev main_v91 : Ref sig .tc := ⟨.hbm, 214, rfl⟩
abbrev main_cst_31 : Ref sig .tc := ⟨.hbm, 215, rfl⟩
abbrev main_v92 : Ref sig .tc := ⟨.hbm, 216, rfl⟩
abbrev main_cst_32 : Ref sig .tc := ⟨.hbm, 217, rfl⟩
abbrev main_v93 : Ref sig .tc := ⟨.hbm, 218, rfl⟩
abbrev main_v94 : Ref sig .tc := ⟨.hbm, 219, rfl⟩
abbrev main_cst_33 : Ref sig .tc := ⟨.hbm, 220, rfl⟩
abbrev main_v95 : Ref sig .tc := ⟨.hbm, 221, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S262144x128_S262144_d1 : S262144x128.ReducesTo [1] S262144
  h_S_ : 0 < S_.numel
  reducesTo_S256_S_d0 : S256.ReducesTo [0] S_
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  bcast_S_S32640 : S_.BroadcastsInDim S32640 (![] : Fin 0 → Fin S32640.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32640_S32640_w32640s1p32639_0 : S32640.ReduceWindows (![32640] : Fin 1 → Nat) ![1] ![32639] ![0] S32640
  bcast_S32640_S32640x1_0 : S32640.BroadcastsInDim S32640x1 (![0] : Fin 1 → Fin S32640x1.rank)
  reducesTo_S32640x128_S32640_d1 : S32640x128.ReducesTo [1] S32640
  reducesTo_S32640_S_d0 : S32640.ReducesTo [0] S_
  scatter_S256x128_S262144x1_S262144x128_1_0_0_1_wf : ScatterDims.WF S256x128 S262144x1 S262144x128 [1] [0] [0] 1
  scatter_S256_S262144x1_S262144_n_0_0_1_wf : ScatterDims.WF S256 S262144x1 S262144 [] [0] [0] 1
  gather_S256x128_S262144x1_S262144x128_1_0_n_n_0_1_1128_wf : GatherDims.WF S256x128 S262144x1 S262144x128 [1] [0] [] [0] [] 1 ![1, 128]
  scatter_S32640_S65536x1_S65536_n_0_0_1_wf : ScatterDims.WF S32640 S65536x1 S65536 [] [0] [0] 1
  gather_S256x128_S32640x1_S32640x128_1_0_n_n_0_1_1128_wf : GatherDims.WF S256x128 S32640x1 S32640x128 [1] [0] [] [0] [] 1 ![1, 128]
  gather_S256_S32640x1_S32640_n_0_n_n_0_1_1_wf : GatherDims.WF S256 S32640x1 S32640 [] [0] [] [0] [] 1 ![1]

variable [Facts₀]

def scatter_S256x128_S262144x1_S262144x128_1_0_0_1 : ScatterDims S256x128 S262144x1 S262144x128 where
  updateWindowDims := [1]
  insertedWindowDims := [0]
  scatterDimsToOperandDims := [0]
  indexVectorDim := 1
  wf := scatter_S256x128_S262144x1_S262144x128_1_0_0_1_wf
def scatter_S256_S262144x1_S262144_n_0_0_1 : ScatterDims S256 S262144x1 S262144 where
  updateWindowDims := []
  insertedWindowDims := [0]
  scatterDimsToOperandDims := [0]
  indexVectorDim := 1
  wf := scatter_S256_S262144x1_S262144_n_0_0_1_wf
def gather_S256x128_S262144x1_S262144x128_1_0_n_n_0_1_1128 : GatherDims S256x128 S262144x1 S262144x128 where
  offsetDims := [1]
  collapsedSliceDims := [0]
  operandBatchingDims := []
  startIndicesBatchingDims := []
  startIndexMap := [0]
  indexVectorDim := 1
  sliceSizes := ![1, 128]
  wf := gather_S256x128_S262144x1_S262144x128_1_0_n_n_0_1_1128_wf
def scatter_S32640_S65536x1_S65536_n_0_0_1 : ScatterDims S32640 S65536x1 S65536 where
  updateWindowDims := []
  insertedWindowDims := [0]
  scatterDimsToOperandDims := [0]
  indexVectorDim := 1
  wf := scatter_S32640_S65536x1_S65536_n_0_0_1_wf
def gather_S256x128_S32640x1_S32640x128_1_0_n_n_0_1_1128 : GatherDims S256x128 S32640x1 S32640x128 where
  offsetDims := [1]
  collapsedSliceDims := [0]
  operandBatchingDims := []
  startIndicesBatchingDims := []
  startIndexMap := [0]
  indexVectorDim := 1
  sliceSizes := ![1, 128]
  wf := gather_S256x128_S32640x1_S32640x128_1_0_n_n_0_1_1128_wf
def gather_S256_S32640x1_S32640_n_0_n_n_0_1_1 : GatherDims S256 S32640x1 S32640 where
  offsetDims := []
  collapsedSliceDims := [0]
  operandBatchingDims := []
  startIndicesBatchingDims := []
  startIndexMap := [0]
  indexVectorDim := 1
  sliceSizes := ![1]
  wf := gather_S256_S32640x1_S32640_n_0_n_n_0_1_1_wf

class Facts : Prop extends Facts₀ where

variable [Facts]
-- ==== Proof.KBRuns.lean ====
/- What the frame run of the kernel's pipeline shares: @main as the region continued by its host tail, the region-entry
   contents, the tail's side conditions, the windows' blocks, the branch condition in closed form, the staging memrefs. -/
import proofs.«414854_j77403900608667_3_alg».proof.Proof.Gen.Kernel.Launch
import proofs.«414854_j77403900608667_3_alg».proof.Proof.Gen.Kernel.Skeleton
import proofs.«414854_j77403900608667_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region

@main is the region followed by seventeen stretches of host operations. -/

/-- The stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s TensorCore buffer contents when the region is entered, as a valuation: nothing runs before the region. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-! ### No operation after the region allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh⟩

theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

/-! ### Every operation after the region writes one buffer, which is neither an array of the pipeline nor an argument -/

/-- The pipeline's arrays (the three staged arguments and the kernel's result) and the fourth argument. -/
abbrev keptRefs : List (Ref sig .tc) := [main_arg0, main_arg1, main_arg2, main_arg3, main_v0]

/-- The operation writes exactly one buffer, and that buffer is none of `keptRefs`. -/
abbrev WritesOff (op : HloOp τ sig (Elt F)) : Prop :=
  ∃ y : Ref sig .tc, op.writes = {Proc.devRef .tc y} ∧ y ∉ keptRefs

/-- An operation writing off `keptRefs` writes none of them. -/
theorem not_writes_of_off {op : HloOp τ sig (Elt F)} (h : WritesOff op) {r : Ref sig .tc} (hr : r ∈ keptRefs) :
    Proc.devRef .tc r ∉ op.writes := by
  obtain ⟨y, hy, hn⟩ := h
  rw [hy, Finset.mem_singleton]
  exact StableHlo.devRef_ne_of_ne (fun e => hn (e ▸ hr))

theorem hostOps1_off : (hostOps1 : List (HloOp τ sig (Elt F))).Forall WritesOff := by
  simp only [List.Forall]; repeat' (first | exact ⟨_, rfl, by decide⟩ | apply And.intro)
theorem hostOps1_1_off : (hostOps1_1 : List (HloOp τ sig (Elt F))).Forall WritesOff := by
  simp only [List.Forall]; repeat' (first | exact ⟨_, rfl, by decide⟩ | apply And.intro)
theorem hostOps1_2_off : (hostOps1_2 : List (HloOp τ sig (Elt F))).Forall WritesOff := by
  simp only [List.Forall]; repeat' (first | exact ⟨_, rfl, by decide⟩ | apply And.intro)
theorem hostOps1_3_off : (hostOps1_3 : List (HloOp τ sig (Elt F))).Forall WritesOff := by
  simp only [List.Forall]; repeat' (first | exact ⟨_, rfl, by decide⟩ | apply And.intro)
theorem hostOps1_4_off : (hostOps1_4 : List (HloOp τ sig (Elt F))).Forall WritesOff := by
  simp only [List.Forall]; repeat' (first | exact ⟨_, rfl, by decide⟩ | apply And.intro)
theorem hostOps1_5_off : (hostOps1_5 : List (HloOp τ sig (Elt F))).Forall WritesOff := by
  simp only [List.Forall]; repeat' (first | exact ⟨_, rfl, by decide⟩ | apply And.intro)
theorem hostOps1_6_off : (hostOps1_6 : List (HloOp τ sig (Elt F))).Forall WritesOff := by
  simp only [List.Forall]; repeat' (first | exact ⟨_, rfl, by decide⟩ | apply And.intro)
theorem hostOps1_7_off : (hostOps1_7 : List (HloOp τ sig (Elt F))).Forall WritesOff := by
  simp only [List.Forall]; repeat' (first | exact ⟨_, rfl, by decide⟩ | apply And.intro)
theorem hostOps1_8_off : (hostOps1_8 : List (HloOp τ sig (Elt F))).Forall WritesOff := by
  simp only [List.Forall]; repeat' (first | exact ⟨_, rfl, by decide⟩ | apply And.intro)
theorem hostOps1_9_off : (hostOps1_9 : List (HloOp τ sig (Elt F))).Forall WritesOff := by
  simp only [List.Forall]; repeat' (first | exact ⟨_, rfl, by decide⟩ | apply And.intro)
theorem hostOps1_10_off : (hostOps1_10 : List (HloOp τ sig (Elt F))).Forall WritesOff := by
  simp only [List.Forall]; repeat' (first | exact ⟨_, rfl, by decide⟩ | apply And.intro)
theorem hostOps1_11_off : (hostOps1_11 : List (HloOp τ sig (Elt F))).Forall WritesOff := by
  simp only [List.Forall]; repeat' (first | exact ⟨_, rfl, by decide⟩ | apply And.intro)
theorem hostOps1_12_off : (hostOps1_12 : List (HloOp τ sig (Elt F))).Forall WritesOff := by
  simp only [List.Forall]; repeat' (first | exact ⟨_, rfl, by decide⟩ | apply And.intro)
theorem hostOps1_13_off : (hostOps1_13 : List (HloOp τ sig (Elt F))).Forall WritesOff := by
  simp only [List.Forall]; repeat' (first | exact ⟨_, rfl, by decide⟩ | apply And.intro)
theorem hostOps1_14_off : (hostOps1_14 : List (HloOp τ sig (Elt F))).Forall WritesOff := by
  simp only [List.Forall]; repeat' (first | exact ⟨_, rfl, by decide⟩ | apply And.intro)
theorem hostOps1_15_off : (hostOps1_15 : List (HloOp τ sig (Elt F))).Forall WritesOff := by
  simp only [List.Forall]; repeat' (first | exact ⟨_, rfl, by decide⟩ | apply And.intro)
theorem hostOps1_16_off : (hostOps1_16 : List (HloOp τ sig (Elt F))).Forall WritesOff := by
  simp only [List.Forall]; repeat' (first | exact ⟨_, rfl, by decide⟩ | apply And.intro)

theorem tail_off : (tailOps (F := F)).Forall fun ops => ops.Forall WritesOff :=
  ⟨hostOps1_off, hostOps1_1_off, hostOps1_2_off, hostOps1_3_off, hostOps1_4_off, hostOps1_5_off, hostOps1_6_off, hostOps1_7_off, hostOps1_8_off, hostOps1_9_off, hostOps1_10_off, hostOps1_11_off, hostOps1_12_off, hostOps1_13_off, hostOps1_14_off, hostOps1_15_off, hostOps1_16_off⟩

/-- Every array of the pipeline is one of `keptRefs`. -/
theorem arr_kept : ∀ w : Fin 4, Pipeline.arrRef spec0 w ∈ keptRefs := by decide

/-! ### @main as the region continued by the tail -/

/-- @main around the region: no host line before it, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)
/-- They allocate nothing. -/
theorem sfx_fresh : ∀ ops ∈ (tailOps : List (List (HloOp τ sig (Elt F)))), ∀ op ∈ ops, op.fresh = ∅ :=
  fun ops hops op hop => List.forall_iff_forall_mem.mp (List.forall_iff_forall_mem.mp tail_fresh ops hops) op hop
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w =>
    not_writes_of_off (List.forall_iff_forall_mem.mp (List.forall_iff_forall_mem.mp tail_off ops hops) op hop) (arr_kept w)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is
    `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is
    `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region the fourth argument holds what it held at launch: it is no array of the
    pipeline and no line writes it. -/
theorem afterTail_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  have hw : ∀ op ∈ (tailOps (F := F)).flatten, Proc.devRef (τ := τ) .tc main_arg3 ∉ op.writes := fun op hop => by
    obtain ⟨ops, hops, hop'⟩ := List.mem_flatten.mp hop
    exact not_writes_of_off (List.forall_iff_forall_mem.mp (List.forall_iff_forall_mem.mp tail_off ops hops) op hop') (by decide)
  exact (StableHlo.after_of_forall_not_mem _ _ hw).trans
    ((Pipeline.withArrays_of_ne _ c (V0 m c) _ main_arg3 (by decide)).trans rfl)

/-- The frame from a frame run: for any proof data whose arrays are the region-entry contents, a run to the frame post
    read at the argument arrays (a staged input keeps its entry contents; the fourth argument bypasses the region and
    the tail) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (afterTail_main_arg3 m dats c)⟩) h

/-! ## The body's branch condition -/

/-- The condition of the body's one conditional, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16), decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of output window 3, through which its contents are stated (the choice does not matter). -/
abbrev VO0_3 : View sig .tc .vmem S1x256x384 .f32 := (Memref.whole cc0_stg3_0 : Memref sig .tc .vmem S1x256x384 .f32).view
/-- Each window's current staging memref at point `t`, spelled as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x384 .f32 := win0_3.stage (cfg0.slots t 3)
abbrev hs0_3 (t : Fin cfg0.N) : (ms0_3 t).IsWhole := hstage0_3 ((cfg0.slots t 3).cast nbuf0_3)

end Cert.Kernel.Hand

end
-- ==== Proof.KBRunA.lean ====
/- The kernel body's run at a point where the inner grid coordinate is zero: the accumulator block is reset, then the
   point's product is added to it. -/
import proofs.«414854_j77403900608667_3_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref, as pieces (last first), at a point whose inner
    coordinate is zero, with the proof that on whole staging memrefs (the inputs' at their contents, the output's at
    anything) the body runs to the continuation holding the inputs' as they were and the output's buffer with the
    pieces written. -/
noncomputable def kernelRun0_A (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) :
    { L3 : List (View.Piece (Elt F) S1x256x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KBRunB.lean ====
/- The kernel body's run at a point where the inner grid coordinate is not zero: the point's product is added to what
   the accumulator block holds. -/
import proofs.«414854_j77403900608667_3_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref, as pieces (last first), at a point whose inner
    coordinate is not zero, with the proof that on whole staging memrefs (the inputs' at their contents, the output's at
    its running contents `xo3`, which the body reads before covering) the body runs to the continuation holding the
    inputs' as they were and the output's buffer with the pieces written. -/
noncomputable def kernelRun0_B (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) :
    { L3 : List (View.Piece (Elt F) S1x256x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KBFrame.lean ====
/- The frame run of the kernel's pipeline: what the accumulator block holds per case and point by point, the proof
   data, the body obligation, the run of @main (the region continued by its host tail), and the frame. -/
import proofs.«414854_j77403900608667_3_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point whose inner coordinate is zero the pieces tile the output block (two stores of the whole block), so they
    cover it. -/
theorem cover0_A_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) (y : S1x256x384.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x256x384.size (by sl_kernel_rfl) y

/-- What such a point leaves in the output's staging buffer: its pieces read back over junk. -/
def out0_A_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) : Vec F S1x256x384 .f32 :=
  VO0_3.read (Elt F) (VO0_3.writes (Elt F) VO0_3.junk (kernelRun0_A c i arg2 harg2 arg3 harg3 arg4 harg4 arg5 harg5 hc0 x0 x1 x2).1)

/-- At a point whose inner coordinate is not zero the pieces tile the output block (one store of the whole block), so
    they cover it. -/
theorem cover0_B_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) (y : S1x256x384.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x256x384.size (by sl_kernel_rfl) y

/-- What such a point leaves in the output's staging buffer: its pieces read back over junk. -/
def out0_B_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) : Vec F S1x256x384 .f32 :=
  VO0_3.read (Elt F) (VO0_3.writes (Elt F) VO0_3.junk (kernelRun0_B c i arg2 harg2 arg3 harg3 arg4 harg4 arg5 harg5 hc0 x0 x1 x2 xo3).1)

/-! ## What the output holds after each point -/

/-- The accumulation. What the output's staging buffer holds after the body at position `n`: the case the closed form
    selects at `n`, run at the point's memrefs and input blocks; where the block is not reset, over what this leaves at
    `n - 1` (the buffer is not written back between). -/
def outsAt0 (c : Dev nD) : (n : ℕ) → n < cfg0.N → Vec F S1x256x384 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a point whose inner coordinate is zero. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- `outsAt0` at a point whose inner coordinate is not zero: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point whose inner coordinate is not zero the output's current staging buffer holds what the body left at the
    point before: the point is not the first, and the buffer was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the closed form says which case the point is in; where
    the block is not reset the output's memref holds what the point before left; so the run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: @main runs, and the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIRuns.lean ====
/- What the frame run of the kernel's pipeline shares: @main as the region continued by its host tail, the region-entry
   contents, the tail's side conditions, the windows' blocks, the branch condition in closed form, the staging memrefs. -/
import proofs.«414854_j77403900608667_3_alg».proof.Proof.Gen.KernelIdeal.Launch
import proofs.«414854_j77403900608667_3_alg».proof.Proof.Gen.KernelIdeal.Skeleton
import proofs.«414854_j77403900608667_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region

@main is the region followed by seventeen stretches of host operations. -/

/-- The stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s TensorCore buffer contents when the region is entered, as a valuation: nothing runs before the region. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-! ### No operation after the region allocates -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh⟩

theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub⟩

/-! ### Every operation after the region writes one buffer, which is neither an array of the pipeline nor an argument -/

/-- The pipeline's arrays (the three staged arguments and the kernel's result) and the fourth argument. -/
abbrev keptRefs : List (Ref sig .tc) := [main_arg0, main_arg1, main_arg2, main_arg3, main_v0]

/-- The operation writes exactly one buffer, and that buffer is none of `keptRefs`. -/
abbrev WritesOff (op : HloOp τ sig (Elt F)) : Prop :=
  ∃ y : Ref sig .tc, op.writes = {Proc.devRef .tc y} ∧ y ∉ keptRefs

/-- An operation writing off `keptRefs` writes none of them. -/
theorem not_writes_of_off {op : HloOp τ sig (Elt F)} (h : WritesOff op) {r : Ref sig .tc} (hr : r ∈ keptRefs) :
    Proc.devRef .tc r ∉ op.writes := by
  obtain ⟨y, hy, hn⟩ := h
  rw [hy, Finset.mem_singleton]
  exact StableHlo.devRef_ne_of_ne (fun e => hn (e ▸ hr))

theorem hostOps1_off : (hostOps1 : List (HloOp τ sig (Elt F))).Forall WritesOff := by
  simp only [List.Forall]; repeat' (first | exact ⟨_, rfl, by decide⟩ | apply And.intro)
theorem hostOps1_1_off : (hostOps1_1 : List (HloOp τ sig (Elt F))).Forall WritesOff := by
  simp only [List.Forall]; repeat' (first | exact ⟨_, rfl, by decide⟩ | apply And.intro)
theorem hostOps1_2_off : (hostOps1_2 : List (HloOp τ sig (Elt F))).Forall WritesOff := by
  simp only [List.Forall]; repeat' (first | exact ⟨_, rfl, by decide⟩ | apply And.intro)
theorem hostOps1_3_off : (hostOps1_3 : List (HloOp τ sig (Elt F))).Forall WritesOff := by
  simp only [List.Forall]; repeat' (first | exact ⟨_, rfl, by decide⟩ | apply And.intro)
theorem hostOps1_4_off : (hostOps1_4 : List (HloOp τ sig (Elt F))).Forall WritesOff := by
  simp only [List.Forall]; repeat' (first | exact ⟨_, rfl, by decide⟩ | apply And.intro)
theorem hostOps1_5_off : (hostOps1_5 : List (HloOp τ sig (Elt F))).Forall WritesOff := by
  simp only [List.Forall]; repeat' (first | exact ⟨_, rfl, by decide⟩ | apply And.intro)
theorem hostOps1_6_off : (hostOps1_6 : List (HloOp τ sig (Elt F))).Forall WritesOff := by
  simp only [List.Forall]; repeat' (first | exact ⟨_, rfl, by decide⟩ | apply And.intro)
theorem hostOps1_7_off : (hostOps1_7 : List (HloOp τ sig (Elt F))).Forall WritesOff := by
  simp only [List.Forall]; repeat' (first | exact ⟨_, rfl, by decide⟩ | apply And.intro)
theorem hostOps1_8_off : (hostOps1_8 : List (HloOp τ sig (Elt F))).Forall WritesOff := by
  simp only [List.Forall]; repeat' (first | exact ⟨_, rfl, by decide⟩ | apply And.intro)
theorem hostOps1_9_off : (hostOps1_9 : List (HloOp τ sig (Elt F))).Forall WritesOff := by
  simp only [List.Forall]; repeat' (first | exact ⟨_, rfl, by decide⟩ | apply And.intro)
theorem hostOps1_10_off : (hostOps1_10 : List (HloOp τ sig (Elt F))).Forall WritesOff := by
  simp only [List.Forall]; repeat' (first | exact ⟨_, rfl, by decide⟩ | apply And.intro)
theorem hostOps1_11_off : (hostOps1_11 : List (HloOp τ sig (Elt F))).Forall WritesOff := by
  simp only [List.Forall]; repeat' (first | exact ⟨_, rfl, by decide⟩ | apply And.intro)
theorem hostOps1_12_off : (hostOps1_12 : List (HloOp τ sig (Elt F))).Forall WritesOff := by
  simp only [List.Forall]; repeat' (first | exact ⟨_, rfl, by decide⟩ | apply And.intro)
theorem hostOps1_13_off : (hostOps1_13 : List (HloOp τ sig (Elt F))).Forall WritesOff := by
  simp only [List.Forall]; repeat' (first | exact ⟨_, rfl, by decide⟩ | apply And.intro)
theorem hostOps1_14_off : (hostOps1_14 : List (HloOp τ sig (Elt F))).Forall WritesOff := by
  simp only [List.Forall]; repeat' (first | exact ⟨_, rfl, by decide⟩ | apply And.intro)
theorem hostOps1_15_off : (hostOps1_15 : List (HloOp τ sig (Elt F))).Forall WritesOff := by
  simp only [List.Forall]; repeat' (first | exact ⟨_, rfl, by decide⟩ | apply And.intro)
theorem hostOps1_16_off : (hostOps1_16 : List (HloOp τ sig (Elt F))).Forall WritesOff := by
  simp only [List.Forall]; repeat' (first | exact ⟨_, rfl, by decide⟩ | apply And.intro)

theorem tail_off : (tailOps (F := F)).Forall fun ops => ops.Forall WritesOff :=
  ⟨hostOps1_off, hostOps1_1_off, hostOps1_2_off, hostOps1_3_off, hostOps1_4_off, hostOps1_5_off, hostOps1_6_off, hostOps1_7_off, hostOps1_8_off, hostOps1_9_off, hostOps1_10_off, hostOps1_11_off, hostOps1_12_off, hostOps1_13_off, hostOps1_14_off, hostOps1_15_off, hostOps1_16_off⟩

/-- Every array of the pipeline is one of `keptRefs`. -/
theorem arr_kept : ∀ w : Fin 4, Pipeline.arrRef spec0 w ∈ keptRefs := by decide

/-! ### @main as the region continued by the tail -/

/-- @main around the region: no host line before it, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)
/-- They allocate nothing. -/
theorem sfx_fresh : ∀ ops ∈ (tailOps : List (List (HloOp τ sig (Elt F)))), ∀ op ∈ ops, op.fresh = ∅ :=
  fun ops hops op hop => List.forall_iff_forall_mem.mp (List.forall_iff_forall_mem.mp tail_fresh ops hops) op hop
/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w =>
    not_writes_of_off (List.forall_iff_forall_mem.mp (List.forall_iff_forall_mem.mp tail_off ops hops) op hop) (arr_kept w)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is
    `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is
    `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the lines that follow the region the fourth argument holds what it held at launch: it is no array of the
    pipeline and no line writes it. -/
theorem afterTail_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  have hw : ∀ op ∈ (tailOps (F := F)).flatten, Proc.devRef (τ := τ) .tc main_arg3 ∉ op.writes := fun op hop => by
    obtain ⟨ops, hops, hop'⟩ := List.mem_flatten.mp hop
    exact not_writes_of_off (List.forall_iff_forall_mem.mp (List.forall_iff_forall_mem.mp tail_off ops hops) op hop') (by decide)
  exact (StableHlo.after_of_forall_not_mem _ _ hw).trans
    ((Pipeline.withArrays_of_ne _ c (V0 m c) _ main_arg3 (by decide)).trans rfl)

/-- The frame from a frame run: for any proof data whose arrays are the region-entry contents, a run to the frame post
    read at the argument arrays (a staged input keeps its entry contents; the fourth argument bypasses the region and
    the tail) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (afterTail_main_arg3 m dats c)⟩) h

/-! ## The body's branch condition -/

/-- The condition of the body's one conditional, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 16), decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of output window 3, through which its contents are stated (the choice does not matter). -/
abbrev VO0_3 : View sig .tc .vmem S1x256x384 .f32 := (Memref.whole cc0_stg3_0 : Memref sig .tc .vmem S1x256x384 .f32).view
/-- Each window's current staging memref at point `t`, spelled as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x384 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KIRunA.lean ====
/- The kernel body's run at a point where the inner grid coordinate is zero: the accumulator block is reset, then the
   point's product is added to it. -/
import proofs.«414854_j77403900608667_3_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref, as pieces (last first), at a point whose inner
    coordinate is zero, with the proof that on whole staging memrefs (the inputs' at their contents, the output's at
    anything) the body runs to the continuation holding the inputs' as they were and the output's buffer with the
    pieces written. -/
noncomputable def kernelRun0_A (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) :
    { L3 : List (View.Piece (Elt F) S1x256x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIRunB.lean ====
/- The kernel body's run at a point where the inner grid coordinate is not zero: the point's product is added to what
   the accumulator block holds. -/
import proofs.«414854_j77403900608667_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref, as pieces (last first), at a point whose inner
    coordinate is not zero, with the proof that on whole staging memrefs (the inputs' at their contents, the output's at
    its running contents `xo3`, which the body reads before covering) the body runs to the continuation holding the
    inputs' as they were and the output's buffer with the pieces written. -/
noncomputable def kernelRun0_B (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) :
    { L3 : List (View.Piece (Elt F) S1x256x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIFrame.lean ====
/- The frame run of the kernel's pipeline: what the accumulator block holds per case and point by point, the proof
   data, the body obligation, the run of @main (the region continued by its host tail), and the frame. -/
import proofs.«414854_j77403900608667_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a point whose inner coordinate is zero the pieces tile the output block (two stores of the whole block), so they
    cover it. -/
theorem cover0_A_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) (y : S1x256x384.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x256x384.size (by sl_kernel_rfl) y

/-- What such a point leaves in the output's staging buffer: its pieces read back over junk. -/
def out0_A_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : cond0_0 i)
    (x0 : Vec F S8192x128 .f32) (x1 : Vec F S8192 .i32) (x2 : Vec F S8192 .f32) : Vec F S1x256x384 .f32 :=
  VO0_3.read (Elt F) (VO0_3.writes (Elt F) VO0_3.junk (kernelRun0_A c i arg2 harg2 arg3 harg3 arg4 harg4 arg5 harg5 hc0 x0 x1 x2).1)

/-- At a point whose inner coordinate is not zero the pieces tile the output block (one store of the whole block), so
    they cover it. -/
theorem cover0_B_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) (y : S1x256x384.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x256x384.size (by sl_kernel_rfl) y

/-- What such a point leaves in the output's staging buffer: its pieces read back over junk. -/
def out0_B_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S8192 .f32) (harg4 : arg4.IsWhole) (arg5 : Memref sig .tc .vmem S1x256x384 .f32) (harg5 : arg5.IsWhole) (hc0 : ¬cond0_0 i)
    (x0 : Vec F S8192x128 .f32) (x1 : Vec F S8192 .i32) (x2 : Vec F S8192 .f32) (xo3 : Vec F S1x256x384 .f32) : Vec F S1x256x384 .f32 :=
  VO0_3.read (Elt F) (VO0_3.writes (Elt F) VO0_3.junk (kernelRun0_B c i arg2 harg2 arg3 harg3 arg4 harg4 arg5 harg5 hc0 x0 x1 x2 xo3).1)

/-! ## What the output holds after each point -/

/-- The accumulation. What the output's staging buffer holds after the body at position `n`: the case the closed form
    selects at `n`, run at the point's memrefs and input blocks; where the block is not reset, over what this leaves at
    `n - 1` (the buffer is not written back between). -/
def outsAt0 (c : Dev nD) : (n : ℕ) → n < cfg0.N → Vec F S1x256x384 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a point whose inner coordinate is zero. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- `outsAt0` at a point whose inner coordinate is not zero: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point whose inner coordinate is not zero the output's current staging buffer holds what the body left at the
    point before: the point is not the first, and the buffer was not written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the closed form says which case the point is in; where
    the block is not reset the output's memref holds what the point before left; so the run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: @main runs, and the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.ROps.lean ====
import proofs.«414854_j77403900608667_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first 47 operations of @main, in order: the segment sums, the centroids, the direct
    intra-cluster loss, and the all-ones 256x256 table the pair enumeration starts from. -/
abbrev opsA : List (HloOp τ sig (Elt F)) :=
  [ StableHlo.nullary main_cst (constant S_ .f32 0x3F000000#32),
    StableHlo.unary main_cst main_v0 (broadcastInDim S262144 ![] bcast_S_S262144 : (⟨S_, .f32⟩ : BufTy).Contents (Elt F) → (⟨S262144, .f32⟩ : BufTy).Contents (Elt F)),
    StableHlo.binary main_arg2 main_v0 main_v1 (Host.powf : (⟨S262144, .f32⟩ : BufTy).Contents (Elt F) → (⟨S262144, .f32⟩ : BufTy).Contents (Elt F) → (⟨S262144, .f32⟩ : BufTy).Contents (Elt F)),
    StableHlo.unary main_v1 main_v2 (broadcastInDim S262144x1 ![0] bcast_S262144_S262144x1_0 : (⟨S262144, .f32⟩ : BufTy).Contents (Elt F) → (⟨S262144x1, .f32⟩ : BufTy).Contents (Elt F)),
    StableHlo.unary main_v2 main_v3 (broadcastInDim S262144x128 ![0, 1] bcast_S262144x1_S262144x128_0_1 : (⟨S262144x1, .f32⟩ : BufTy).Contents (Elt F) → (⟨S262144x128, .f32⟩ : BufTy).Contents (Elt F)),
    StableHlo.binary main_arg0 main_v3 main_v4 (mulf : (⟨S262144x128, .f32⟩ : BufTy).Contents (Elt F) → (⟨S262144x128, .f32⟩ : BufTy).Contents (Elt F) → (⟨S262144x128, .f32⟩ : BufTy).Contents (Elt F)),
    StableHlo.nullary main_cst_0 (constant S_ .f32 0x00000000#32),
    StableHlo.unary main_cst_0 main_v5 (broadcastInDim S256x128 ![] bcast_S_S256x128 : (⟨S_, .f32⟩ : BufTy).Contents (Elt F) → (⟨S256x128, .f32⟩ : BufTy).Contents (Elt F)),
    StableHlo.unary main_arg1 main_v6 (broadcastInDim S262144x1 ![0] bcast_S262144_S262144x1_0 : (⟨S262144, .i32⟩ : BufTy).Contents (Elt F) → (⟨S262144x1, .i32⟩ : BufTy).Contents (Elt F)),
    StableHlo.ternary main_v5 main_v6 main_v4 main_v7 ((fun x i u => Host.scatterAdd scatter_S256x128_S262144x1_S262144x128_1_0_0_1 x i u) : (⟨S256x128, .f32⟩ : BufTy).Contents (Elt F) → (⟨S262144x1, .i32⟩ : BufTy).Contents (Elt F) → (⟨S262144x128, .f32⟩ : BufTy).Contents (Elt F) → (⟨S256x128, .f32⟩ : BufTy).Contents (Elt F)),
    StableHlo.nullary main_cst_1 (constant S_ .f32 0x00000000#32),
    StableHlo.unary main_cst_1 main_v8 (broadcastInDim S256 ![] bcast_S_S256 : (⟨S_, .f32⟩ : BufTy).Contents (Elt F) → (⟨S256, .f32⟩ : BufTy).Contents (Elt F)),
    StableHlo.unary main_arg1 main_v9 (broadcastInDim S262144x1 ![0] bcast_S262144_S262144x1_0 : (⟨S262144, .i32⟩ : BufTy).Contents (Elt F) → (⟨S262144x1, .i32⟩ : BufTy).Contents (Elt F)),
    StableHlo.ternary main_v8 main_v9 main_v1 main_v10 ((fun x i u => Host.scatterAdd scatter_S256_S262144x1_S262144_n_0_0_1 x i u) : (⟨S256, .f32⟩ : BufTy).Contents (Elt F) → (⟨S262144x1, .i32⟩ : BufTy).Contents (Elt F) → (⟨S262144, .f32⟩ : BufTy).Contents (Elt F) → (⟨S256, .f32⟩ : BufTy).Contents (Elt F)),
    StableHlo.unary main_v10 main_v11 (broadcastInDim S256x1 ![0] bcast_S256_S256x1_0 : (⟨S256, .f32⟩ : BufTy).Contents (Elt F) → (⟨S256x1, .f32⟩ : BufTy).Contents (Elt F)),
    StableHlo.unary main_v11 main_v12 (broadcastInDim S256x128 ![0, 1] bcast_S256x1_S256x128_0_1 : (⟨S256x1, .f32⟩ : BufTy).Contents (Elt F) → (⟨S256x128, .f32⟩ : BufTy).Contents (Elt F)),
    StableHlo.binary main_v7 main_v12 main_v13 (Host.divf : (⟨S256x128, .f32⟩ : BufTy).Contents (Elt F) → (⟨S256x128, .f32⟩ : BufTy).Contents (Elt F) → (⟨S256x128, .f32⟩ : BufTy).Contents (Elt F)),
    StableHlo.nullary main_c (constantI S_ 32 0#32),
    StableHlo.unary main_c main_v14 (broadcastInDim S262144 ![] bcast_S_S262144 : (⟨S_, .i32⟩ : BufTy).Contents (Elt F) → (⟨S262144, .i32⟩ : BufTy).Contents (Elt F)),
    StableHlo.binary main_arg1 main_v14 main_v15 (cmpi .slt : (⟨S262144, .i32⟩ : BufTy).Contents (Elt F) → (⟨S262144, .i32⟩ : BufTy).Contents (Elt F) → (⟨S262144, .i1⟩ : BufTy).Contents (Elt F)),
    StableHlo.nullary main_c_2 (constantI S_ 32 256#32),
    StableHlo.unary main_c_2 main_v16 (broadcastInDim S262144 ![] bcast_S_S262144 : (⟨S_, .i32⟩ : BufTy).Contents (Elt F) → (⟨S262144, .i32⟩ : BufTy).Contents (Elt F)),
    StableHlo.binary main_arg1 main_v16 main_v17 (addi : (⟨S262144, .i32⟩ : BufTy).Contents (Elt F) → (⟨S262144, .i32⟩ : BufTy).Contents (Elt F) → (⟨S262144, .i32⟩ : BufTy).Contents (Elt F)),
    StableHlo.ternary main_v15 main_v17 main_arg1 main_v18 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v18 main_v19 (broadcastInDim S262144x1 ![0] bcast_S262144_S262144x1_0 : (⟨S262144, .i32⟩ : BufTy).Contents (Elt F) → (⟨S262144x1, .i32⟩ : BufTy).Contents (Elt F)),
    StableHlo.binary main_v13 main_v19 main_v20 ((fun x i => Host.gather gather_S256x128_S262144x1_S262144x128_1_0_n_n_0_1_1128 x i) : (⟨S256x128, .f32⟩ : BufTy).Contents (Elt F) → (⟨S262144x1, .i32⟩ : BufTy).Contents (Elt F) → (⟨S262144x128, .f32⟩ : BufTy).Contents (Elt F)),
    StableHlo.binary main_arg0 main_v20 main_v21 (subf : (⟨S262144x128, .f32⟩ : BufTy).Contents (Elt F) → (⟨S262144x128, .f32⟩ : BufTy).Contents (Elt F) → (⟨S262144x128, .f32⟩ : BufTy).Contents (Elt F)),
    StableHlo.binary main_v21 main_v21 main_v22 (mulf : (⟨S262144x128, .f32⟩ : BufTy).Contents (Elt F) → (⟨S262144x128, .f32⟩ : BufTy).Contents (Elt F) → (⟨S262144x128, .f32⟩ : BufTy).Contents (Elt F)),
    StableHlo.nullary main_cst_3 (constant S_ .f32 0x00000000#32),
    StableHlo.binary main_v22 main_cst_3 main_v23 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    StableHlo.nullary main_cst_4 (constant S_ .f32 0x3F800000#32),
    StableHlo.unary main_cst_4 main_v24 (broadcastInDim S262144 ![] bcast_S_S262144 : (⟨S_, .f32⟩ : BufTy).Contents (Elt F) → (⟨S262144, .f32⟩ : BufTy).Contents (Elt F)),
    StableHlo.nullary main_cst_5 (constant S_ .f32 0x00000000#32),
    StableHlo.unary main_cst_5 main_v25 (broadcastInDim S256 ![] bcast_S_S256 : (⟨S_, .f32⟩ : BufTy).Contents (Elt F) → (⟨S256, .f32⟩ : BufTy).Contents (Elt F)),
    StableHlo.unary main_arg1 main_v26 (broadcastInDim S262144x1 ![0] bcast_S262144_S262144x1_0 : (⟨S262144, .i32⟩ : BufTy).Contents (Elt F) → (⟨S262144x1, .i32⟩ : BufTy).Contents (Elt F)),
    StableHlo.ternary main_v25 main_v26 main_v24 main_v27 ((fun x i u => Host.scatterAdd scatter_S256_S262144x1_S262144_n_0_0_1 x i u) : (⟨S256, .f32⟩ : BufTy).Contents (Elt F) → (⟨S262144x1, .i32⟩ : BufTy).Contents (Elt F) → (⟨S262144, .f32⟩ : BufTy).Contents (Elt F) → (⟨S256, .f32⟩ : BufTy).Contents (Elt F)),
    StableHlo.nullary main_cst_6 (constant S_ .f32 0x00000000#32),
    StableHlo.unary main_cst_6 main_v28 (broadcastInDim S256 ![] bcast_S_S256 : (⟨S_, .f32⟩ : BufTy).Contents (Elt F) → (⟨S256, .f32⟩ : BufTy).Contents (Elt F)),
    StableHlo.unary main_arg1 main_v29 (broadcastInDim S262144x1 ![0] bcast_S262144_S262144x1_0 : (⟨S262144, .i32⟩ : BufTy).Contents (Elt F) → (⟨S262144x1, .i32⟩ : BufTy).Contents (Elt F)),
    StableHlo.ternary main_v28 main_v29 main_v23 main_v30 ((fun x i u => Host.scatterAdd scatter_S256_S262144x1_S262144_n_0_0_1 x i u) : (⟨S256, .f32⟩ : BufTy).Contents (Elt F) → (⟨S262144x1, .i32⟩ : BufTy).Contents (Elt F) → (⟨S262144, .f32⟩ : BufTy).Contents (Elt F) → (⟨S256, .f32⟩ : BufTy).Contents (Elt F)),
    StableHlo.binary main_v30 main_v27 main_v31 (Host.divf : (⟨S256, .f32⟩ : BufTy).Contents (Elt F) → (⟨S256, .f32⟩ : BufTy).Contents (Elt F) → (⟨S256, .f32⟩ : BufTy).Contents (Elt F)),
    StableHlo.nullary main_cst_7 (constant S_ .f32 0x00000000#32),
    StableHlo.binary main_v31 main_cst_7 main_v32 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_8 (constant S_ .f32 0x43800000#32),
    StableHlo.binary main_v32 main_cst_8 main_v33 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x3F800000#32),
    StableHlo.unary main_cst_9 main_v34 (broadcastInDim S256x256 ![] bcast_S_S256x256 : (⟨S_, .f32⟩ : BufTy).Contents (Elt F) → (⟨S256x256, .f32⟩ : BufTy).Contents (Elt F)) ]

/-- 9 operations of @triu (call record main_call0), in order. -/
abbrev opsB_1 : List (HloOp τ sig (Elt F)) :=
  [ StableHlo.TRef.nullary (.of main_call0_v0 : StableHlo.TRef sig ⟨S256x256, .i32⟩) (iotaInDim S256x256 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S256x256, .i32⟩) (broadcastInDim S256x256 ![] bcast_S_S256x256),
    StableHlo.TRef.binary (.of main_call0_v0 : StableHlo.TRef sig ⟨S256x256, .i32⟩) (.of main_call0_v1 : StableHlo.TRef sig ⟨S256x256, .i32⟩) (.of main_call0_v2 : StableHlo.TRef sig ⟨S256x256, .i32⟩) addi,
    StableHlo.TRef.nullary (.of main_call0_v3 : StableHlo.TRef sig ⟨S256x256, .i32⟩) (iotaInDim S256x256 32 1),
    StableHlo.TRef.binary (.of main_call0_v2 : StableHlo.TRef sig ⟨S256x256, .i32⟩) (.of main_call0_v3 : StableHlo.TRef sig ⟨S256x256, .i32⟩) (.of main_call0_v4 : StableHlo.TRef sig ⟨S256x256, .i1⟩) (cmpi .sge),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S256x256, .f32⟩) (broadcastInDim S256x256 ![] bcast_S_S256x256),
    StableHlo.TRef.ternary (.of main_call0_v4 : StableHlo.TRef sig ⟨S256x256, .i1⟩) (.of main_call0_v5 : StableHlo.TRef sig ⟨S256x256, .f32⟩) (.of main_v34 : StableHlo.TRef sig ⟨S256x256, .f32⟩) (.of main_v35 : StableHlo.TRef sig ⟨S256x256, .f32⟩) select ]
/-- 3 operations of @main, in order. -/
abbrev opsB_2 : List (HloOp τ sig (Elt F)) :=
  [ StableHlo.nullary main_cst_10 (constant S_ .f32 0x00000000#32),
    StableHlo.unary main_cst_10 main_v36 (broadcastInDim S256x256 ![] bcast_S_S256x256 : (⟨S_, .f32⟩ : BufTy).Contents (Elt F) → (⟨S256x256, .f32⟩ : BufTy).Contents (Elt F)),
    StableHlo.binary main_v35 main_v36 main_v37 (cmpf .une : (⟨S256x256, .f32⟩ : BufTy).Contents (Elt F) → (⟨S256x256, .f32⟩ : BufTy).Contents (Elt F) → (⟨S256x256, .i1⟩ : BufTy).Contents (Elt F)) ]
/-- 5 operations of @cumsum (call record main_call1), in order. -/
abbrev opsB_3 : List (HloOp τ sig (Elt F)) :=
  [ StableHlo.TRef.reshape (.of main_v37 : StableHlo.TRef sig ⟨S256x256, .i1⟩) (.of main_call1_v0 : StableHlo.TRef sig ⟨S65536, .i1⟩) rfl shapeCasts_S256x256_S65536,
    StableHlo.TRef.unary (.of main_call1_v0 : StableHlo.TRef sig ⟨S65536, .i1⟩) (.of main_call1_v1 : StableHlo.TRef sig ⟨S65536, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S65536, .i32⟩) (.of main_call1_call0_v0 : StableHlo.TRef sig ⟨S_, .i32⟩) (.of main_v38 : StableHlo.TRef sig ⟨S65536, .i32⟩) (fun x v => Host.reduceWindow IntOp.addi ![65536] ![1] ![65535] ![0] x v reduceWindows_S65536_S65536_w65536s1p65535_0 h_S_) ]
/-- 3 operations of @main, in order. -/
abbrev opsB_4 : List (HloOp τ sig (Elt F)) :=
  [ StableHlo.nullary main_c_11 (constantI S_ 32 0#32),
    StableHlo.unary main_c_11 main_v39 (broadcastInDim S32640 ![] bcast_S_S32640 : (⟨S_, .i32⟩ : BufTy).Contents (Elt F) → (⟨S32640, .i32⟩ : BufTy).Contents (Elt F)),
    StableHlo.nullary main_c_12 (constantI S_ 32 0#32) ]
/-- 3 operations of @clip (call record main_call2), in order. -/
abbrev opsB_5 : List (HloOp τ sig (Elt F)) :=
  [ StableHlo.TRef.unary (.of main_c_12 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S65536, .i32⟩) (broadcastInDim S65536 ![] bcast_S_S65536),
    StableHlo.TRef.binary (.of main_call2_v1 : StableHlo.TRef sig ⟨S65536, .i32⟩) (.of main_v38 : StableHlo.TRef sig ⟨S65536, .i32⟩) (.of main_v40 : StableHlo.TRef sig ⟨S65536, .i32⟩) maxsi ]
/-- 11 operations of @main, in order. -/
abbrev opsB_6 : List (HloOp τ sig (Elt F)) :=
  [ StableHlo.nullary main_c_13 (constantI S_ 32 0#32),
    StableHlo.unary main_c_13 main_v41 (broadcastInDim S65536 ![] bcast_S_S65536 : (⟨S_, .i32⟩ : BufTy).Contents (Elt F) → (⟨S65536, .i32⟩ : BufTy).Contents (Elt F)),
    StableHlo.binary main_v40 main_v41 main_v42 (cmpi .slt : (⟨S65536, .i32⟩ : BufTy).Contents (Elt F) → (⟨S65536, .i32⟩ : BufTy).Contents (Elt F) → (⟨S65536, .i1⟩ : BufTy).Contents (Elt F)),
    StableHlo.nullary main_c_14 (constantI S_ 32 32640#32),
    StableHlo.unary main_c_14 main_v43 (broadcastInDim S65536 ![] bcast_S_S65536 : (⟨S_, .i32⟩ : BufTy).Contents (Elt F) → (⟨S65536, .i32⟩ : BufTy).Contents (Elt F)),
    StableHlo.binary main_v40 main_v43 main_v44 (addi : (⟨S65536, .i32⟩ : BufTy).Contents (Elt F) → (⟨S65536, .i32⟩ : BufTy).Contents (Elt F) → (⟨S65536, .i32⟩ : BufTy).Contents (Elt F)),
    StableHlo.ternary main_v42 main_v44 main_v40 main_v45 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v45 main_v46 (broadcastInDim S65536x1 ![0] bcast_S65536_S65536x1_0 : (⟨S65536, .i32⟩ : BufTy).Contents (Elt F) → (⟨S65536x1, .i32⟩ : BufTy).Contents (Elt F)),
    StableHlo.nullary main_c_15 (constantI S_ 32 1#32),
    StableHlo.unary main_c_15 main_v47 (broadcastInDim S65536 ![] bcast_S_S65536 : (⟨S_, .i32⟩ : BufTy).Contents (Elt F) → (⟨S65536, .i32⟩ : BufTy).Contents (Elt F)),
    StableHlo.ternary main_v39 main_v46 main_v47 main_v48 ((fun x i u => Host.scatter scatter_S32640_S65536x1_S65536_n_0_0_1 IntOp.addi x i u) : (⟨S32640, .i32⟩ : BufTy).Contents (Elt F) → (⟨S65536x1, .i32⟩ : BufTy).Contents (Elt F) → (⟨S65536, .i32⟩ : BufTy).Contents (Elt F) → (⟨S32640, .i32⟩ : BufTy).Contents (Elt F)) ]
/-- 3 operations of @cumsum_1 (call record main_call3), in order. -/
abbrev opsB_7 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v48 : StableHlo.TRef sig ⟨S32640, .i32⟩) (.of main_call3_call0_v0 : StableHlo.TRef sig ⟨S_, .i32⟩) (.of main_v49 : StableHlo.TRef sig ⟨S32640, .i32⟩) (fun x v => Host.reduceWindow IntOp.addi ![32640] ![1] ![32639] ![0] x v reduceWindows_S32640_S32640_w32640s1p32639_0 h_S_) ]
/-- 1 operation of @main, in order. -/
abbrev opsB_8 : List (HloOp τ sig (Elt F)) :=
  [ StableHlo.nullary main_c_16 (constantI S_ 32 256#32) ]
/-- 16 operations of @floor_divide (call record main_call4), in order. -/
abbrev opsB_9 : List (HloOp τ sig (Elt F)) :=
  [ StableHlo.TRef.unary (.of main_c_16 : StableHlo.TRef sig ⟨S_, .i32⟩) (.of main_call4_v0 : StableHlo.TRef sig ⟨S32640, .i32⟩) (broadcastInDim S32640 ![] bcast_S_S32640),
    StableHlo.TRef.binary (.of main_v49 : StableHlo.TRef sig ⟨S32640, .i32⟩) (.of main_call4_v0 : StableHlo.TRef sig ⟨S32640, .i32⟩) (.of main_call4_v1 : StableHlo.TRef sig ⟨S32640, .i32⟩) Host.divsi,
    StableHlo.TRef.unary (.of main_v49 : StableHlo.TRef sig ⟨S32640, .i32⟩) (.of main_call4_v2 : StableHlo.TRef sig ⟨S32640, .i32⟩) signi,
    StableHlo.TRef.unary (.of main_c_16 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S32640, .i32⟩) (broadcastInDim S32640 ![] bcast_S_S32640),
    StableHlo.TRef.binary (.of main_call4_v2 : StableHlo.TRef sig ⟨S32640, .i32⟩) (.of main_call4_v4 : StableHlo.TRef sig ⟨S32640, .i32⟩) (.of main_call4_v5 : StableHlo.TRef sig ⟨S32640, .i1⟩) (cmpi .ne),
    StableHlo.TRef.unary (.of main_c_16 : StableHlo.TRef sig ⟨S_, .i32⟩) (.of main_call4_v6 : StableHlo.TRef sig ⟨S32640, .i32⟩) (broadcastInDim S32640 ![] bcast_S_S32640),
    StableHlo.TRef.binary (.of main_v49 : StableHlo.TRef sig ⟨S32640, .i32⟩) (.of main_call4_v6 : StableHlo.TRef sig ⟨S32640, .i32⟩) (.of main_call4_v7 : StableHlo.TRef sig ⟨S32640, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S32640, .i32⟩) (broadcastInDim S32640 ![] bcast_S_S32640),
    StableHlo.TRef.binary (.of main_call4_v7 : StableHlo.TRef sig ⟨S32640, .i32⟩) (.of main_call4_v8 : StableHlo.TRef sig ⟨S32640, .i32⟩) (.of main_call4_v9 : StableHlo.TRef sig ⟨S32640, .i1⟩) (cmpi .ne),
    StableHlo.TRef.binary (.of main_call4_v5 : StableHlo.TRef sig ⟨S32640, .i1⟩) (.of main_call4_v9 : StableHlo.TRef sig ⟨S32640, .i1⟩) (.of main_call4_v10 : StableHlo.TRef sig ⟨S32640, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S32640, .i32⟩) (broadcastInDim S32640 ![] bcast_S_S32640),
    StableHlo.TRef.binary (.of main_call4_v1 : StableHlo.TRef sig ⟨S32640, .i32⟩) (.of main_call4_v11 : StableHlo.TRef sig ⟨S32640, .i32⟩) (.of main_call4_v12 : StableHlo.TRef sig ⟨S32640, .i32⟩) subi,
    StableHlo.TRef.ternary (.of main_call4_v10 : StableHlo.TRef sig ⟨S32640, .i1⟩) (.of main_call4_v12 : StableHlo.TRef sig ⟨S32640, .i32⟩) (.of main_call4_v1 : StableHlo.TRef sig ⟨S32640, .i32⟩) (.of main_v50 : StableHlo.TRef sig ⟨S32640, .i32⟩) select ]
/-- 1 operation of @main, in order. -/
abbrev opsB_10 : List (HloOp τ sig (Elt F)) :=
  [ StableHlo.nullary main_c_17 (constantI S_ 32 256#32) ]
/-- 21 operations of @remainder (call record main_call5), in order. -/
abbrev opsB_11 : List (HloOp τ sig (Elt F)) :=
  [ StableHlo.TRef.unary (.of main_c_17 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S32640, .i32⟩) (broadcastInDim S32640 ![] bcast_S_S32640),
    StableHlo.TRef.binary (.of main_v50 : StableHlo.TRef sig ⟨S32640, .i32⟩) (.of main_call5_v3 : StableHlo.TRef sig ⟨S32640, .i32⟩) (.of main_call5_v4 : StableHlo.TRef sig ⟨S32640, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S32640, .i32⟩) (broadcastInDim S32640 ![] bcast_S_S32640),
    StableHlo.TRef.binary (.of main_call5_v4 : StableHlo.TRef sig ⟨S32640, .i32⟩) (.of main_call5_v5 : StableHlo.TRef sig ⟨S32640, .i32⟩) (.of main_call5_v6 : StableHlo.TRef sig ⟨S32640, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S32640, .i32⟩) (broadcastInDim S32640 ![] bcast_S_S32640),
    StableHlo.TRef.binary (.of main_call5_v4 : StableHlo.TRef sig ⟨S32640, .i32⟩) (.of main_call5_v7 : StableHlo.TRef sig ⟨S32640, .i32⟩) (.of main_call5_v8 : StableHlo.TRef sig ⟨S32640, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S32640, .i1⟩) (broadcastInDim S32640 ![] bcast_S_S32640),
    StableHlo.TRef.binary (.of main_call5_v8 : StableHlo.TRef sig ⟨S32640, .i1⟩) (.of main_call5_v10 : StableHlo.TRef sig ⟨S32640, .i1⟩) (.of main_call5_v11 : StableHlo.TRef sig ⟨S32640, .i1⟩) (cmpi .ne),
    StableHlo.TRef.binary (.of main_call5_v11 : StableHlo.TRef sig ⟨S32640, .i1⟩) (.of main_call5_v6 : StableHlo.TRef sig ⟨S32640, .i1⟩) (.of main_call5_v12 : StableHlo.TRef sig ⟨S32640, .i1⟩) andi,
    StableHlo.TRef.unary main_call5_call0.v0 (.of main_call5_v13 : StableHlo.TRef sig ⟨S32640, .i32⟩) (broadcastInDim S32640 ![] bcast_S_S32640),
    StableHlo.TRef.binary (.of main_call5_v4 : StableHlo.TRef sig ⟨S32640, .i32⟩) (.of main_call5_v13 : StableHlo.TRef sig ⟨S32640, .i32⟩) (.of main_call5_v14 : StableHlo.TRef sig ⟨S32640, .i32⟩) addi,
    StableHlo.TRef.ternary (.of main_call5_v12 : StableHlo.TRef sig ⟨S32640, .i1⟩) (.of main_call5_v14 : StableHlo.TRef sig ⟨S32640, .i32⟩) (.of main_call5_v4 : StableHlo.TRef sig ⟨S32640, .i32⟩) (.of main_v51 : StableHlo.TRef sig ⟨S32640, .i32⟩) select ]
/-- 1 operation of @main, in order. -/
abbrev opsB_12 : List (HloOp τ sig (Elt F)) :=
  [ StableHlo.nullary main_c_18 (constantI S_ 32 1#32) ]
/-- 16 operations of @floor_divide (call record main_call6), in order. -/
abbrev opsB_13 : List (HloOp τ sig (Elt F)) :=
  [ StableHlo.TRef.unary (.of main_c_18 : StableHlo.TRef sig ⟨S_, .i32⟩) (.of main_call6_v0 : StableHlo.TRef sig ⟨S32640, .i32⟩) (broadcastInDim S32640 ![] bcast_S_S32640),
    StableHlo.TRef.binary (.of main_v49 : StableHlo.TRef sig ⟨S32640, .i32⟩) (.of main_call6_v0 : StableHlo.TRef sig ⟨S32640, .i32⟩) (.of main_call6_v1 : StableHlo.TRef sig ⟨S32640, .i32⟩) Host.divsi,
    StableHlo.TRef.unary (.of main_v49 : StableHlo.TRef sig ⟨S32640, .i32⟩) (.of main_call6_v2 : StableHlo.TRef sig ⟨S32640, .i32⟩) signi,
    StableHlo.TRef.unary (.of main_c_18 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S32640, .i32⟩) (broadcastInDim S32640 ![] bcast_S_S32640),
    StableHlo.TRef.binary (.of main_call6_v2 : StableHlo.TRef sig ⟨S32640, .i32⟩) (.of main_call6_v4 : StableHlo.TRef sig ⟨S32640, .i32⟩) (.of main_call6_v5 : StableHlo.TRef sig ⟨S32640, .i1⟩) (cmpi .ne),
    StableHlo.TRef.unary (.of main_c_18 : StableHlo.TRef sig ⟨S_, .i32⟩) (.of main_call6_v6 : StableHlo.TRef sig ⟨S32640, .i32⟩) (broadcastInDim S32640 ![] bcast_S_S32640),
    StableHlo.TRef.binary (.of main_v49 : StableHlo.TRef sig ⟨S32640, .i32⟩) (.of main_call6_v6 : StableHlo.TRef sig ⟨S32640, .i32⟩) (.of main_call6_v7 : StableHlo.TRef sig ⟨S32640, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S32640, .i32⟩) (broadcastInDim S32640 ![] bcast_S_S32640),
    StableHlo.TRef.binary (.of main_call6_v7 : StableHlo.TRef sig ⟨S32640, .i32⟩) (.of main_call6_v8 : StableHlo.TRef sig ⟨S32640, .i32⟩) (.of main_call6_v9 : StableHlo.TRef sig ⟨S32640, .i1⟩) (cmpi .ne),
    StableHlo.TRef.binary (.of main_call6_v5 : StableHlo.TRef sig ⟨S32640, .i1⟩) (.of main_call6_v9 : StableHlo.TRef sig ⟨S32640, .i1⟩) (.of main_call6_v10 : StableHlo.TRef sig ⟨S32640, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S32640, .i32⟩) (broadcastInDim S32640 ![] bcast_S_S32640),
    StableHlo.TRef.binary (.of main_call6_v1 : StableHlo.TRef sig ⟨S32640, .i32⟩) (.of main_call6_v11 : StableHlo.TRef sig ⟨S32640, .i32⟩) (.of main_call6_v12 : StableHlo.TRef sig ⟨S32640, .i32⟩) subi,
    StableHlo.TRef.ternary (.of main_call6_v10 : StableHlo.TRef sig ⟨S32640, .i1⟩) (.of main_call6_v12 : StableHlo.TRef sig ⟨S32640, .i32⟩) (.of main_call6_v1 : StableHlo.TRef sig ⟨S32640, .i32⟩) (.of main_v52 : StableHlo.TRef sig ⟨S32640, .i32⟩) select ]
/-- 1 operation of @main, in order. -/
abbrev opsB_14 : List (HloOp τ sig (Elt F)) :=
  [ StableHlo.nullary main_c_19 (constantI S_ 32 256#32) ]
/-- 21 operations of @remainder (call record main_call7), in order. -/
abbrev opsB_15 : List (HloOp τ sig (Elt F)) :=
  [ StableHlo.TRef.unary (.of main_c_19 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S32640, .i32⟩) (broadcastInDim S32640 ![] bcast_S_S32640),
    StableHlo.TRef.binary (.of main_v52 : StableHlo.TRef sig ⟨S32640, .i32⟩) (.of main_call7_v3 : StableHlo.TRef sig ⟨S32640, .i32⟩) (.of main_call7_v4 : StableHlo.TRef sig ⟨S32640, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S32640, .i32⟩) (broadcastInDim S32640 ![] bcast_S_S32640),
    StableHlo.TRef.binary (.of main_call7_v4 : StableHlo.TRef sig ⟨S32640, .i32⟩) (.of main_call7_v5 : StableHlo.TRef sig ⟨S32640, .i32⟩) (.of main_call7_v6 : StableHlo.TRef sig ⟨S32640, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S32640, .i32⟩) (broadcastInDim S32640 ![] bcast_S_S32640),
    StableHlo.TRef.binary (.of main_call7_v4 : StableHlo.TRef sig ⟨S32640, .i32⟩) (.of main_call7_v7 : StableHlo.TRef sig ⟨S32640, .i32⟩) (.of main_call7_v8 : StableHlo.TRef sig ⟨S32640, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S32640, .i1⟩) (broadcastInDim S32640 ![] bcast_S_S32640),
    StableHlo.TRef.binary (.of main_call7_v8 : StableHlo.TRef sig ⟨S32640, .i1⟩) (.of main_call7_v10 : StableHlo.TRef sig ⟨S32640, .i1⟩) (.of main_call7_v11 : StableHlo.TRef sig ⟨S32640, .i1⟩) (cmpi .ne),
    StableHlo.TRef.binary (.of main_call7_v11 : StableHlo.TRef sig ⟨S32640, .i1⟩) (.of main_call7_v6 : StableHlo.TRef sig ⟨S32640, .i1⟩) (.of main_call7_v12 : StableHlo.TRef sig ⟨S32640, .i1⟩) andi,
    StableHlo.TRef.unary main_call7_call0.v0 (.of main_call7_v13 : StableHlo.TRef sig ⟨S32640, .i32⟩) (broadcastInDim S32640 ![] bcast_S_S32640),
    StableHlo.TRef.binary (.of main_call7_v4 : StableHlo.TRef sig ⟨S32640, .i32⟩) (.of main_call7_v13 : StableHlo.TRef sig ⟨S32640, .i32⟩) (.of main_call7_v14 : StableHlo.TRef sig ⟨S32640, .i32⟩) addi,
    StableHlo.TRef.ternary (.of main_call7_v12 : StableHlo.TRef sig ⟨S32640, .i1⟩) (.of main_call7_v14 : StableHlo.TRef sig ⟨S32640, .i32⟩) (.of main_call7_v4 : StableHlo.TRef sig ⟨S32640, .i32⟩) (.of main_v53 : StableHlo.TRef sig ⟨S32640, .i32⟩) select ]
/-- 56 operations of @main, in order. -/
abbrev opsB_16 : List (HloOp τ sig (Elt F)) :=
  ( StableHlo.nullary main_c_20 (constantI S_ 32 0#32)
  :: StableHlo.unary main_c_20 main_v54 (broadcastInDim S32640 ![] bcast_S_S32640 : (⟨S_, .i32⟩ : BufTy).Contents (Elt F) → (⟨S32640, .i32⟩ : BufTy).Contents (Elt F))
  :: StableHlo.binary main_v51 main_v54 main_v55 (cmpi .slt : (⟨S32640, .i32⟩ : BufTy).Contents (Elt F) → (⟨S32640, .i32⟩ : BufTy).Contents (Elt F) → (⟨S32640, .i1⟩ : BufTy).Contents (Elt F))
  :: StableHlo.nullary main_c_21 (constantI S_ 32 256#32)
  :: StableHlo.unary main_c_21 main_v56 (broadcastInDim S32640 ![] bcast_S_S32640 : (⟨S_, .i32⟩ : BufTy).Contents (Elt F) → (⟨S32640, .i32⟩ : BufTy).Contents (Elt F))
  :: StableHlo.binary main_v51 main_v56 main_v57 (addi : (⟨S32640, .i32⟩ : BufTy).Contents (Elt F) → (⟨S32640, .i32⟩ : BufTy).Contents (Elt F) → (⟨S32640, .i32⟩ : BufTy).Contents (Elt F))
  :: StableHlo.ternary main_v55 main_v57 main_v51 main_v58 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F))
  :: StableHlo.unary main_v58 main_v59 (broadcastInDim S32640x1 ![0] bcast_S32640_S32640x1_0 : (⟨S32640, .i32⟩ : BufTy).Contents (Elt F) → (⟨S32640x1, .i32⟩ : BufTy).Contents (Elt F))
  :: StableHlo.binary main_v13 main_v59 main_v60 ((fun x i => Host.gather gather_S256x128_S32640x1_S32640x128_1_0_n_n_0_1_1128 x i) : (⟨S256x128, .f32⟩ : BufTy).Contents (Elt F) → (⟨S32640x1, .i32⟩ : BufTy).Contents (Elt F) → (⟨S32640x128, .f32⟩ : BufTy).Contents (Elt F))
  :: StableHlo.nullary main_c_22 (constantI S_ 32 0#32)
  :: StableHlo.unary main_c_22 main_v61 (broadcastInDim S32640 ![] bcast_S_S32640 : (⟨S_, .i32⟩ : BufTy).Contents (Elt F) → (⟨S32640, .i32⟩ : BufTy).Contents (Elt F))
  :: StableHlo.binary main_v53 main_v61 main_v62 (cmpi .slt : (⟨S32640, .i32⟩ : BufTy).Contents (Elt F) → (⟨S32640, .i32⟩ : BufTy).Contents (Elt F) → (⟨S32640, .i1⟩ : BufTy).Contents (Elt F))
  :: StableHlo.nullary main_c_23 (constantI S_ 32 256#32)
  :: StableHlo.unary main_c_23 main_v63 (broadcastInDim S32640 ![] bcast_S_S32640 : (⟨S_, .i32⟩ : BufTy).Contents (Elt F) → (⟨S32640, .i32⟩ : BufTy).Contents (Elt F))
  :: StableHlo.binary main_v53 main_v63 main_v64 (addi : (⟨S32640, .i32⟩ : BufTy).Contents (Elt F) → (⟨S32640, .i32⟩ : BufTy).Contents (Elt F) → (⟨S32640, .i32⟩ : BufTy).Contents (Elt F))
  :: StableHlo.ternary main_v62 main_v64 main_v53 main_v65 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F))
  :: StableHlo.unary main_v65 main_v66 (broadcastInDim S32640x1 ![0] bcast_S32640_S32640x1_0 : (⟨S32640, .i32⟩ : BufTy).Contents (Elt F) → (⟨S32640x1, .i32⟩ : BufTy).Contents (Elt F))
  :: StableHlo.binary main_v13 main_v66 main_v67 ((fun x i => Host.gather gather_S256x128_S32640x1_S32640x128_1_0_n_n_0_1_1128 x i) : (⟨S256x128, .f32⟩ : BufTy).Contents (Elt F) → (⟨S32640x1, .i32⟩ : BufTy).Contents (Elt F) → (⟨S32640x128, .f32⟩ : BufTy).Contents (Elt F))
  :: StableHlo.binary main_v60 main_v67 main_v68 (subf : (⟨S32640x128, .f32⟩ : BufTy).Contents (Elt F) → (⟨S32640x128, .f32⟩ : BufTy).Contents (Elt F) → (⟨S32640x128, .f32⟩ : BufTy).Contents (Elt F))
  :: StableHlo.binary main_v68 main_v68 main_v69 (mulf : (⟨S32640x128, .f32⟩ : BufTy).Contents (Elt F) → (⟨S32640x128, .f32⟩ : BufTy).Contents (Elt F) → (⟨S32640x128, .f32⟩ : BufTy).Contents (Elt F))
  :: StableHlo.nullary main_cst_24 (constant S_ .f32 0x00000000#32)
  :: StableHlo.binary main_v69 main_cst_24 main_v70 ((fun x v => Host.reduceAdd x v reducesTo_S32640x128_S32640_d1 h_S_) : (⟨S32640x128, .f32⟩ : BufTy).Contents (Elt F) → (⟨S_, .f32⟩ : BufTy).Contents (Elt F) → (⟨S32640, .f32⟩ : BufTy).Contents (Elt F))
  :: StableHlo.unary main_v70 main_v71 (Host.sqrt : (⟨S32640, .f32⟩ : BufTy).Contents (Elt F) → (⟨S32640, .f32⟩ : BufTy).Contents (Elt F))
  :: StableHlo.unary main_arg3 main_v72 (sitofp .f32 : (⟨S256, .i32⟩ : BufTy).Contents (Elt F) → (⟨S256, .f32⟩ : BufTy).Contents (Elt F))
  :: StableHlo.nullary main_cst_25 (constant S_ .f32 0x3E800000#32)
  :: StableHlo.unary main_cst_25 main_v73 (broadcastInDim S256 ![] bcast_S_S256 : (⟨S_, .f32⟩ : BufTy).Contents (Elt F) → (⟨S256, .f32⟩ : BufTy).Contents (Elt F))
  :: StableHlo.binary main_v72 main_v73 main_v74 (Host.powf : (⟨S256, .f32⟩ : BufTy).Contents (Elt F) → (⟨S256, .f32⟩ : BufTy).Contents (Elt F) → (⟨S256, .f32⟩ : BufTy).Contents (Elt F))
  :: StableHlo.nullary main_c_26 (constantI S_ 32 0#32)
  :: StableHlo.unary main_c_26 main_v75 (broadcastInDim S32640 ![] bcast_S_S32640 : (⟨S_, .i32⟩ : BufTy).Contents (Elt F) → (⟨S32640, .i32⟩ : BufTy).Contents (Elt F))
  :: StableHlo.binary main_v51 main_v75 main_v76 (cmpi .slt : (⟨S32640, .i32⟩ : BufTy).Contents (Elt F) → (⟨S32640, .i32⟩ : BufTy).Contents (Elt F) → (⟨S32640, .i1⟩ : BufTy).Contents (Elt F))
  :: StableHlo.nullary main_c_27 (constantI S_ 32 256#32)
  :: StableHlo.unary main_c_27 main_v77 (broadcastInDim S32640 ![] bcast_S_S32640 : (⟨S_, .i32⟩ : BufTy).Contents (Elt F) → (⟨S32640, .i32⟩ : BufTy).Contents (Elt F))
  :: StableHlo.binary main_v51 main_v77 main_v78 (addi : (⟨S32640, .i32⟩ : BufTy).Contents (Elt F) → (⟨S32640, .i32⟩ : BufTy).Contents (Elt F) → (⟨S32640, .i32⟩ : BufTy).Contents (Elt F))
  :: StableHlo.ternary main_v76 main_v78 main_v51 main_v79 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F))
  :: StableHlo.unary main_v79 main_v80 (broadcastInDim S32640x1 ![0] bcast_S32640_S32640x1_0 : (⟨S32640, .i32⟩ : BufTy).Contents (Elt F) → (⟨S32640x1, .i32⟩ : BufTy).Contents (Elt F))
  :: StableHlo.binary main_v74 main_v80 main_v81 ((fun x i => Host.gather gather_S256_S32640x1_S32640_n_0_n_n_0_1_1 x i) : (⟨S256, .f32⟩ : BufTy).Contents (Elt F) → (⟨S32640x1, .i32⟩ : BufTy).Contents (Elt F) → (⟨S32640, .f32⟩ : BufTy).Contents (Elt F))
  :: StableHlo.nullary main_c_28 (constantI S_ 32 0#32)
  :: StableHlo.unary main_c_28 main_v82 (broadcastInDim S32640 ![] bcast_S_S32640 : (⟨S_, .i32⟩ : BufTy).Contents (Elt F) → (⟨S32640, .i32⟩ : BufTy).Contents (Elt F))
  :: StableHlo.binary main_v53 main_v82 main_v83 (cmpi .slt : (⟨S32640, .i32⟩ : BufTy).Contents (Elt F) → (⟨S32640, .i32⟩ : BufTy).Contents (Elt F) → (⟨S32640, .i1⟩ : BufTy).Contents (Elt F))
  :: StableHlo.nullary main_c_29 (constantI S_ 32 256#32)
  :: StableHlo.unary main_c_29 main_v84 (broadcastInDim S32640 ![] bcast_S_S32640 : (⟨S_, .i32⟩ : BufTy).Contents (Elt F) → (⟨S32640, .i32⟩ : BufTy).Contents (Elt F))
  :: StableHlo.binary main_v53 main_v84 main_v85 (addi : (⟨S32640, .i32⟩ : BufTy).Contents (Elt F) → (⟨S32640, .i32⟩ : BufTy).Contents (Elt F) → (⟨S32640, .i32⟩ : BufTy).Contents (Elt F))
  :: StableHlo.ternary main_v83 main_v85 main_v53 main_v86 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F))
  :: StableHlo.unary main_v86 main_v87 (broadcastInDim S32640x1 ![0] bcast_S32640_S32640x1_0 : (⟨S32640, .i32⟩ : BufTy).Contents (Elt F) → (⟨S32640x1, .i32⟩ : BufTy).Contents (Elt F))
  :: StableHlo.binary main_v74 main_v87 main_v88 ((fun x i => Host.gather gather_S256_S32640x1_S32640_n_0_n_n_0_1_1 x i) : (⟨S256, .f32⟩ : BufTy).Contents (Elt F) → (⟨S32640x1, .i32⟩ : BufTy).Contents (Elt F) → (⟨S32640, .f32⟩ : BufTy).Contents (Elt F))
  :: StableHlo.binary main_v81 main_v88 main_v89 (mulf : (⟨S32640, .f32⟩ : BufTy).Contents (Elt F) → (⟨S32640, .f32⟩ : BufTy).Contents (Elt F) → (⟨S32640, .f32⟩ : BufTy).Contents (Elt F))
  :: StableHlo.binary main_v89 main_v71 main_v90 (Host.divf : (⟨S32640, .f32⟩ : BufTy).Contents (Elt F) → (⟨S32640, .f32⟩ : BufTy).Contents (Elt F) → (⟨S32640, .f32⟩ : BufTy).Contents (Elt F))
  :: StableHlo.nullary main_cst_30 (constant S_ .f32 0x00000000#32)
  :: StableHlo.binary main_v90 main_cst_30 main_v91 ((fun x v => Host.reduceAdd x v reducesTo_S32640_S_d0 h_S_) : (⟨S32640, .f32⟩ : BufTy).Contents (Elt F) → (⟨S_, .f32⟩ : BufTy).Contents (Elt F) → (⟨S_, .f32⟩ : BufTy).Contents (Elt F))
  :: StableHlo.nullary main_cst_31 (constant S_ .f32 0x46FF0000#32)
  :: StableHlo.binary main_v91 main_cst_31 main_v92 (Host.divf : (⟨S_, .f32⟩ : BufTy).Contents (Elt F) → (⟨S_, .f32⟩ : BufTy).Contents (Elt F) → (⟨S_, .f32⟩ : BufTy).Contents (Elt F))
  :: StableHlo.nullary main_cst_32 (constant S_ .f32 0x3DCCCCCD#32)
  :: StableHlo.binary main_cst_32 main_v92 main_v93 (mulf : (⟨S_, .f32⟩ : BufTy).Contents (Elt F) → (⟨S_, .f32⟩ : BufTy).Contents (Elt F) → (⟨S_, .f32⟩ : BufTy).Contents (Elt F))
  :: StableHlo.binary main_v33 main_v93 main_v94 (addf : (⟨S_, .f32⟩ : BufTy).Contents (Elt F) → (⟨S_, .f32⟩ : BufTy).Contents (Elt F) → (⟨S_, .f32⟩ : BufTy).Contents (Elt F))
  :: StableHlo.nullary main_cst_33 (constant S_ .f32 0x3DCCCCCD#32)
  :: StableHlo.binary main_cst_33 main_v92 main_v95 (mulf : (⟨S_, .f32⟩ : BufTy).Contents (Elt F) → (⟨S_, .f32⟩ : BufTy).Contents (Elt F) → (⟨S_, .f32⟩ : BufTy).Contents (Elt F))
  :: [] )
/-- The pair enumeration and the inter-cluster loss, cut where a call begins or ends. -/
abbrev opsB : List (List (HloOp τ sig (Elt F))) :=
  [opsB_1, opsB_2, opsB_3, opsB_4, opsB_5, opsB_6, opsB_7, opsB_8, opsB_9, opsB_10, opsB_11, opsB_12, opsB_13, opsB_14, opsB_15, opsB_16]

/-- Every operation @main performs, calls inlined, in order. -/
abbrev ops : List (HloOp τ sig (Elt F)) := opsA ++ opsB.flatten

end Cert.ReferenceIdeal.Hand

end
-- ==== Proof.RRun.lean ====
import proofs.«414854_j77403900608667_3_alg».proof.Proof.ROps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is one line of operations

@main is printed in three windows of sixty statements, and eight of its statements are calls whose bodies
run in place. Each window is stated as the chain of its stretches (a stretch ends where a call begins or
ends) and the windows' chains are joined; a chain of lines is the line of the concatenation. The window
boundaries fall inside two of the stretches, after the fourth operation of the sixth and after the
forty-fourth of the sixteenth: there the stretch is its first part followed by its rest. -/

/-- Lines run one after the other are their concatenation run as one line. -/
theorem chain_map_seq {nD : Nat} {τ : Topo} {sig : RefSig} {Val : EltTy → Type} {Λ : Labels}
    (L : List (List (HloOp τ sig Val))) :
    Pipeline.chain (L.map fun l => (seq l : Prog (TpuEff nD τ sig Val Λ .tc) PUnit)) = seq L.flatten := by
  induction L with
  | nil => rfl
  | cons l L ih => simp only [List.map_cons, Pipeline.chain_cons, List.flatten_cons, seq_append, ih]

/-- Cutting two of the lists in two does not change the concatenation. -/
theorem flatten_cut {α : Type} (A b1 b2 b3 b4 b5 b6 b7 b8 b9 b10 b11 b12 b13 b14 b15 b16 : List α) (i j : Nat) :
    [A, b1, b2, b3, b4, b5, b6.take i, b6.drop i, b7, b8, b9, b10, b11, b12, b13, b14, b15, b16.take j, b16.drop j].flatten
      = A ++ [b1, b2, b3, b4, b5, b6, b7, b8, b9, b10, b11, b12, b13, b14, b15, b16].flatten := by
  simp only [List.flatten_cons, List.flatten_nil, List.append_nil]
  rw [← List.append_assoc (b6.take i), List.take_append_drop, List.take_append_drop]

/-- The first window: the reference's own statements, three calls, and the first four operations of the
    stretch after the third call. -/
theorem main_part0_chain (c : Dev nD) : main_part0 (F := F) c = (Pipeline.chainK
    [seq opsA, seq opsB_1, seq opsB_2, seq opsB_3, seq opsB_4, seq opsB_5] (seq (opsB_6.take 4)) : Prog (TpuEff nD τ sig (Elt F) (Pipeline.Sig Λ₀ (Fin 0) fun p => (pcfgs (F := F) p).Adm) .tc) PUnit) := by
  chain_rfl

/-- The second window: the rest of that stretch, five calls with the constants between them, and the first
    forty-four operations of the last stretch. -/
theorem main_part1_chain (c : Dev nD) : main_part1 (F := F) c = (Pipeline.chainK
    [seq (opsB_6.drop 4), seq opsB_7, seq opsB_8, seq opsB_9, seq opsB_10, seq opsB_11, seq opsB_12, seq opsB_13,
     seq opsB_14, seq opsB_15] (seq (opsB_16.take 44)) : Prog (TpuEff nD τ sig (Elt F) (Pipeline.Sig Λ₀ (Fin 0) fun p => (pcfgs (F := F) p).Adm) .tc) PUnit) := by
  chain_rfl

/-- The last window: the remaining twelve operations. -/
theorem main_part2_chain (c : Dev nD) : main_part2 (F := F) c = (Pipeline.chain
    [seq (opsB_16.drop 44)] : Prog (TpuEff nD τ sig (Elt F) (Pipeline.Sig Λ₀ (Fin 0) fun p => (pcfgs (F := F) p).Adm) .tc) PUnit) := by
  chain_rfl

/-- @main is the line of all its operations, calls inlined. -/
theorem main_eq (c : Dev nD) : main (F := F) c = seq ops := by
  have h : main (F := F) c = Pipeline.chain (List.map (fun l => (seq l : Prog (TpuEff nD τ sig (Elt F) (Pipeline.Sig Λ₀ (Fin 0) fun p => (pcfgs (F := F) p).Adm) .tc) PUnit))
      [opsA, opsB_1, opsB_2, opsB_3, opsB_4, opsB_5, opsB_6.take 4, opsB_6.drop 4, opsB_7, opsB_8, opsB_9, opsB_10,
       opsB_11, opsB_12, opsB_13, opsB_14, opsB_15, opsB_16.take 44, opsB_16.drop 44]) := by
    show (main_part0 (F := F) c >>= fun _ => main_part1 (F := F) c >>= fun _ => main_part2 (F := F) c) = _
    rewrite [main_part2_chain, main_part1_chain, Pipeline.chainK_bind_chain, main_part0_chain, Pipeline.chainK_bind_chain]
    rfl
  rw [h, chain_map_seq]
  exact congrArg seq (flatten_cut opsA opsB_1 opsB_2 opsB_3 opsB_4 opsB_5 opsB_6 opsB_7 opsB_8 opsB_9 opsB_10 opsB_11 opsB_12 opsB_13 opsB_14 opsB_15 opsB_16 4 44)

/-! ## The side conditions of the run

The program scopes no buffer and no semaphore; every operation touches TensorCore references only and
determines its result; no operation writes an argument. Each is a fact of one operation, read off its
builder, and holds of the line because it holds of every stretch. -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-- What holds of every operation of every stretch holds of every operation of the line. -/
theorem forall_mem_ops {P : HloOp τ sig (Elt F) → Prop}
    (hA : ∀ op ∈ (opsA : List (HloOp τ sig (Elt F))), P op)
    (hB : (opsB : List (List (HloOp τ sig (Elt F)))).Forall fun l => ∀ op ∈ l, P op) :
    ∀ op ∈ (ops : List (HloOp τ sig (Elt F))), P op := by
  intro op h
  rcases List.mem_append.mp h with h | h
  · exact hA op h
  · obtain ⟨l, hl, hop⟩ := List.mem_flatten.mp h
    exact List.forall_iff_forall_mem.mp hB l hl op hop

/-- Prove a fact of every operation of a literal list, one operation at a time. -/
syntax "each_op " tacticSeq : tactic
macro_rules
  | `(tactic| each_op $t:tacticSeq) =>
    `(tactic| (intro _ h; (repeat (cases h with | head => ($t) | tail _ h => ?_)); exact nomatch h))

/-- The operation in the goal is one of the five builders: it touches TensorCore references only. -/
macro "bufs_sub_one" : tactic =>
  `(tactic| simp only [nullary_bufs_sub, unary_bufs_sub, binary_bufs_sub, ternary_bufs_sub, reshape_bufs_sub])

/-- The operation in the goal writes its result buffer only, which is none of the four arguments. -/
macro "keeps_args_one" : tactic =>
  `(tactic| (intro r hr;
             simp only [nullary_writes, unary_writes, binary_writes, ternary_writes, reshape_writes, Finset.mem_singleton];
             exact devRef_ne_of_ne (by revert r; decide)))

set_option maxRecDepth 8192 in
theorem ops_sub : (ops : List (HloOp τ sig (Elt F))).Forall fun op => op.bufs ⊆ tcRefs τ sig :=
  List.forall_iff_forall_mem.mpr (forall_mem_ops (by each_op bufs_sub_one)
    ⟨by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one, by each_op bufs_sub_one⟩)

set_option maxRecDepth 8192 in
theorem ops_fresh : ∀ op ∈ (ops : List (HloOp τ sig (Elt F))), op.fresh = ∅ :=
  forall_mem_ops (by each_op rfl)
    ⟨by each_op rfl, by each_op rfl, by each_op rfl, by each_op rfl, by each_op rfl, by each_op rfl, by each_op rfl, by each_op rfl, by each_op rfl, by each_op rfl, by each_op rfl, by each_op rfl, by each_op rfl, by each_op rfl, by each_op rfl, by each_op rfl⟩

set_option maxRecDepth 8192 in
/-- No operation of the line writes one of @main's four arguments. -/
theorem ops_keeps_args : ∀ op ∈ (ops : List (HloOp τ sig (Elt F))),
    ∀ r ∈ [main_arg0, main_arg1, main_arg2, main_arg3], Proc.devRef (τ := τ) .tc r ∉ op.writes :=
  forall_mem_ops (by each_op keeps_args_one)
    ⟨by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one, by each_op keeps_args_one⟩

/-! ## The run -/

/-- On every device, for any float values, from any memory with zero counters: every weakly fair execution of
    @main terminates, and every final state has each TensorCore buffer at the fold of the operations' results
    over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The arguments keep their contents through the line. -/
theorem after_arg0 (V : Valuation τ sig (Elt F)) :
    after ops V (Proc.devRef .tc main_arg0) = V (Proc.devRef .tc main_arg0) :=
  after_of_forall_not_mem ops V fun op h => ops_keeps_args op h main_arg0 (by decide)
theorem after_arg1 (V : Valuation τ sig (Elt F)) :
    after ops V (Proc.devRef .tc main_arg1) = V (Proc.devRef .tc main_arg1) :=
  after_of_forall_not_mem ops V fun op h => ops_keeps_args op h main_arg1 (by decide)
theorem after_arg2 (V : Valuation τ sig (Elt F)) :
    after ops V (Proc.devRef .tc main_arg2) = V (Proc.devRef .tc main_arg2) :=
  after_of_forall_not_mem ops V fun op h => ops_keeps_args op h main_arg2 (by decide)
theorem after_arg3 (V : Valuation τ sig (Elt F)) :
    after ops V (Proc.devRef .tc main_arg3) = V (Proc.devRef .tc main_arg3) :=
  after_of_forall_not_mem ops V fun op h => ops_keeps_args op h main_arg3 (by decide)

end Cert.ReferenceIdeal.Hand

end
-- ==== Proof.Spec.lean ====
/-
  The mathematics of the cluster loss, stated once.

  Points n < 262144 carry an embedding row e n (128 entries), an integer label and a mass; clusters are k < 256.
  A point belongs to cluster k when its label, read as a signed integer, is k; a label outside [0, 256) belongs to
  no cluster. Every per-cluster quantity is a SEGMENT SUM: the sum over the points of the cluster.

  First part, on the extended reals: the one-hot entry of a point and a cluster, the 384-column augmented row the
  kernel multiplies it with (weighted row | raw row | weight, one, squared norm, a zero remainder, zeros), and the
  partial sums each of the two cores accumulates over its half of the points, sixteen blocks of 8192 rows.

  Second part, on the reals: segment sums, centroids, counts, and the two ways the mean intra-cluster squared
  distance is computed -- directly, as the segment sum of squared distances to the centroid, and expanded, as
  (sum of squared norms) - 2 (sum of rows) . centroid + count |centroid|^2 -- with the identity between them.
-/
import Idealize.ShloMosaic.PureOps.Ideal
import Idealize.ShloMosaic.Lib.ValueIdx

noncomputable section

open scoped BigOperators

namespace Cert.Spec

open Idealize.ShloMosaic Idealize.ShloMosaic.ValueIdx

/-! ## On the extended reals -/

/-- Point n carries label k: the label word, read signed, is k. -/
def lab (Lb : (⟨1, ![262144]⟩ : Shape).Idx → BitVec 32) (n : Fin 262144) (k : Fin 256) : Prop :=
  (Lb (ix1 n)).toInt = (k.val : Int)

instance (Lb : (⟨1, ![262144]⟩ : Shape).Idx → BitVec 32) (n : Fin 262144) (k : Fin 256) : Decidable (lab Lb n k) :=
  inferInstanceAs (Decidable (_ = _))

/-- The one-hot entry: 1 when point n carries label k, else 0. -/
def oh (Lb : (⟨1, ![262144]⟩ : Shape).Idx → BitVec 32) (n : Fin 262144) (k : Fin 256) : EReal :=
  if lab Lb n k then 1 else 0

/-- The kernel's weight of point n: the square root of its mass. -/
def wK (Ms : (⟨1, ![262144]⟩ : Shape).Idx → EReal) (n : Fin 262144) : EReal := Ideal.sqrt (Ms (ix1 n))

/-- The squared norm of row n. -/
def sqn (E : (⟨2, ![262144, 128]⟩ : Shape).Idx → EReal) (n : Fin 262144) : EReal :=
  ∑ d : Fin 128, E (ix2 n d) * E (ix2 n d)

/-- Column j of point n's augmented row: columns 0..127 the row times the weight, 128..255 the row, 256 the
    weight, 257 one, 258 the squared norm, 259 the squared norm minus itself, the rest zero. -/
def augK (E : (⟨2, ![262144, 128]⟩ : Shape).Idx → EReal) (Ms : (⟨1, ![262144]⟩ : Shape).Idx → EReal)
    (n : Fin 262144) (j : Fin 384) : EReal :=
  if h : j.val < 128 then E (ix2 n ⟨j.val, h⟩) * wK Ms n
  else if h2 : j.val < 256 then E (ix2 n ⟨j.val - 128, by omega⟩)
  else if j.val = 256 then wK Ms n
  else if j.val = 257 then 1
  else if j.val = 258 then sqn E n
  else if j.val = 259 then sqn E n - sqn E n
  else 0

/-- Row r of block s of core c's half of the points. -/
def rowOf (c : Fin 2) (s : Fin 16) (r : Fin 8192) : Fin 262144 :=
  ⟨(c.val * 16 + s.val) * 8192 + r.val, by have := c.isLt; have := s.isLt; have := r.isLt; omega⟩

/-- What core c accumulates at (k, j): over its sixteen blocks, the one-hot column k against augmented column j. -/
def P1 (E : (⟨2, ![262144, 128]⟩ : Shape).Idx → EReal) (Lb : (⟨1, ![262144]⟩ : Shape).Idx → BitVec 32)
    (Ms : (⟨1, ![262144]⟩ : Shape).Idx → EReal) (c : Fin 2) (k : Fin 256) (j : Fin 384) : EReal :=
  ∑ s : Fin 16, ∑ r : Fin 8192, oh Lb (rowOf c s r) k * augK E Ms (rowOf c s r) j

/-! ## On the reals -/

section Reals

variable (mem : Fin 262144 → Fin 256 → Prop) [∀ n k, Decidable (mem n k)]
  (e : Fin 262144 → Fin 128 → ℝ) (w : Fin 262144 → ℝ)

/-- The segment sum of g over cluster k. -/
def segR (g : Fin 262144 → ℝ) (k : Fin 256) : ℝ := ∑ n : Fin 262144, if mem n k then g n else 0

/-- The weighted centroid of cluster k, coordinate d. -/
def cent (k : Fin 256) (d : Fin 128) : ℝ := segR mem (fun n => e n d * w n) k / segR mem w k

/-- The number of points of cluster k. -/
def cnt (k : Fin 256) : ℝ := segR mem (fun _ => 1) k

/-- The mean over clusters of the mean squared distance to the centroid, computed directly. -/
def intraDirect : ℝ :=
  (∑ k : Fin 256, segR mem (fun n => ∑ d : Fin 128, (e n d - cent mem e w k d) * (e n d - cent mem e w k d)) k / cnt mem k) / 256

/-- The same, expanded: (sum of squared norms) - 2 (sum of rows) . centroid + count |centroid|^2. -/
def intraExpanded : ℝ :=
  (∑ k : Fin 256,
      (segR mem (fun n => ∑ d : Fin 128, e n d * e n d) k
        - 2 * (∑ d : Fin 128, segR mem (fun n => e n d) k * cent mem e w k d)
        + cnt mem k * (∑ d : Fin 128, cent mem e w k d * cent mem e w k d)) / cnt mem k) / 256

end Reals

end Cert.Spec

end
-- ==== Proof.KPay.lean ====
/-
  What the kernel's two payloads hold at an index, over the extended reals.

  The reset payload is the zero block. The accumulating payload adds to the old block the product, contracted
  over the block's 8192 rows, of a one-hot operand (row r, cluster k: 1 when row r's label word is k) with an
  augmented operand of 384 columns (the row times its weight | the row | weight, one, squared norm, the squared
  norm minus itself, zeros), the weight being the square root of the row's mass. Format changes are the identity
  here, a lane sum is a finite sum, and the product read at (k, j) is the sum over the rows of the two entries.
-/
import proofs.«414854_j77403900608667_3_alg».proof.Proof.Gen.KernelIdeal.Skeleton
import proofs.«414854_j77403900608667_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Idealize.SL.Sem
open Cert.KernelIdeal Cert.KernelIdeal.Gen

/-- The one-hot operand of the block product: row r, column k is 1 exactly when row r's label word equals the
    column's number. -/
def ohVec (v3 : Vec Ideal S8192 .i32) : FVec Ideal S8192x256 .bf16 :=
  truncf .bf16 (sitofp .f32 (extui 32 (cmpi .eq
    (broadcastTo S8192x256 (shapeCast S8192x1 v3 shapeCasts_S8192_S8192x1) broadcasts_S8192x1_S8192x256)
    (iota .tc S8192x256 32 [1] iota_S8192x256_d1_w32)) natLt_1_32)) bitsLt_bf16_f32

/-- The squared norm of each row, kept as a column. -/
def sqCol (v6 : Vec Ideal S8192x128 .f32) : FVec Ideal S8192x1 .f32 :=
  shapeCast S8192x1 (multiReduction (F := Ideal) .add [1] S8192 (mulf v6 v6) 0x00000000#32 reduces_S8192x128_S8192 (.inl rfl) rfl)
    shapeCasts_S8192_S8192x1

/-- The weight of each row, the square root of its mass, kept as a column. -/
def wCol (v4 : Vec Ideal S8192 .f32) : FVec Ideal S8192x1 .f32 :=
  shapeCast S8192x1 (sqrt v4) shapeCasts_S8192_S8192x1

/-- The last 128 columns of the augmented operand: weight, one, squared norm, its difference with itself, zeros. -/
def tailVec (v4 : Vec Ideal S8192 .f32) (v6 : Vec Ideal S8192x128 .f32) : FVec Ideal S8192x128 .f32 :=
  concatenate S8192x128 1 [⟨S8192x1, wCol v4⟩, ⟨S8192x1, broadcast S8192x1 (Scalar.ofBits (F := Ideal) .f32 0x3F800000#32)⟩,
    ⟨S8192x1, sqCol v6⟩, ⟨S8192x1, subf (sqCol v6) (sqCol v6)⟩,
    ⟨S8192x124, broadcast S8192x124 (Scalar.ofBits (F := Ideal) .f32 0x00000000#32)⟩]
    concatenates_S8192x1_S8192x1_S8192x1_S8192x1_S8192x124_S8192x128_d1

/-- The augmented operand: weighted rows, rows, tail. -/
def augVec (v4 : Vec Ideal S8192 .f32) (v6 : Vec Ideal S8192x128 .f32) : FVec Ideal S8192x384 .bf16 :=
  truncf .bf16 (concatenate S8192x384 1
    [⟨S8192x128, mulf v6 (broadcastTo S8192x128 (wCol v4) broadcasts_S8192x1_S8192x128)⟩, ⟨S8192x128, v6⟩, ⟨S8192x128, tailVec v4 v6⟩]
    concatenates_S8192x128_S8192x128_S8192x128_S8192x384_d1) bitsLt_bf16_f32

/-- The payload is the old block plus the product of the two operands, contracted over the rows. -/
theorem pay2_eq (v3 : Vec Ideal S8192 .i32) (v4 : Vec Ideal S8192 .f32) (v6 : Vec Ideal S8192x128 .f32)
    (v33 : Vec Ideal S1x256x384 .f32) :
    k0_pay2 v3 v4 v6 v33 = shapeCast S1x256x384 (addf (shapeCast S256x384 v33 shapeCasts_S1x256x384_S256x384)
      (matmul dot_S8192x256_S8192x384_S256x384_0_0_1_1_n_n none (ohVec v3) (augVec v4 v6)
        (constant (F := Ideal) S256x384 .f32 0x00000000#32))) shapeCasts_S256x384_S1x256x384 := rfl

/-! ## The block product read at an index -/

theorem lhs_dot_0 (i : S256x384.Idx) (q : dot_S8192x256_S8192x384_S256x384_0_0_1_1_n_n.contr.Idx) :
    (dot_S8192x256_S8192x384_S256x384_0_0_1_1_n_n.lhsIdx i q 0).val = (q ⟨0, by decide⟩).val :=
  dot_S8192x256_S8192x384_S256x384_0_0_1_1_n_n.lhsIdx_val_of_single rfl i q

theorem lhs_dot_1 (i : S256x384.Idx) (q : dot_S8192x256_S8192x384_S256x384_0_0_1_1_n_n.contr.Idx) :
    (dot_S8192x256_S8192x384_S256x384_0_0_1_1_n_n.lhsIdx i q 1).val = (i 0).val := by
  unfold DotDims.lhsIdx
  rw [dif_neg (show ¬(1 : Fin S8192x256.rank) ∈ dot_S8192x256_S8192x384_S256x384_0_0_1_1_n_n.lhsBatch by decide),
    dif_pos (show (1 : Fin S8192x256.rank) ∈ dot_S8192x256_S8192x384_S256x384_0_0_1_1_n_n.lhsNonContracting by decide)]
  rfl

theorem rhs_dot_0 (i : S256x384.Idx) (q : dot_S8192x256_S8192x384_S256x384_0_0_1_1_n_n.contr.Idx) :
    (dot_S8192x256_S8192x384_S256x384_0_0_1_1_n_n.rhsIdx i q 0).val = (q ⟨0, by decide⟩).val :=
  dot_S8192x256_S8192x384_S256x384_0_0_1_1_n_n.rhsIdx_val_of_single rfl i q

theorem rhs_dot_1 (i : S256x384.Idx) (q : dot_S8192x256_S8192x384_S256x384_0_0_1_1_n_n.contr.Idx) :
    (dot_S8192x256_S8192x384_S256x384_0_0_1_1_n_n.rhsIdx i q 1).val = (i 1).val := by
  unfold DotDims.rhsIdx
  rw [dif_neg (show ¬(1 : Fin S8192x384.rank) ∈ dot_S8192x256_S8192x384_S256x384_0_0_1_1_n_n.rhsBatch by decide),
    dif_pos (show (1 : Fin S8192x384.rank) ∈ dot_S8192x256_S8192x384_S256x384_0_0_1_1_n_n.rhsNonContracting by decide)]
  rfl

/-- The product contracted over the rows: entry (k, j) is the sum over the rows of the left operand's column k
    against the right operand's column j. -/
theorem dot_apply (A : FVec Ideal S8192x256 .bf16) (B : FVec Ideal S8192x384 .bf16) (k : Fin 256) (j : Fin 384) :
    matmul dot_S8192x256_S8192x384_S256x384_0_0_1_1_n_n none A B (constant (F := Ideal) S256x384 .f32 0x00000000#32) (ix2 k j)
      = ∑ r : Fin 8192, A (ix2 r k) * B (ix2 r j) := by
  simp only [matmul]
  rw [Ideal.matmul_constant_zero_apply,
    ← Equiv.sum_comp (contrEquiv1 dot_S8192x256_S8192x384_S256x384_0_0_1_1_n_n 8192 rfl rfl).symm]
  refine Finset.sum_congr rfl fun r _ => ?_
  have hk := contrEquiv1_symm_val dot_S8192x256_S8192x384_S256x384_0_0_1_1_n_n 8192 rfl rfl r
  have el : dot_S8192x256_S8192x384_S256x384_0_0_1_1_n_n.lhsIdx (ix2 k j)
      ((contrEquiv1 dot_S8192x256_S8192x384_S256x384_0_0_1_1_n_n 8192 rfl rfl).symm r) = ix2 r k :=
    funext fun a => Fin.ext (by
      match a with
      | ⟨0, _⟩ => exact (lhs_dot_0 _ _).trans hk
      | ⟨1, _⟩ => exact lhs_dot_1 _ _)
  have er : dot_S8192x256_S8192x384_S256x384_0_0_1_1_n_n.rhsIdx (ix2 k j)
      ((contrEquiv1 dot_S8192x256_S8192x384_S256x384_0_0_1_1_n_n 8192 rfl rfl).symm r) = ix2 r j :=
    funext fun a => Fin.ext (by
      match a with
      | ⟨0, _⟩ => exact (rhs_dot_0 _ _).trans hk
      | ⟨1, _⟩ => exact rhs_dot_1 _ _)
  rw [el, er]

/-! ## The operands read at an index -/

/-- A vector kept as a column reads, at (r, 0), the vector at r. -/
theorem col_apply {α : Type} (x : S8192.Idx → α) (r : Fin 8192) (z : Fin 1) :
    shapeCast S8192x1 x shapeCasts_S8192_S8192x1 (ix2 r z) = x (ix1 r) :=
  shapeCast_apply x _ _ _ (by
    have hz : z.val = 0 := by omega
    rw [Shape.rowMajor_val_one, Shape.rowMajor_val_two]
    show r.val = r.val * 1 + z.val
    omega)

/-- A column spread over 256 columns reads, at (r, k), the column at (r, 0). -/
theorem spread256_apply {α : Type} (x : S8192x1.Idx → α) (r : Fin 8192) (k : Fin 256) :
    broadcastTo S8192x256 x broadcasts_S8192x1_S8192x256 (ix2 r k) = x (ix2 r (0 : Fin 1)) :=
  broadcastTo_apply x _ _ _ (fun a => by
    match a with
    | ⟨0, _⟩ => rfl
    | ⟨1, _⟩ => rfl)

/-- A column spread over 128 columns reads, at (r, d), the column at (r, 0). -/
theorem spread128_apply {α : Type} (x : S8192x1.Idx → α) (r : Fin 8192) (d : Fin 128) :
    broadcastTo S8192x128 x broadcasts_S8192x1_S8192x128 (ix2 r d) = x (ix2 r (0 : Fin 1)) :=
  broadcastTo_apply x _ _ _ (fun a => by
    match a with
    | ⟨0, _⟩ => rfl
    | ⟨1, _⟩ => rfl)

/-- A 32-bit word equals the word of a number below 256 exactly when, read signed, it is that number. -/
theorem word_eq_iff (x : BitVec 32) (k : Fin 256) : x = BitVec.ofNat 32 k.val ↔ x.toInt = (k.val : Int) := by
  have hk : (BitVec.ofNat 32 k.val).toInt = (k.val : Int) := by
    rw [BitVec.toInt_eq_toNat_of_lt (by rw [BitVec.toNat_ofNat]; have := k.isLt; omega), BitVec.toNat_ofNat]
    have := k.isLt
    omega
  constructor
  · intro h; rw [h, hk]
  · intro h; exact BitVec.toInt_inj.mp (h.trans hk.symm)

/-- The one-hot entry of row r against cluster k, from the block's label words. -/
def ohB (v3 : Vec Ideal S8192 .i32) (r : Fin 8192) (k : Fin 256) : EReal :=
  if BitVec.toInt (v3 (ix1 r)) = (k.val : Int) then 1 else 0

theorem ohVec_apply (v3 : Vec Ideal S8192 .i32) (r : Fin 8192) (k : Fin 256) : ohVec v3 (ix2 r k) = ohB v3 r k := by
  have e1 : broadcastTo S8192x256 (shapeCast S8192x1 v3 shapeCasts_S8192_S8192x1) broadcasts_S8192x1_S8192x256 (ix2 r k)
      = v3 (ix1 r) := (spread256_apply _ r k).trans (col_apply v3 r 0)
  have e2 : iota .tc S8192x256 32 [1] iota_S8192x256_d1_w32 (ix2 r k) = BitVec.ofNat 32 k.val :=
    iota_single_apply .tc S8192x256 32 1 iota_S8192x256_d1_w32 (ix2 r k)
  show ((((IntOp.cmpi .eq
      (broadcastTo S8192x256 (shapeCast S8192x1 v3 shapeCasts_S8192_S8192x1) broadcasts_S8192x1_S8192x256 (ix2 r k))
      (iota .tc S8192x256 32 [1] iota_S8192x256_d1_w32 (ix2 r k))).setWidth 32).toInt : ℝ) : EReal) = _
  rw [e1, e2]
  unfold ohB
  by_cases h : v3 (ix1 r) = BitVec.ofNat 32 k.val
  · rw [if_pos ((word_eq_iff _ k).mp h), h]
    have : IntOp.cmpi .eq (BitVec.ofNat 32 k.val) (BitVec.ofNat 32 k.val) = 1#1 := IntOp.cmpi_eq.mpr rfl
    rw [this]
    norm_num
  · rw [if_neg (fun h' => h ((word_eq_iff _ k).mpr h'))]
    have : IntOp.cmpi .eq (v3 (ix1 r)) (BitVec.ofNat 32 k.val) = 0#1 :=
      eq_zero_of_ne_one (fun h' => h (IntOp.cmpi_eq.mp h'))
    rw [this]
    norm_num

theorem wCol_apply (v4 : Vec Ideal S8192 .f32) (r : Fin 8192) (z : Fin 1) :
    wCol v4 (ix2 r z) = Ideal.sqrt (v4 (ix1 r)) :=
  col_apply (α := EReal) (sqrt v4 : FVec Ideal S8192 .f32) r z

theorem sqCol_apply (v6 : Vec Ideal S8192x128 .f32) (r : Fin 8192) (z : Fin 1) :
    sqCol v6 (ix2 r z) = ∑ d : Fin 128, v6 (ix2 r d) * v6 (ix2 r d) := by
  refine (col_apply _ r z).trans ?_
  refine (Ideal.multiReduction_add_single (mulf v6 v6) 0x00000000#32 reduces_S8192x128_S8192 (.inl rfl) rfl (ix1 r)).trans ?_
  refine Finset.sum_congr rfl fun d _ => ?_
  have e : reduces_S8192x128_S8192.lift (ix1 r) d = ix2 r d :=
    funext fun a => Fin.ext (by
      match a with
      | ⟨0, _⟩ => rfl
      | ⟨1, _⟩ => rfl)
  rw [e]
  rfl

/-! ### The two concatenations along the columns -/

section Cat
variable {α : Type}

theorem cat3_fst (x0 x1 x2 : S8192x128.Idx → α) (r : Fin 8192) (j : Fin 384) (d : Fin 128) (hd : d.val = j.val) :
    concatenate S8192x384 1 [⟨S8192x128, x0⟩, ⟨S8192x128, x1⟩, ⟨S8192x128, x2⟩]
      concatenates_S8192x128_S8192x128_S8192x128_S8192x384_d1 (ix2 r j) = x0 (ix2 r d) :=
  concatenate_apply_piece 1 _ _ (ix2 r j) 0 (by show 0 < 3; omega) S8192x128 x0 rfl rfl 0 rfl (ix2 r d)
    (fun b hb => by
      match b with
      | ⟨0, _⟩ => rfl
      | ⟨1, _⟩ => exact (hb rfl).elim)
    (by show 0 + d.val = j.val; omega)

theorem cat3_snd (x0 x1 x2 : S8192x128.Idx → α) (r : Fin 8192) (j : Fin 384) (d : Fin 128) (hd : 128 + d.val = j.val) :
    concatenate S8192x384 1 [⟨S8192x128, x0⟩, ⟨S8192x128, x1⟩, ⟨S8192x128, x2⟩]
      concatenates_S8192x128_S8192x128_S8192x128_S8192x384_d1 (ix2 r j) = x1 (ix2 r d) :=
  concatenate_apply_piece 1 _ _ (ix2 r j) 1 (by show 1 < 3; omega) S8192x128 x1 rfl rfl 128 rfl (ix2 r d)
    (fun b hb => by
      match b with
      | ⟨0, _⟩ => rfl
      | ⟨1, _⟩ => exact (hb rfl).elim)
    (by show 128 + d.val = j.val; omega)

theorem cat3_thd (x0 x1 x2 : S8192x128.Idx → α) (r : Fin 8192) (j : Fin 384) (d : Fin 128) (hd : 256 + d.val = j.val) :
    concatenate S8192x384 1 [⟨S8192x128, x0⟩, ⟨S8192x128, x1⟩, ⟨S8192x128, x2⟩]
      concatenates_S8192x128_S8192x128_S8192x128_S8192x384_d1 (ix2 r j) = x2 (ix2 r d) :=
  concatenate_apply_piece 1 _ _ (ix2 r j) 2 (by show 2 < 3; omega) S8192x128 x2 rfl rfl 256 rfl (ix2 r d)
    (fun b hb => by
      match b with
      | ⟨0, _⟩ => rfl
      | ⟨1, _⟩ => exact (hb rfl).elim)
    (by show 256 + d.val = j.val; omega)

/-- One of the four single columns of the five-piece concatenation: column p < 4 is piece p at its column 0. -/
theorem cat5_col (x0 x1 x2 x3 : S8192x1.Idx → α) (x4 : S8192x124.Idx → α) (r : Fin 8192) (d : Fin 128)
    (p : Nat) (hp : p < 4) (hd : d.val = p) (y : S8192x1.Idx → α)
    (hy : [(⟨S8192x1, x0⟩ : (s : Shape) × (s.Idx → α)), ⟨S8192x1, x1⟩, ⟨S8192x1, x2⟩, ⟨S8192x1, x3⟩, ⟨S8192x124, x4⟩][p]'(by
      show p < 5; omega) = ⟨S8192x1, y⟩) :
    concatenate S8192x128 1 [⟨S8192x1, x0⟩, ⟨S8192x1, x1⟩, ⟨S8192x1, x2⟩, ⟨S8192x1, x3⟩, ⟨S8192x124, x4⟩]
      concatenates_S8192x1_S8192x1_S8192x1_S8192x1_S8192x124_S8192x128_d1 (ix2 r d) = y (ix2 r (0 : Fin 1)) :=
  concatenate_apply_piece 1 _ _ (ix2 r d) p (by show p < 5; omega) S8192x1 y hy rfl p
    (by
      rcases (by omega : p = 0 ∨ p = 1 ∨ p = 2 ∨ p = 3) with rfl | rfl | rfl | rfl <;> rfl)
    (ix2 r (0 : Fin 1))
    (fun b hb => by
      match b with
      | ⟨0, _⟩ => rfl
      | ⟨1, _⟩ => exact (hb rfl).elim)
    (by show p + 0 = d.val; omega)

theorem cat5_rest (x0 x1 x2 x3 : S8192x1.Idx → α) (x4 : S8192x124.Idx → α) (r : Fin 8192) (d : Fin 128)
    (e : Fin 124) (hd : 4 + e.val = d.val) :
    concatenate S8192x128 1 [⟨S8192x1, x0⟩, ⟨S8192x1, x1⟩, ⟨S8192x1, x2⟩, ⟨S8192x1, x3⟩, ⟨S8192x124, x4⟩]
      concatenates_S8192x1_S8192x1_S8192x1_S8192x1_S8192x124_S8192x128_d1 (ix2 r d) = x4 (ix2 r e) :=
  concatenate_apply_piece 1 _ _ (ix2 r d) 4 (by show 4 < 5; omega) S8192x124 x4 rfl rfl 4 rfl (ix2 r e)
    (fun b hb => by
      match b with
      | ⟨0, _⟩ => rfl
      | ⟨1, _⟩ => exact (hb rfl).elim)
    (by show 4 + e.val = d.val; omega)

end Cat

/-! ## The augmented row, and the payloads at an index -/

/-- Column j of row r's augmented row, from the block's mass and embedding rows: the weighted row, the row, the
    weight, one, the squared norm, its difference with itself, zeros. -/
def augB (v4 : Vec Ideal S8192 .f32) (v6 : Vec Ideal S8192x128 .f32) (r : Fin 8192) (j : Fin 384) : EReal :=
  if h : j.val < 128 then v6 (ix2 r ⟨j.val, h⟩) * Ideal.sqrt (v4 (ix1 r))
  else if h2 : j.val < 256 then v6 (ix2 r ⟨j.val - 128, by omega⟩)
  else if j.val = 256 then Ideal.sqrt (v4 (ix1 r))
  else if j.val = 257 then 1
  else if j.val = 258 then ∑ d : Fin 128, v6 (ix2 r d) * v6 (ix2 r d)
  else if j.val = 259 then (∑ d : Fin 128, v6 (ix2 r d) * v6 (ix2 r d)) - ∑ d : Fin 128, v6 (ix2 r d) * v6 (ix2 r d)
  else 0

theorem one_word : (Scalar.ofBits .f32 0x3F800000#32 : Ideal .f32) = 1 := by
  show Ideal.ofBits .f32 0x3F800000#32 = 1
  rw [show (1 : EReal) = ((1 : ℝ) : EReal) by norm_cast]
  simp [Ideal.ofBits, Ideal.ieee, -EReal.coe_mul]; norm_num

theorem zero_word : (Scalar.ofBits .f32 0x00000000#32 : Ideal .f32) = 0 := Ideal.ofBits_zero_f32

theorem tailVec_apply (v4 : Vec Ideal S8192 .f32) (v6 : Vec Ideal S8192x128 .f32) (r : Fin 8192) (j : Fin 384)
    (d : Fin 128) (hd : 256 + d.val = j.val) :
    tailVec v4 v6 (ix2 r d) =
      if j.val = 256 then Ideal.sqrt (v4 (ix1 r))
      else if j.val = 257 then 1
      else if j.val = 258 then ∑ d : Fin 128, v6 (ix2 r d) * v6 (ix2 r d)
      else if j.val = 259 then (∑ d : Fin 128, v6 (ix2 r d) * v6 (ix2 r d)) - ∑ d : Fin 128, v6 (ix2 r d) * v6 (ix2 r d)
      else 0 := by
  unfold tailVec
  by_cases h0 : j.val = 256
  · rw [if_pos h0]
    exact (cat5_col _ _ _ _ _ r d 0 (by omega) (by omega) _ rfl).trans (wCol_apply v4 r 0)
  rw [if_neg h0]
  by_cases h1 : j.val = 257
  · rw [if_pos h1]
    exact (cat5_col _ _ _ _ _ r d 1 (by omega) (by omega) _ rfl).trans one_word
  rw [if_neg h1]
  by_cases h2 : j.val = 258
  · rw [if_pos h2]
    exact (cat5_col _ _ _ _ _ r d 2 (by omega) (by omega) _ rfl).trans (sqCol_apply v6 r 0)
  rw [if_neg h2]
  by_cases h3 : j.val = 259
  · rw [if_pos h3]
    refine (cat5_col _ _ _ _ _ r d 3 (by omega) (by omega) _ rfl).trans ?_
    show sqCol v6 (ix2 r (0 : Fin 1)) - sqCol v6 (ix2 r (0 : Fin 1)) = _
    rw [sqCol_apply]
  rw [if_neg h3]
  exact (cat5_rest _ _ _ _ _ r d ⟨d.val - 4, by have := d.isLt; omega⟩ (by show 4 + (d.val - 4) = d.val; omega)).trans zero_word

theorem augVec_apply (v4 : Vec Ideal S8192 .f32) (v6 : Vec Ideal S8192x128 .f32) (r : Fin 8192) (j : Fin 384) :
    augVec v4 v6 (ix2 r j) = augB v4 v6 r j := by
  unfold augVec augB
  refine (truncf_apply _ bitsLt_bf16_f32 (ix2 r j)).trans ?_
  by_cases h1 : j.val < 128
  · rw [dif_pos h1]
    refine (cat3_fst _ _ _ r j ⟨j.val, h1⟩ rfl).trans ?_
    show v6 (ix2 r ⟨j.val, h1⟩) * broadcastTo S8192x128 (wCol v4) broadcasts_S8192x1_S8192x128 (ix2 r ⟨j.val, h1⟩) = _
    rw [spread128_apply, wCol_apply]
  rw [dif_neg h1]
  by_cases h2 : j.val < 256
  · rw [dif_pos h2]
    exact cat3_snd _ _ _ r j ⟨j.val - 128, by omega⟩ (by show 128 + (j.val - 128) = j.val; omega)
  rw [dif_neg h2]
  have hj := j.isLt
  refine (cat3_thd _ _ _ r j ⟨j.val - 256, by omega⟩ (by show 256 + (j.val - 256) = j.val; omega)).trans ?_
  exact tailVec_apply v4 v6 r j ⟨j.val - 256, by omega⟩ (by show 256 + (j.val - 256) = j.val; omega)

/-- The reset payload is the zero block. -/
theorem pay1_eq : k0_pay1 (F := Ideal) = shapeCast S1x256x384 (broadcast S256x384 (Scalar.ofBits (F := Ideal) .f32 0x00000000#32))
    shapeCasts_S256x384_S1x256x384 := rfl

theorem pay1_apply (k : Fin 256) (j : Fin 384) : k0_pay1 (F := Ideal) (ix3 (0 : Fin 1) k j) = 0 := by
  rw [pay1_eq]
  exact (shapeCast_ab_1ab_apply _ shapeCasts_S256x384_S1x256x384 0 k j).trans zero_word

/-- The accumulating payload at (k, j): the old entry plus, over the block's rows, the one-hot entry against the
    augmented row's column. -/
theorem pay2_apply (v3 : Vec Ideal S8192 .i32) (v4 : Vec Ideal S8192 .f32) (v6 : Vec Ideal S8192x128 .f32)
    (v33 : Vec Ideal S1x256x384 .f32) (k : Fin 256) (j : Fin 384) :
    k0_pay2 v3 v4 v6 v33 (ix3 (0 : Fin 1) k j)
      = v33 (ix3 (0 : Fin 1) k j) + ∑ r : Fin 8192, ohB v3 r k * augB v4 v6 r j := by
  rw [pay2_eq]
  refine (shapeCast_ab_1ab_apply _ shapeCasts_S256x384_S1x256x384 0 k j).trans ?_
  rw [addf_apply, shapeCast_1ab_ab_apply, dot_apply]
  refine congrArg (v33 (ix3 (0 : Fin 1) k j) + ·) (Finset.sum_congr rfl fun r _ => ?_)
  rw [ohVec_apply, augVec_apply]

end Cert.KernelIdeal.Hand

end
-- ==== Proof.KAcc.lean ====
/-
  What the kernel leaves in its output array, in closed form over the extended reals.

  The grid has two cores of sixteen points; point t = 16 c + s reads rows [8192 t, 8192 (t + 1)) of the three input
  arrays. A core's first point resets its accumulator block and adds its own product; every later point adds its
  product to what the point before left; the core's last point writes the block back as the core's slice of the
  output array. So at (c, k, j) the array ends holding the sum, over core c's sixteen blocks and each block's rows,
  of the one-hot entry of the row against cluster k times column j of the row's augmented row.
-/
import proofs.«414854_j77403900608667_3_alg».proof.Proof.KPay
import proofs.«414854_j77403900608667_3_alg».proof.Proof.KIFrame
import Idealize.ShloMosaic.Lib.Pipeline.Value
import Idealize.ShloMosaic.Lib.Tactic

set_option maxRecDepth 16384

noncomputable section

open scoped BigOperators

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## The sixteen blocks of a core, summed one at a time -/

section Bookkeeping

variable (E : (⟨2, ![262144, 128]⟩ : Shape).Idx → EReal) (Lb : (⟨1, ![262144]⟩ : Shape).Idx → BitVec 32)
  (Ms : (⟨1, ![262144]⟩ : Shape).Idx → EReal)

/-- Block s of core c at (k, j): the one-hot column against the augmented column over the block's rows; zero past
    the sixteenth block. -/
def blockTerm (c : Fin 2) (k : Fin 256) (j : Fin 384) (s : ℕ) : EReal :=
  if h : s < 16 then ∑ r : Fin 8192, Cert.Spec.oh Lb (Cert.Spec.rowOf c ⟨s, h⟩ r) k * Cert.Spec.augK E Ms (Cert.Spec.rowOf c ⟨s, h⟩ r) j
  else 0

/-- The first n blocks of core c at (k, j). -/
def partialP1 (c : Fin 2) (k : Fin 256) (j : Fin 384) (n : ℕ) : EReal :=
  ∑ s ∈ Finset.range n, blockTerm E Lb Ms c k j s

theorem partialP1_one (c : Fin 2) (k : Fin 256) (j : Fin 384) :
    partialP1 E Lb Ms c k j 1 = 0 + blockTerm E Lb Ms c k j 0 := by
  unfold partialP1
  rw [Finset.sum_range_one, zero_add]

theorem partialP1_succ (c : Fin 2) (k : Fin 256) (j : Fin 384) (n : ℕ) :
    partialP1 E Lb Ms c k j (n + 1) = partialP1 E Lb Ms c k j n + blockTerm E Lb Ms c k j n :=
  Finset.sum_range_succ _ _

/-- All sixteen blocks: what the core accumulates. -/
theorem partialP1_full (c : Fin 2) (k : Fin 256) (j : Fin 384) :
    partialP1 E Lb Ms c k j 16 = Cert.Spec.P1 E Lb Ms c k j := by
  unfold partialP1 Cert.Spec.P1
  rw [Finset.sum_range]
  refine Finset.sum_congr rfl fun s _ => ?_
  unfold blockTerm
  rw [dif_pos s.isLt]

/-- A block's one-hot entry is the array's, once the block's label word is the array's. -/
theorem ohB_eq_oh (v3 : Vec Ideal S8192 .i32) (r : Fin 8192) (n : Fin 262144) (k : Fin 256)
    (h : v3 (ix1 r) = Lb (ix1 n)) : ohB v3 r k = Cert.Spec.oh Lb n k := by
  unfold ohB Cert.Spec.oh
  by_cases hh : Cert.Spec.lab Lb n k
  · rw [if_pos hh, if_pos (by rw [h]; exact hh)]
  · rw [if_neg hh, if_neg (by rw [h]; exact hh)]

/-- A block's augmented row is the array's, once the block's mass and embedding row are the array's. -/
theorem augB_eq_augK (v4 : Vec Ideal S8192 .f32) (v6 : Vec Ideal S8192x128 .f32) (r : Fin 8192) (n : Fin 262144)
    (j : Fin 384) (h4 : v4 (ix1 r) = Ms (ix1 n)) (h6 : ∀ d : Fin 128, v6 (ix2 r d) = E (ix2 n d)) :
    augB v4 v6 r j = Cert.Spec.augK E Ms n j := by
  unfold augB Cert.Spec.augK Cert.Spec.wK Cert.Spec.sqn
  simp only [h4, h6]

/-- Row r of grid point t's block, in the arrays: the point is core t / 16, block t % 16. -/
theorem rowOf_point (t : ℕ) (ht : t < 32) (r : Fin 8192) :
    (Cert.Spec.rowOf ⟨t / 16, by omega⟩ ⟨t % 16, by omega⟩ r).val = t * 8192 + r.val := by
  show (t / 16 * 16 + t % 16) * 8192 + r.val = t * 8192 + r.val
  have : t / 16 * 16 + t % 16 = t := by omega
  rw [this]

end Bookkeeping

/-! ## The blocks as rows of the arrays -/

/-- The printed index maps, decided once over the grid: the three inputs' block number is the point's number, the
    output's is the point's core. -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val
    ∧ win0_3.index t (0 : Fin 3) = t.val / 16 ∧ win0_3.index t (1 : Fin 3) = 0 ∧ win0_3.index t (2 : Fin 3) = 0 :=
  (by decide +kernel : ∀ t : Fin grid0.N, win0_0.index t (0 : Fin 2) = t.val ∧ win0_0.index t (1 : Fin 2) = 0
    ∧ win0_1.index t (0 : Fin 1) = t.val ∧ win0_2.index t (0 : Fin 1) = t.val
    ∧ win0_3.index t (0 : Fin 3) = t.val / 16 ∧ win0_3.index t (1 : Fin 3) = 0 ∧ win0_3.index t (2 : Fin 3) = 0)

/-- The arrays as the region finds them, and the three input blocks of a point, at their literal types. -/
abbrev Earr (c : Dev nD) : (⟨2, ![262144, 128]⟩ : Shape).Idx → EReal := V m c main_arg0
abbrev Larr (c : Dev nD) : (⟨1, ![262144]⟩ : Shape).Idx → BitVec 32 := V m c main_arg1
abbrev Marr (c : Dev nD) : (⟨1, ![262144]⟩ : Shape).Idx → EReal := V m c main_arg2
abbrev eblk (c : Dev nD) (t : Fin cfg0.N) : Vec Ideal S8192x128 .f32 := iblk m c 0 t
abbrev lblk (c : Dev nD) (t : Fin cfg0.N) : Vec Ideal S8192 .i32 := iblk m c 1 t
abbrev mblk (c : Dev nD) (t : Fin cfg0.N) : Vec Ideal S8192 .f32 := iblk m c 2 t

/-- Row r of the point's label block is the array's row t * 8192 + r. -/
theorem lblk_apply (c : Dev nD) (t : Fin cfg0.N) (r : Fin 8192) (n : Fin 262144) (hn : n.val = t.val * 8192 + r.val) :
    lblk m c t (ix1 r) = Larr m c (ix1 n) := by
  obtain ⟨-, -, e1, -, -, -, -⟩ := idx_facts t
  unfold lblk iblk
  rw [View.read_apply]
  show V m c main_arg1 _ = V m c main_arg1 _
  refine congrArg (V m c main_arg1) (funext fun a => Fin.ext ?_)
  match a with
  | ⟨0, _⟩ => show win0_1.index t (0 : Fin 1) * 8192 + 1 * r.val = n.val; omega

/-- Row r of the point's mass block is the array's row t * 8192 + r. -/
theorem mblk_apply (c : Dev nD) (t : Fin cfg0.N) (r : Fin 8192) (n : Fin 262144) (hn : n.val = t.val * 8192 + r.val) :
    mblk m c t (ix1 r) = Marr m c (ix1 n) := by
  obtain ⟨-, -, -, e2, -, -, -⟩ := idx_facts t
  unfold mblk iblk
  rw [View.read_apply]
  show V m c main_arg2 _ = V m c main_arg2 _
  refine congrArg (V m c main_arg2) (funext fun a => Fin.ext ?_)
  match a with
  | ⟨0, _⟩ => show win0_2.index t (0 : Fin 1) * 8192 + 1 * r.val = n.val; omega

/-- Row r of the point's embedding block is the array's row t * 8192 + r. -/
theorem eblk_apply (c : Dev nD) (t : Fin cfg0.N) (r : Fin 8192) (d : Fin 128) (n : Fin 262144)
    (hn : n.val = t.val * 8192 + r.val) : eblk m c t (ix2 r d) = Earr m c (ix2 n d) := by
  obtain ⟨e0, e0', -, -, -, -, -⟩ := idx_facts t
  unfold eblk iblk
  rw [View.read_apply]
  show V m c main_arg0 _ = V m c main_arg0 _
  refine congrArg (V m c main_arg0) (funext fun a => Fin.ext ?_)
  match a with
  | ⟨0, _⟩ => show win0_0.index t (0 : Fin 2) * 8192 + 1 * r.val = n.val; omega
  | ⟨1, _⟩ => show win0_0.index t (1 : Fin 2) * 128 + 1 * d.val = d.val; omega

/-- A point's product over its block's rows is its block's term of its core's sum. -/
theorem point_term (c : Dev nD) (t : Fin cfg0.N) (k : Fin 256) (j : Fin 384) :
    ∑ r : Fin 8192, ohB (lblk m c t) r k * augB (mblk m c t) (eblk m c t) r j
      = blockTerm (Earr m c) (Larr m c) (Marr m c)
          ⟨t.val / 16, by have := lt_of_lt_of_eq t.isLt (show cfg0.N = 32 from N_0); omega⟩ k j (t.val % 16) := by
  have hN : t.val < 32 := lt_of_lt_of_eq t.isLt (show cfg0.N = 32 from N_0)
  unfold blockTerm
  rw [dif_pos (show t.val % 16 < 16 by omega)]
  refine Finset.sum_congr rfl fun r _ => ?_
  have hrow := rowOf_point t.val hN r
  rw [ohB_eq_oh (Larr m c) (lblk m c t) r _ k (lblk_apply m c t r _ hrow),
    augB_eq_augK (Earr m c) (Marr m c) (mblk m c t) (eblk m c t) r _ j (mblk_apply m c t r _ hrow)
      (fun d => eblk_apply m c t r d _ hrow)]

/-! ## What each case leaves in the accumulator block -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F]

/-- Where the block is not reset the body leaves the accumulating payload of the point's blocks over what the block
    held. -/
theorem out_B (c : Dev nD) (i : grid0.Coords) (a2 : Memref sig .tc .vmem S8192x128 .f32) (h2 : a2.IsWhole)
    (a3 : Memref sig .tc .vmem S8192 .i32) (h3 : a3.IsWhole) (a4 : Memref sig .tc .vmem S8192 .f32) (h4 : a4.IsWhole)
    (a5 : Memref sig .tc .vmem S1x256x384 .f32) (h5 : a5.IsWhole) (hc : ¬cond0_0 i)
    (x0 : Vec F S8192x128 .f32) (x1 : Vec F S8192 .i32) (x2 : Vec F S8192 .f32) (xo3 : Vec F S1x256x384 .f32) :
    out0_B_3 c i a2 h2 a3 h3 a4 h4 a5 h5 hc x0 x1 x2 xo3 = k0_pay2 x1 x2 x0 xo3 := by
  unfold out0_B_3
  rw [View.read_writes_eq_canon _ _ _ (cover0_B_3 c i a2 h2 a3 h3 a4 h4 a5 h5 hc x0 x1 x2 xo3)]
  unfold kernelRun0_B
  dsimp only
  sl_unfold_words
  rw [View.canon_unit_zero (S := S1x256x384) hz3]
  simp only [View.readAt_eq_ld, h2.read_unread, h3.read_unread, h4.read_unread, h5.read_unread,
    View.ld_unit_zero (S := S8192) hz1, View.ld_unit_zero (S := S8192x128) hz2, View.ld_unit_zero (S := S1x256x384) hz3]

/-- Where the block is reset the body leaves the accumulating payload of the point's blocks over the zero block. -/
theorem out_A (c : Dev nD) (i : grid0.Coords) (a2 : Memref sig .tc .vmem S8192x128 .f32) (h2 : a2.IsWhole)
    (a3 : Memref sig .tc .vmem S8192 .i32) (h3 : a3.IsWhole) (a4 : Memref sig .tc .vmem S8192 .f32) (h4 : a4.IsWhole)
    (a5 : Memref sig .tc .vmem S1x256x384 .f32) (h5 : a5.IsWhole) (hc : cond0_0 i)
    (x0 : Vec F S8192x128 .f32) (x1 : Vec F S8192 .i32) (x2 : Vec F S8192 .f32) :
    out0_A_3 c i a2 h2 a3 h3 a4 h4 a5 h5 hc x0 x1 x2 = k0_pay2 x1 x2 x0 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x256x384) hz3, View.readCov_unit_zero (S := S1x256x384) _ hz3]
  simp only [View.readAt_eq_ld, h2.read_unread, h3.read_unread, h4.read_unread, View.ld_unit_zero (S := S8192) hz1,
    View.ld_unit_zero (S := S8192x128) hz2]

end Pieces

/-! ## The accumulator block point by point -/

/-- At a point that resets the block: the point's own term. -/
theorem acc_A (c : Dev nD) (t : Fin cfg0.N) (h0 : t.val % 16 = 0) (k : Fin 256) (j : Fin 384) (cr : Fin 2)
    (hcr : cr.val = t.val / 16) :
    outsAt0 m c t.val t.isLt (ix3 (0 : Fin 1) k j)
      = partialP1 (Earr m c) (Larr m c) (Marr m c) cr k j (t.val % 16 + 1) := by
  have hN : t.val < 32 := lt_of_lt_of_eq t.isLt (show cfg0.N = 32 from N_0)
  have ec : (⟨t.val / 16, by omega⟩ : Fin 2) = cr := Fin.ext hcr.symm
  rw [outsAt0_A m c t h0]
  refine (congrFun (out_A (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t) (iblk m c 2 t)) (ix3 (0 : Fin 1) k j)).trans ?_
  refine (pay2_apply (lblk m c t) (mblk m c t) (eblk m c t) (k0_pay1 (F := Ideal)) k j).trans ?_
  rw [pay1_apply, point_term, ec, h0, Nat.zero_add, partialP1_one]

/-- At a point that does not: what the point before left, plus the point's own term. -/
theorem acc_B (c : Dev nD) (t : Fin cfg0.N) (h0 : ¬t.val % 16 = 0) (k : Fin 256) (j : Fin 384) (cr : Fin 2)
    (hcr : cr.val = t.val / 16)
    (ih : outsAt0 m c (t.val - 1) (Nat.lt_of_le_of_lt (Nat.sub_le _ _) t.isLt) (ix3 (0 : Fin 1) k j)
      = partialP1 (Earr m c) (Larr m c) (Marr m c) cr k j ((t.val - 1) % 16 + 1)) :
    outsAt0 m c t.val t.isLt (ix3 (0 : Fin 1) k j)
      = partialP1 (Earr m c) (Larr m c) (Marr m c) cr k j (t.val % 16 + 1) := by
  have hN : t.val < 32 := lt_of_lt_of_eq t.isLt (show cfg0.N = 32 from N_0)
  have ec : (⟨t.val / 16, by omega⟩ : Fin 2) = cr := Fin.ext hcr.symm
  rw [outsAt0_B m c t h0]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t) (iblk m c 2 t)
    (outsAt0 m c (t.val - 1) (Nat.lt_of_le_of_lt (Nat.sub_le _ _) t.isLt))) (ix3 (0 : Fin 1) k j)).trans ?_
  refine (pay2_apply (lblk m c t) (mblk m c t) (eblk m c t)
    (outsAt0 m c (t.val - 1) (Nat.lt_of_le_of_lt (Nat.sub_le _ _) t.isLt)) k j).trans ?_
  rw [ih, point_term, ec, show (t.val - 1) % 16 + 1 = t.val % 16 by omega,
    partialP1_succ (Earr m c) (Larr m c) (Marr m c) cr k j (t.val % 16)]

/-- After point n the block holds, at (k, j), the blocks of the point's core up to the point's own. -/
theorem acc_apply (c : Dev nD) : ∀ (n : ℕ) (h : n < cfg0.N) (k : Fin 256) (j : Fin 384) (cr : Fin 2) (hcr : cr.val = n / 16),
    outsAt0 m c n h (ix3 (0 : Fin 1) k j) = partialP1 (Earr m c) (Larr m c) (Marr m c) cr k j (n % 16 + 1) := by
  intro n
  induction n with
  | zero => intro h k j cr hcr; exact acc_A m c ⟨0, h⟩ rfl k j cr hcr
  | succ n ih =>
    intro h k j cr hcr
    have hN : n + 1 < 32 := lt_of_lt_of_eq h (show cfg0.N = 32 from N_0)
    by_cases h0 : (n + 1) % 16 = 0
    · exact acc_A m c ⟨n + 1, h⟩ h0 k j cr hcr
    · exact acc_B m c ⟨n + 1, h⟩ h0 k j cr hcr (ih (Nat.lt_of_succ_lt h) k j cr (by rw [hcr]; omega))

/-! ## From the block to the array -/

/-- What the output array ends holding: at (c, k, j), core c's sum over its sixteen blocks. -/
def G (c : Dev nD) : (⟨3, ![2, 256, 384]⟩ : Shape).Idx → EReal :=
  fun i => Cert.Spec.P1 (Earr m c) (Larr m c) (Marr m c) (i 0) (i 1) (i 2)

/-- At a core's last point the block holds the core's slice of that array. -/
theorem last_point (c : Dev nD) (t : Fin cfg0.N) (h15 : t.val % 16 = 15) (y : (⟨3, ![1, 256, 384]⟩ : Shape).Idx)
    (i : (⟨3, ![2, 256, 384]⟩ : Shape).Idx) (hi0 : (i 0).val = t.val / 16) (hi1 : (i 1).val = (y 1).val)
    (hi2 : (i 2).val = (y 2).val) : outsAt0 m c t.val t.isLt y = G m c i := by
  obtain ⟨u, k, j, rfl⟩ : ∃ (u : Fin 1) (k : Fin 256) (j : Fin 384), y = ix3 u k j := ⟨y 0, y 1, y 2, eq_ix3 y⟩
  obtain ⟨a, b, d, rfl⟩ : ∃ (a : Fin 2) (b : Fin 256) (d : Fin 384), i = ix3 a b d := ⟨i 0, i 1, i 2, eq_ix3 i⟩
  obtain rfl : u = 0 := Subsingleton.elim _ _
  obtain rfl : b = k := Fin.ext hi1
  obtain rfl : d = j := Fin.ext hi2
  rw [acc_apply m c t.val t.isLt b d a hi0, h15]
  exact partialP1_full (Earr m c) (Larr m c) (Marr m c) a b d

/-- What a core's last point writes back is its block of that array. -/
theorem flushed_eq (c : Dev nD) (t : Fin cfg0.N) (hf : (cfg0.win 3).flush t = true) :
    (dats m 0 c).flushed 3 t = ((cfg0.win 3).blk t).view.read (Elt Ideal) (G m c) := by
  have hN : t.val < 32 := lt_of_lt_of_eq t.isLt (show cfg0.N = 32 from N_0)
  have h15 : t.val % 16 = 15 := (flush0_3 t).mp hf
  obtain ⟨-, -, -, -, e0, e1, e2⟩ := idx_facts t
  show (cfg0.win 3).cut (grid0.coords t) ((dats m 0 c).after 3 t) = _
  rw [after0_3]
  funext y
  show outsAt0 m c t.val t.isLt y = G m c (((cfg0.win 3).blk t).view.emb y)
  have hy0 : (y 0).val < 1 := (y 0).isLt
  refine last_point m c t h15 y _ ?_ ?_ ?_
  · show win0_3.index t (0 : Fin 3) * 1 + 1 * (y 0).val = t.val / 16; omega
  · show win0_3.index t (1 : Fin 3) * 256 + 1 * (y 1).val = (y 1).val; omega
  · show win0_3.index t (2 : Fin 3) * 384 + 1 * (y 2).val = (y 2).val; omega

/-- An index of the array is in a point's block iff each coordinate is in the block's range on its axis. -/
theorem mem_blk3 (t : Fin cfg0.N) (i : S2x256x384.Idx) :
    i ∈ ((cfg0.win 3).blk t).view.set ↔ ∀ a : Fin 3, win0_3.index t a * S1x256x384.size a ≤ (i a).val
      ∧ (i a).val < win0_3.index t a * S1x256x384.size a + S1x256x384.size a := by
  show i ∈ ((View.whole main_v0).slice (win0_3.rect t)).set ↔ _
  rw [View.set_slice_whole, Rect.mem_set_unit]
  exact Iff.rfl

/-- The two cores' last points cover the array. -/
theorem cover3 (i : S2x256x384.Idx) : ∃ t : Fin cfg0.N, (cfg0.win 3).flush t = true ∧ i ∈ ((cfg0.win 3).blk t).view.set := by
  have hi0 : (i 0).val < 2 := (i 0).isLt
  have hi1 : (i 1).val < 256 := (i 1).isLt
  have hi2 : (i 2).val < 384 := (i 2).isLt
  have hN : cfg0.N = 32 := N_0
  obtain ⟨t, ht⟩ : ∃ t : Fin cfg0.N, t.val = (i 0).val * 16 + 15 := ⟨⟨(i 0).val * 16 + 15, by omega⟩, rfl⟩
  obtain ⟨-, -, -, -, e0, e1, e2⟩ := idx_facts t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 384 ≤ (i 2).val ∧ (i 2).val < win0_3.index t (2 : Fin 3) * 384 + 384
    omega

/-- The output array after the run. -/
theorem p1_array (c : Dev nD) : (dats m 0 c).arrAt 3 cfg0.N = G m c :=
  (dats m 0 c).arrAt_eq_of_cover 3 (G m c) (fun t hf => flushed_eq m c t hf) cover3

/-- The output array after the run, at an index: core c's sum at (k, j). -/
theorem p1_apply (c' : Dev nD) (c : Fin 2) (k : Fin 256) (j : Fin 384) :
    (dats m 0 c').arrAt 3 cfg0.N (ix3 c k j)
      = Cert.Spec.P1 (V m c' main_arg0) (V m c' main_arg1) (V m c' main_arg2) c k j := by
  rw [p1_array]
  rfl

end Cert.KernelIdeal.Hand

end
-- ==== Proof.KTailAMath.lean ====
/-
  The arithmetic behind the kernel's first stretch of host operations, apart from the program.

  The two cores' partial sums, added, are sums over all 262144 points: the rows of the sixteen blocks of the two
  cores are the points, each once. A one-hot column against coerced reals sums to the coerced segment sum, so each of
  the six meaningful columns of the summed array is a segment sum of real data: the weighted rows, the rows, the
  weights, the counts, the squared norms, and a zero remainder. A cluster whose weights do not sum to zero has a
  point, so its count is not zero; and a quotient of coerced reals by a nonzero coerced real is the coerced quotient.
-/
import proofs.«414854_j77403900608667_3_alg».proof.Proof.Spec
import Idealize.ShloMosaic.PureOps.Ideal.Laws
import Idealize.ShloMosaic.Lib.IdealHost
import Mathlib.Logic.Equiv.Fin.Basic
import Mathlib.Algebra.BigOperators.Group.Finset.Basic

noncomputable section

namespace Cert.KernelIdeal.Hand.TailA

open Cert.Spec Idealize.ShloMosaic Idealize.ShloMosaic.ValueIdx
open scoped BigOperators

/-! ## Finite sums of coerced reals -/

/-- The coercion of the reals into the extended reals goes through a finite sum. -/
theorem coe_sum {ι : Type} (s : Finset ι) (g : ι → ℝ) :
    ((∑ i ∈ s, g i : ℝ) : EReal) = ∑ i ∈ s, ((g i : ℝ) : EReal) := by
  classical
  refine Finset.induction_on s ?_ ?_
  · simp
  · intro a s ha ih
    rw [Finset.sum_insert ha, Finset.sum_insert ha, EReal.coe_add, ih]

/-- A quotient by a nonzero real stays a real. -/
theorem div_real (a : ℝ) {m : ℝ} (hm : m ≠ 0) : Ideal.div (a : EReal) (m : EReal) = ((a / m : ℝ) : EReal) := by
  rw [Ideal.div_coe hm, ← EReal.coe_mul, mul_one_div]

/-- The pattern 0x40000000 is two. -/
theorem ofBits_two_f32 : Ideal.ofBits .f32 0x40000000#32 = ((2 : ℝ) : EReal) := by
  simp [Ideal.ofBits, Ideal.ieee, -EReal.coe_mul]; norm_num

/-- The pattern 0x43800000 is 256. -/
theorem ofBits_256_f32 : Ideal.ofBits .f32 0x43800000#32 = ((256 : ℝ) : EReal) := by
  simp [Ideal.ofBits, Ideal.ieee, -EReal.coe_mul]; norm_num

/-! ## The rows of the blocks are the points -/

/-- Core, block and row to point: (c, s, r) to (16 c + s) 8192 + r, a bijection. -/
def rowEquiv : (Fin 2 × Fin 16) × Fin 8192 ≃ Fin 262144 :=
  (Equiv.prodCongr (finProdFinEquiv (m := 2) (n := 16)) (Equiv.refl (Fin 8192))).trans (finProdFinEquiv (m := 32) (n := 8192))

theorem rowEquiv_apply (c : Fin 2) (s : Fin 16) (r : Fin 8192) : rowEquiv ((c, s), r) = rowOf c s r := by
  apply Fin.ext
  show r.val + 8192 * (s.val + 16 * c.val) = (c.val * 16 + s.val) * 8192 + r.val
  omega

/-- A sum over the cores, their blocks and the blocks' rows is the sum over the points. -/
theorem sum_rows {M : Type} [AddCommMonoid M] (f : Fin 262144 → M) :
    ∑ c : Fin 2, ∑ s : Fin 16, ∑ r : Fin 8192, f (rowOf c s r) = ∑ n : Fin 262144, f n := by
  rw [← Equiv.sum_comp rowEquiv f, Fintype.sum_prod_type, Fintype.sum_prod_type]
  simp only [rowEquiv_apply]

section Columns

variable (E : (⟨2, ![262144, 128]⟩ : Shape).Idx → EReal) (Lb : (⟨1, ![262144]⟩ : Shape).Idx → BitVec 32)
  (Ms : (⟨1, ![262144]⟩ : Shape).Idx → EReal)

/-- The two cores' partial sums added are the sums over all the points. -/
theorem P1_sum (k : Fin 256) (j : Fin 384) :
    ∑ c : Fin 2, P1 E Lb Ms c k j = ∑ n : Fin 262144, oh Lb n k * augK E Ms n j := by
  unfold P1
  exact sum_rows (fun n => oh Lb n k * augK E Ms n j)

/-- A one-hot column against coerced reals sums to the coerced segment sum. -/
theorem oh_sum (x : Fin 262144 → ℝ) (X : Fin 262144 → EReal) (hX : ∀ n, X n = ((x n : ℝ) : EReal)) (k : Fin 256) :
    ∑ n : Fin 262144, oh Lb n k * X n = ((segR (lab Lb) x k : ℝ) : EReal) := by
  unfold segR
  rw [coe_sum]
  refine Finset.sum_congr rfl fun n _ => ?_
  unfold oh
  rw [hX n]
  split_ifs
  · rw [one_mul]
  · rw [zero_mul, EReal.coe_zero]

/-! ### The augmented row's columns -/

theorem augK_w (n : Fin 262144) (d : Fin 128) (h : d.val < 384) :
    augK E Ms n ⟨d.val, h⟩ = E (ix2 n d) * wK Ms n := by
  unfold augK
  rw [dif_pos (show (⟨d.val, h⟩ : Fin 384).val < 128 from d.isLt)]

theorem augK_raw (n : Fin 262144) (d : Fin 128) (h : 128 + d.val < 384) :
    augK E Ms n ⟨128 + d.val, h⟩ = E (ix2 n d) := by
  have hd : ∀ p : 128 + d.val - 128 < 128, (⟨128 + d.val - 128, p⟩ : Fin 128) = d :=
    fun p => Fin.ext (Nat.add_sub_cancel_left ..)
  unfold augK
  rw [dif_neg (show ¬ (⟨128 + d.val, h⟩ : Fin 384).val < 128 from by show ¬ 128 + d.val < 128; omega),
    dif_pos (show (⟨128 + d.val, h⟩ : Fin 384).val < 256 from by show 128 + d.val < 256; omega)]
  show E (ix2 n ⟨128 + d.val - 128, _⟩) = _
  rw [hd]

theorem augK_256 (n : Fin 262144) : augK E Ms n ⟨256, by omega⟩ = wK Ms n := by simp [augK]
theorem augK_257 (n : Fin 262144) : augK E Ms n ⟨257, by omega⟩ = 1 := by simp [augK]
theorem augK_258 (n : Fin 262144) : augK E Ms n ⟨258, by omega⟩ = sqn E n := by simp [augK]
theorem augK_259 (n : Fin 262144) : augK E Ms n ⟨259, by omega⟩ = sqn E n - sqn E n := by simp [augK]

/-! ### Each column a segment sum of real data -/

variable (e : Fin 262144 → Fin 128 → ℝ) (w : Fin 262144 → ℝ)
  (hE : ∀ n d, E (ix2 n d) = ((e n d : ℝ) : EReal)) (hW : ∀ n, wK Ms n = ((w n : ℝ) : EReal))

include hE in
/-- A real row's squared norm is real. -/
theorem sqn_real (n : Fin 262144) : sqn E n = ((∑ d : Fin 128, e n d * e n d : ℝ) : EReal) := by
  unfold sqn
  rw [coe_sum]
  exact Finset.sum_congr rfl fun d _ => by rw [hE, EReal.coe_mul]

include hE hW in
/-- Columns 0 ... 127: the segment sums of the weighted rows. -/
theorem col_w (k : Fin 256) (d : Fin 128) (h : d.val < 384) :
    ∑ n : Fin 262144, oh Lb n k * augK E Ms n ⟨d.val, h⟩ = ((segR (lab Lb) (fun n => e n d * w n) k : ℝ) : EReal) :=
  oh_sum Lb (fun n => e n d * w n) _ (fun n => by rw [augK_w, hE, hW, EReal.coe_mul]) k

include hE in
/-- Columns 128 ... 255: the segment sums of the rows. -/
theorem col_raw (k : Fin 256) (d : Fin 128) (h : 128 + d.val < 384) :
    ∑ n : Fin 262144, oh Lb n k * augK E Ms n ⟨128 + d.val, h⟩ = ((segR (lab Lb) (fun n => e n d) k : ℝ) : EReal) :=
  oh_sum Lb (fun n => e n d) _ (fun n => by rw [augK_raw, hE]) k

include hW in
/-- Column 256: the segment sums of the weights. -/
theorem col_m (k : Fin 256) :
    ∑ n : Fin 262144, oh Lb n k * augK E Ms n ⟨256, by omega⟩ = ((segR (lab Lb) w k : ℝ) : EReal) :=
  oh_sum Lb w _ (fun n => by rw [augK_256, hW]) k

/-- Column 257: the counts. -/
theorem col_cnt (k : Fin 256) :
    ∑ n : Fin 262144, oh Lb n k * augK E Ms n ⟨257, by omega⟩ = ((cnt (lab Lb) k : ℝ) : EReal) :=
  oh_sum Lb (fun _ => 1) _ (fun n => by rw [augK_257, EReal.coe_one]) k

include hE in
/-- Column 258: the segment sums of the squared norms. -/
theorem col_hi (k : Fin 256) :
    ∑ n : Fin 262144, oh Lb n k * augK E Ms n ⟨258, by omega⟩
      = ((segR (lab Lb) (fun n => ∑ d : Fin 128, e n d * e n d) k : ℝ) : EReal) :=
  oh_sum Lb (fun n => ∑ d : Fin 128, e n d * e n d) _ (fun n => by rw [augK_258, sqn_real E e hE]) k

include hE in
/-- Column 259: a real squared norm less itself is zero, and so is every sum of such. -/
theorem col_lo (k : Fin 256) :
    ∑ n : Fin 262144, oh Lb n k * augK E Ms n ⟨259, by omega⟩ = ((0 : ℝ) : EReal) := by
  rw [oh_sum Lb (fun _ => 0) _ (fun n => by rw [augK_259, sqn_real E e hE, ← EReal.coe_sub, sub_self]) k]
  unfold segR
  simp

/-- A cluster whose weights do not sum to zero has a point: its count is not zero. -/
theorem cnt_ne_zero (k : Fin 256) (hms : segR (lab Lb) w k ≠ 0) : cnt (lab Lb) k ≠ 0 := by
  intro hc
  apply hms
  unfold cnt segR at hc
  unfold segR
  have h0 := (Finset.sum_eq_zero_iff_of_nonneg (fun n _ => by split_ifs <;> norm_num)).1 hc
  refine Finset.sum_eq_zero fun n hn => ?_
  have hn0 := h0 n hn
  by_cases hl : lab Lb n k
  · rw [if_pos hl] at hn0; exact absurd hn0 one_ne_zero
  · rw [if_neg hl]

end Columns

end Cert.KernelIdeal.Hand.TailA

end
-- ==== Proof.KTailA.lean ====
/-
  The kernel's first stretch of host operations, read as values.

  From the two cores' partial sums p1 (2 x 256 x 384) the stretch adds the cores, cuts the sum into its column
  groups -- the weighted row sums, the raw row sums, the weight sums, the counts, the squared-norm sums and their
  zero remainder --, divides the weighted sums by the weight sums (the centroids) and evaluates the expanded form of
  the mean intra-cluster squared distance. First the three results as pure terms of p1 and the stretch's run read
  back at them; then, when p1 holds the per-core segment sums of real data and no cluster's weight sum is zero, the
  terms' values: the centroids and the expanded intra-cluster loss of the shared vocabulary, as coerced reals.
-/
import proofs.«414854_j77403900608667_3_alg».proof.Proof.Gen.KernelIdeal.Launch
import proofs.«414854_j77403900608667_3_alg».proof.Proof.Spec
import proofs.«414854_j77403900608667_3_alg».proof.Proof.KTailAMath
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open scoped BigOperators

/-! ## The results as pure terms of the partial sums -/

/-- The two cores' partial sums added: a 256 x 384 array. -/
def K_sum (p1 : FVec Ideal S2x256x384 .f32) : FVec Ideal S256x384 .f32 :=
  Host.reduceAdd (F := Ideal) p1 (constant (F := Ideal) S_ .f32 0x00000000#32) reducesTo_S2x256x384_S256x384_d0 h_S_

/-- Column j of the sum, for j one of 256 ... 259, as a vector over the clusters. -/
def K_wsum (p1 : FVec Ideal S2x256x384 .f32) : FVec Ideal S256x128 .f32 :=
  extractStridedSlice S256x128 ![0, 0] (K_sum p1) slices_S256x384_S256x128_0_0
def K_rawsum (p1 : FVec Ideal S2x256x384 .f32) : FVec Ideal S256x128 .f32 :=
  extractStridedSlice S256x128 ![0, 128] (K_sum p1) slices_S256x384_S256x128_0_128
def K_msum (p1 : FVec Ideal S2x256x384 .f32) : FVec Ideal S256 .f32 :=
  shapeCast S256 (extractStridedSlice S256x1 ![0, 256] (K_sum p1) slices_S256x384_S256x1_0_256) shapeCasts_S256x1_S256
def K_counts (p1 : FVec Ideal S2x256x384 .f32) : FVec Ideal S256 .f32 :=
  shapeCast S256 (extractStridedSlice S256x1 ![0, 257] (K_sum p1) slices_S256x384_S256x1_0_257) shapeCasts_S256x1_S256
def K_hi (p1 : FVec Ideal S2x256x384 .f32) : FVec Ideal S256 .f32 :=
  shapeCast S256 (extractStridedSlice S256x1 ![0, 258] (K_sum p1) slices_S256x384_S256x1_0_258) shapeCasts_S256x1_S256
def K_lo (p1 : FVec Ideal S2x256x384 .f32) : FVec Ideal S256 .f32 :=
  shapeCast S256 (extractStridedSlice S256x1 ![0, 259] (K_sum p1) slices_S256x384_S256x1_0_259) shapeCasts_S256x1_S256

/-- The centroids: the weighted row sums over the weight sums. -/
def K_cent (p1 : FVec Ideal S2x256x384 .f32) : FVec Ideal S256x128 .f32 :=
  Host.divf (F := Ideal) (K_wsum p1)
    (broadcastInDim S256x128 ![0, 1] bcast_S256x1_S256x128_0_1 (broadcastInDim S256x1 ![0] bcast_S256_S256x1_0 (K_msum p1)))

/-- The raw row sums against the centroids, summed over the coordinates. -/
def K_rowdot (p1 : FVec Ideal S2x256x384 .f32) : FVec Ideal S256 .f32 :=
  Host.reduceAdd (F := Ideal) (mulf (K_rawsum p1) (K_cent p1)) (constant (F := Ideal) S_ .f32 0x00000000#32) reducesTo_S256x128_S256_d1 h_S_

/-- The centroids' squared norms. -/
def K_csq (p1 : FVec Ideal S2x256x384 .f32) : FVec Ideal S256 .f32 :=
  Host.reduceAdd (F := Ideal) (mulf (K_cent p1) (K_cent p1)) (constant (F := Ideal) S_ .f32 0x00000000#32) reducesTo_S256x128_S256_d1 h_S_

/-- Per cluster: ((squared-norm sum) - 2 (row sums . centroid) + count |centroid|^2) / count. -/
def K_perCluster (p1 : FVec Ideal S2x256x384 .f32) : FVec Ideal S256 .f32 :=
  Host.divf (F := Ideal)
    (addf (subf (addf (K_hi p1) (K_lo p1))
            (mulf (broadcastInDim S256 ![] bcast_S_S256 (constant (F := Ideal) S_ .f32 0x40000000#32)) (K_rowdot p1)))
          (mulf (K_counts p1) (K_csq p1)))
    (K_counts p1)

/-- The intra-cluster loss: the mean over the 256 clusters. -/
def K_intra (p1 : FVec Ideal S2x256x384 .f32) : FVec Ideal S_ .f32 :=
  Host.divf (F := Ideal)
    (Host.reduceAdd (F := Ideal) (K_perCluster p1) (constant (F := Ideal) S_ .f32 0x00000000#32) reducesTo_S256_S_d0 h_S_)
    (constant (F := Ideal) S_ .f32 0x43800000#32)

/-- A 256 x 256 array of ones. -/
def K_ones : FVec Ideal S256x256 .f32 :=
  broadcastInDim S256x256 ![] bcast_S_S256x256 (constant (F := Ideal) S_ .f32 0x3F800000#32)

/-! ## The stretch's run, read back -/

variable (W : Valuation τ sig (Elt Ideal))

set_option maxRecDepth 8192 in
set_option maxHeartbeats 4000000 in
/-- After the stretch the centroids' buffer holds the centroids' term of the partial sums' buffer. -/
theorem tailA_v15 : StableHlo.after (hostOps1 (F := Ideal)) W (Proc.devRef .tc main_v15) = K_cent (W (Proc.devRef .tc main_v0)) := by
  after_results_simp <;> rfl

set_option maxRecDepth 8192 in
set_option maxHeartbeats 4000000 in
/-- ... the loss's buffer the loss's term, -/
theorem tailA_v27 : StableHlo.after (hostOps1 (F := Ideal)) W (Proc.devRef .tc main_v27) = K_intra (W (Proc.devRef .tc main_v0)) := by
  after_results_simp <;> rfl

set_option maxRecDepth 8192 in
set_option maxHeartbeats 4000000 in
/-- ... the ones' buffer the ones, -/
theorem tailA_v28 : StableHlo.after (hostOps1 (F := Ideal)) W (Proc.devRef .tc main_v28) = K_ones := by
  after_results_simp <;> rfl

set_option maxRecDepth 8192 in
set_option maxHeartbeats 4000000 in
/-- ... and the fourth argument is untouched. -/
theorem tailA_arg3 : StableHlo.after (hostOps1 (F := Ideal)) W (Proc.devRef .tc main_arg3) = W (Proc.devRef .tc main_arg3) := by
  after_results_simp <;> rfl

/-! ## The terms read at an index -/

namespace TailA

open Idealize.ShloMosaic.ValueIdx Cert.Spec

theorem red_cores : S2x256x384.Reduces [0] S256x384 := by decide
theorem red_cols : S256x128.Reduces [1] S256 := by decide

/-- The cores' sum at (k, j) is the sum over the two cores. -/
theorem K_sum_apply (p1 : FVec Ideal S2x256x384 .f32) (k : Fin 256) (j : Fin 384) :
    K_sum p1 (ix2 k j) = ∑ c : Fin 2, p1 (ix3 c k j) := by
  unfold K_sum
  rw [hostReduceAdd_apply, Ideal.hostReduceAdd_single _ red_cores, constant_apply, Ideal.ofBits_zero_f32, zero_add]
  refine Finset.sum_congr rfl fun c _ => congrArg p1 (funext fun a => ?_)
  match a with
  | ⟨0, _⟩ => rfl
  | ⟨1, _⟩ => rfl
  | ⟨2, _⟩ => rfl

/-- A one-column slice of a 256 x 384 array, viewed as a vector, reads that column. -/
theorem colCast_apply (X : FVec Ideal S256x384 .f32) (o : Nat) (ho : o < 384) (hs : S256x384.Slices ![0, o] S256x1) (k : Fin 256) :
    shapeCast S256 (extractStridedSlice S256x1 ![0, o] X hs) shapeCasts_S256x1_S256 (ix1 k) = X (ix2 k ⟨o, ho⟩) := by
  refine (shapeCast_apply _ shapeCasts_S256x1_S256 (ix1 k) (ix2 k (0 : Fin 1)) ?_).trans ?_
  · rw [Shape.rowMajor_val_two, Shape.rowMajor_val_one]
    show k.val * 1 + 0 = k.val
    omega
  · exact extractStridedSlice_apply ![0, o] X hs (ix2 k (0 : Fin 1)) (ix2 k ⟨o, ho⟩) (fun a => match a with
      | ⟨0, _⟩ => by show k.val = 0 + k.val; omega
      | ⟨1, _⟩ => by show o = o + 0; omega)

/-- The slice of the first 128 columns of a 256 x 384 array reads column d. -/
theorem wslice_apply (X : FVec Ideal S256x384 .f32) (k : Fin 256) (d : Fin 128) (h : d.val < 384) :
    extractStridedSlice S256x128 ![0, 0] X slices_S256x384_S256x128_0_0 (ix2 k d) = X (ix2 k ⟨d.val, h⟩) :=
  extractStridedSlice_apply ![0, 0] X slices_S256x384_S256x128_0_0 (ix2 k d) (ix2 k ⟨d.val, h⟩) (fun a => match a with
    | ⟨0, _⟩ => by show k.val = 0 + k.val; omega
    | ⟨1, _⟩ => by show d.val = 0 + d.val; omega)

/-- The slice of the next 128 columns reads column 128 + d. -/
theorem rslice_apply (X : FVec Ideal S256x384 .f32) (k : Fin 256) (d : Fin 128) (h : 128 + d.val < 384) :
    extractStridedSlice S256x128 ![0, 128] X slices_S256x384_S256x128_0_128 (ix2 k d) = X (ix2 k ⟨128 + d.val, h⟩) :=
  extractStridedSlice_apply ![0, 128] X slices_S256x384_S256x128_0_128 (ix2 k d) (ix2 k ⟨128 + d.val, h⟩) (fun a => match a with
    | ⟨0, _⟩ => by show k.val = 0 + k.val; omega
    | ⟨1, _⟩ => by show 128 + d.val = 128 + d.val; omega)

theorem K_wsum_apply (p1 : FVec Ideal S2x256x384 .f32) (k : Fin 256) (d : Fin 128) (h : d.val < 384) :
    K_wsum p1 (ix2 k d) = K_sum p1 (ix2 k ⟨d.val, h⟩) := wslice_apply (K_sum p1) k d h

theorem K_rawsum_apply (p1 : FVec Ideal S2x256x384 .f32) (k : Fin 256) (d : Fin 128) (h : 128 + d.val < 384) :
    K_rawsum p1 (ix2 k d) = K_sum p1 (ix2 k ⟨128 + d.val, h⟩) := rslice_apply (K_sum p1) k d h

/-- A vector over the clusters broadcast along the coordinates reads the cluster's entry. -/
theorem bcast_apply (v : FVec Ideal S256 .f32) (k : Fin 256) (d : Fin 128) :
    broadcastInDim S256x128 ![0, 1] bcast_S256x1_S256x128_0_1 (broadcastInDim S256x1 ![0] bcast_S256_S256x1_0 v) (ix2 k d) = v (ix1 k) := by
  refine (broadcastInDim_apply ![0, 1] bcast_S256x1_S256x128_0_1 _ (ix2 k d) (ix2 k (0 : Fin 1)) (fun a => match a with
    | ⟨0, _⟩ => by show k.val = if (256 : Nat) = 1 then 0 else k.val; rw [if_neg (by decide)]
    | ⟨1, _⟩ => by show (0 : Nat) = if (1 : Nat) = 1 then 0 else d.val; rw [if_pos rfl])).trans ?_
  exact broadcastInDim_apply ![0] bcast_S256_S256x1_0 v (ix2 k (0 : Fin 1)) (ix1 k) (fun a => match a with
    | ⟨0, _⟩ => by show k.val = if (256 : Nat) = 1 then 0 else k.val; rw [if_neg (by decide)])

/-! ## The values, when the partial sums are the per-core segment sums of real data -/

section Values

variable (E : (⟨2, ![262144, 128]⟩ : Shape).Idx → EReal) (Lb : (⟨1, ![262144]⟩ : Shape).Idx → BitVec 32)
  (Ms : (⟨1, ![262144]⟩ : Shape).Idx → EReal) (e : Fin 262144 → Fin 128 → ℝ) (w : Fin 262144 → ℝ)
  (hE : ∀ n d, E (ix2 n d) = ((e n d : ℝ) : EReal)) (hW : ∀ n, wK Ms n = ((w n : ℝ) : EReal))
  (hms : ∀ k, segR (lab Lb) w k ≠ 0)
  (p1 : FVec Ideal S2x256x384 .f32) (hp1 : ∀ c k j, p1 (ix3 c k j) = P1 E Lb Ms c k j)

include hp1 in
/-- The cores' sum at (k, j): the one-hot column k against the augmented column j, over all the points. -/
theorem K_sum_val (k : Fin 256) (j : Fin 384) :
    K_sum p1 (ix2 k j) = ∑ n : Fin 262144, oh Lb n k * augK E Ms n j := by
  rw [K_sum_apply]
  simp only [hp1]
  exact P1_sum E Lb Ms k j

include hE hW hp1 in
theorem K_wsum_val (k : Fin 256) (d : Fin 128) :
    K_wsum p1 (ix2 k d) = ((segR (lab Lb) (fun n => e n d * w n) k : ℝ) : EReal) := by
  rw [K_wsum_apply p1 k d (by have := d.isLt; omega), K_sum_val E Lb Ms p1 hp1, col_w E Lb Ms e w hE hW]

include hE hp1 in
theorem K_rawsum_val (k : Fin 256) (d : Fin 128) :
    K_rawsum p1 (ix2 k d) = ((segR (lab Lb) (fun n => e n d) k : ℝ) : EReal) := by
  rw [K_rawsum_apply p1 k d (by have := d.isLt; omega), K_sum_val E Lb Ms p1 hp1, col_raw E Lb Ms e hE]

include hW hp1 in
theorem K_msum_val (k : Fin 256) : K_msum p1 (ix1 k) = ((segR (lab Lb) w k : ℝ) : EReal) := by
  unfold K_msum
  rw [colCast_apply _ 256 (by omega), K_sum_val E Lb Ms p1 hp1, col_m E Lb Ms w hW]

include hp1 in
theorem K_counts_val (k : Fin 256) : K_counts p1 (ix1 k) = ((cnt (lab Lb) k : ℝ) : EReal) := by
  unfold K_counts
  rw [colCast_apply _ 257 (by omega), K_sum_val E Lb Ms p1 hp1, col_cnt E Lb Ms]

include hE hp1 in
theorem K_hi_val (k : Fin 256) :
    K_hi p1 (ix1 k) = ((segR (lab Lb) (fun n => ∑ d : Fin 128, e n d * e n d) k : ℝ) : EReal) := by
  unfold K_hi
  rw [colCast_apply _ 258 (by omega), K_sum_val E Lb Ms p1 hp1, col_hi E Lb Ms e hE]

include hE hp1 in
theorem K_lo_val (k : Fin 256) : K_lo p1 (ix1 k) = ((0 : ℝ) : EReal) := by
  unfold K_lo
  rw [colCast_apply _ 259 (by omega), K_sum_val E Lb Ms p1 hp1, col_lo E Lb Ms e hE]

end Values

end TailA

section Values

open Idealize.ShloMosaic.ValueIdx Cert.Spec TailA

variable (E : (⟨2, ![262144, 128]⟩ : Shape).Idx → EReal) (Lb : (⟨1, ![262144]⟩ : Shape).Idx → BitVec 32)
  (Ms : (⟨1, ![262144]⟩ : Shape).Idx → EReal) (e : Fin 262144 → Fin 128 → ℝ) (w : Fin 262144 → ℝ)
  (hE : ∀ n d, E (ValueIdx.ix2 n d) = ((e n d : ℝ) : EReal)) (hW : ∀ n, Cert.Spec.wK Ms n = ((w n : ℝ) : EReal))
  (hms : ∀ k, Cert.Spec.segR (Cert.Spec.lab Lb) w k ≠ 0)
  (p1 : FVec Ideal S2x256x384 .f32) (hp1 : ∀ c k j, p1 (ValueIdx.ix3 c k j) = Cert.Spec.P1 E Lb Ms c k j)

include hE hW hms hp1 in
/-- The centroids' term holds the weighted centroids. -/
theorem K_cent_real (k : Fin 256) (d : Fin 128) :
    K_cent p1 (ValueIdx.ix2 k d) = ((Cert.Spec.cent (Cert.Spec.lab Lb) e w k d : ℝ) : EReal) := by
  unfold K_cent
  rw [hostDivf_apply, bcast_apply, K_wsum_val E Lb Ms e w hE hW p1 hp1, K_msum_val E Lb Ms w hW p1 hp1, div_real _ (hms k)]
  rfl

include hE hW hms hp1 in
/-- The row sums against the centroid, over the coordinates. -/
theorem K_rowdot_val (k : Fin 256) :
    K_rowdot p1 (ValueIdx.ix1 k)
      = ((∑ d : Fin 128, segR (lab Lb) (fun n => e n d) k * cent (lab Lb) e w k d : ℝ) : EReal) := by
  unfold K_rowdot
  rw [hostReduceAdd_apply, Ideal.hostReduceAdd_single _ red_cols, constant_apply, Ideal.ofBits_zero_f32, zero_add, coe_sum]
  show (∑ d : Fin 128, mulf (K_rawsum p1) (K_cent p1) (red_cols.lift (ix1 k) d)) = _
  refine Finset.sum_congr rfl fun d _ => ?_
  have hi : red_cols.lift (ix1 k) d = ix2 k d := funext fun a => match a with
    | ⟨0, _⟩ => rfl
    | ⟨1, _⟩ => rfl
  rw [hi, mulf_apply, K_rawsum_val E Lb Ms e hE p1 hp1, K_cent_real E Lb Ms e w hE hW hms p1 hp1, EReal.coe_mul]

include hE hW hms hp1 in
/-- The centroid's squared norm. -/
theorem K_csq_val (k : Fin 256) :
    K_csq p1 (ValueIdx.ix1 k) = ((∑ d : Fin 128, cent (lab Lb) e w k d * cent (lab Lb) e w k d : ℝ) : EReal) := by
  unfold K_csq
  rw [hostReduceAdd_apply, Ideal.hostReduceAdd_single _ red_cols, constant_apply, Ideal.ofBits_zero_f32, zero_add, coe_sum]
  show (∑ d : Fin 128, mulf (K_cent p1) (K_cent p1) (red_cols.lift (ix1 k) d)) = _
  refine Finset.sum_congr rfl fun d _ => ?_
  have hi : red_cols.lift (ix1 k) d = ix2 k d := funext fun a => match a with
    | ⟨0, _⟩ => rfl
    | ⟨1, _⟩ => rfl
  rw [hi, mulf_apply, K_cent_real E Lb Ms e w hE hW hms p1 hp1, EReal.coe_mul]

include hE hW hms hp1 in
/-- One cluster's term of the expanded loss. -/
theorem K_perCluster_val (k : Fin 256) :
    K_perCluster p1 (ValueIdx.ix1 k)
      = (((segR (lab Lb) (fun n => ∑ d : Fin 128, e n d * e n d) k
            - 2 * (∑ d : Fin 128, segR (lab Lb) (fun n => e n d) k * cent (lab Lb) e w k d)
            + cnt (lab Lb) k * (∑ d : Fin 128, cent (lab Lb) e w k d * cent (lab Lb) e w k d)) / cnt (lab Lb) k : ℝ) : EReal) := by
  unfold K_perCluster
  rw [hostDivf_apply, addf_apply, subf_apply, addf_apply, mulf_apply, mulf_apply, broadcastInDim_scalar_apply, constant_apply,
    ofBits_two_f32, K_hi_val E Lb Ms e hE p1 hp1, K_lo_val E Lb Ms e hE p1 hp1, K_rowdot_val E Lb Ms e w hE hW hms p1 hp1,
    K_counts_val E Lb Ms p1 hp1, K_csq_val E Lb Ms e w hE hW hms p1 hp1,
    ← EReal.coe_add, ← EReal.coe_mul, ← EReal.coe_sub, ← EReal.coe_mul, ← EReal.coe_add,
    div_real _ (cnt_ne_zero Lb w k (hms k)), add_zero]

include hE hW hms hp1 in
/-- The loss's term holds the expanded mean intra-cluster squared distance. -/
theorem K_intra_real :
    K_intra p1 ValueIdx.ix0 = ((Cert.Spec.intraExpanded (Cert.Spec.lab Lb) e w : ℝ) : EReal) := by
  unfold K_intra
  rw [hostDivf_apply, constant_apply, ofBits_256_f32, hostReduceAdd_apply, Ideal.hostReduceAdd_total reducesTo_S256_S_d0 (fun b => b.elim0),
    constant_apply, Ideal.ofBits_zero_f32, zero_add]
  have hs : (∑ i : S256.Idx, K_perCluster p1 i)
      = ((∑ k : Fin 256, (segR (lab Lb) (fun n => ∑ d : Fin 128, e n d * e n d) k
            - 2 * (∑ d : Fin 128, segR (lab Lb) (fun n => e n d) k * cent (lab Lb) e w k d)
            + cnt (lab Lb) k * (∑ d : Fin 128, cent (lab Lb) e w k d * cent (lab Lb) e w k d)) / cnt (lab Lb) k : ℝ) : EReal) := by
    rw [← Equiv.sum_comp idxEquiv1.symm (K_perCluster p1), coe_sum]
    exact Finset.sum_congr rfl fun k _ => K_perCluster_val E Lb Ms e w hE hW hms p1 hp1 k
  rw [hs, div_real _ (by norm_num : (256 : ℝ) ≠ 0)]
  rfl

end Values

end Cert.KernelIdeal.Hand

end
-- ==== Proof.LibGather.lean ====
/-
  Gathering whole rows of a matrix, read at one element.

  The operand is an N × C matrix x, the start indices an n × 1 column idx, and the result an n × C
  matrix.  With the dimension numbers of a row lookup (operand axis 0 collapsed and start-indexed,
  operand axis 1 carried whole as the result's offset axis 1, slice sizes 1 × C, the index vector
  on axis 1 of the start indices), the result at (e, q) is x at (r, q), where r is the start index
  idx (e, 0) read as a signed integer and clamped into [0, N − 1]: a negative index reads row 0,
  an index past the end reads the last row.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx

theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) := by
  unfold Host.gather
  congr 1
  funext a
  apply Fin.ext
  -- no operand axis is a batching axis
  have hb : ∀ a : Fin 2, a ∉ d.operandBatchingDims := fun a => by rw [hob]; exact List.not_mem_nil
  -- the result's only offset axis is axis 1, its only batch axis is axis 0
  have hoffm : ∀ z ∈ d.offsetDims, z = 1 := fun z hz => by rw [hoff] at hz; exact List.mem_singleton.1 hz
  have hbatm : ∀ z ∈ d.batchDims, z = 0 := fun z hz => by
    have hz' : z ∉ d.offsetDims := by simpa using (List.mem_filter.1 hz).2
    rw [hoff] at hz'
    match z with
    | ⟨0, _⟩ => rfl
    | ⟨1, _⟩ => exact absurd (List.mem_singleton.2 rfl) hz'
  match a with
  | ⟨0, _⟩ =>
    -- axis 0: collapsed and start-indexed; the operand coordinate is the clamped start index alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    have hsi : d.siIdx (ix2 e q) ⟨d.startIndexMap.idxOf (0 : Fin 2), List.idxOf_lt_length_iff.2 hm⟩ = ix2 e (0 : Fin 1) := by
      funext b
      apply Fin.ext
      match b with
      | ⟨0, _⟩ =>
        unfold GatherDims.siIdx
        rw [dif_neg (by rw [hivd]; simp)]
        unfold GatherDims.siCoord
        simp only [Fin.val_cast]
        rw [hbatm _ (List.getElem_mem _)]
        rfl
      | ⟨1, _⟩ =>
        unfold GatherDims.siIdx
        rw [dif_pos (by rw [hivd])]
        show List.idxOf (0 : Fin 2) d.startIndexMap = 0
        rw [hsim]; simp
    rw [hsi]
    show min (idx (ix2 e (0 : Fin 1))).toInt.toNat (N - d.sliceSizes 0) = _
    rw [hsl]
  | ⟨1, _⟩ =>
    -- axis 1: an offset axis carried whole; the operand coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start
    rw [dif_neg hm, Nat.zero_add]
    unfold GatherDims.offCoord
    rw [dif_pos hk, hoffm _ (List.getElem_mem _)]
    rfl

end Cert.LibGather

end
-- ==== Proof.LibIndexed.lean ====
/-
  Indexed host operations read at one element, at the exact-real instance: the accumulating scatter (jnp's
  `segment_sum` / `.at[idx].add`) of rows and of scalars, and the gather of whole rows (`h[idx]`). Stated for any
  extents, over dimension numbers given by their printed lists.
-/
import proofs.«414854_j77403900608667_3_alg».proof.Proof.LibGather
import Idealize.ShloMosaic.PureOps.Ideal
import Idealize.ShloMosaic.Lib.ValueIdx
import Idealize.ShloMosaic.Lib.ValueIdxRank1
import Idealize.ShloMosaic.Lib.StableHlo.Predicate
import Idealize.ShloMosaic.Lib.Pipeline.Value

noncomputable section

open scoped BigOperators

namespace Cert.LibIndexed

open Idealize.ShloMosaic Idealize.ShloMosaic.ValueIdx

section Rows

variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1) (idx : IVec ⟨2, ![n, 1]⟩ w) (e : Fin n) (q' : Fin C)

include huw hiw hsd hiv

/-- On the row axis the window of update (e, q') starts at the e-th start index, read signed. -/
theorem rows_start0 : d.start (ix2 e q') idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the column axis it starts at 0. -/
theorem rows_start1 : d.start (ix2 e q') idx 1 = 0 := by
  obtain ⟨uw, iw, sd, iv, wf⟩ := d
  simp only at huw hiw hsd hiv
  subst huw hiw hsd hiv
  unfold ScatterDims.start
  exact dif_neg (show (1 : Fin 2) ∉ [(0 : Fin 2)] by decide)

/-- The window coordinate on the row axis (an inserted axis) is 0. -/
theorem rows_window0 : d.window (ix2 e q') 0 = 0 := by
  obtain ⟨uw, iw, sd, iv, wf⟩ := d
  simp only at huw hiw hsd hiv
  subst huw hiw hsd hiv
  unfold ScatterDims.window
  exact dif_neg (show (0 : Fin 2) ∉ (List.finRange 2).filter (· ∉ [(0 : Fin 2)]) by decide)

/-- The window coordinate on the column axis is the update's column. -/
theorem rows_window1 : d.window (ix2 e q') 1 = q'.val := by
  obtain ⟨uw, iw, sd, iv, wf⟩ := d
  simp only at huw hiw hsd hiv
  subst huw hiw hsd hiv
  unfold ScatterDims.window
  exact (dif_pos (show (1 : Fin 2) ∈ (List.finRange 2).filter (· ∉ [(0 : Fin 2)]) by decide)).trans rfl

/-- Update (e, q') lands at (r, q) exactly when its start index is r and its column is q. -/
theorem rows_resultIdx (r : Fin N) (q : Fin C) :
    d.resultIdx? (ix2 e q') idx = some (ix2 r q) ↔ (idx (ix2 e (0 : Fin 1))).toInt = (r.val : Int) ∧ q' = q := by
  have hs0 := rows_start0 d huw hiw hsd hiv idx e q'
  have hs1 := rows_start1 d huw hiw hsd hiv idx e q'
  have hw0 := rows_window0 d huw hiw hsd hiv e q'
  have hw1 := rows_window1 d huw hiw hsd hiv e q'
  unfold ScatterDims.resultIdx?
  constructor
  · intro h
    split at h
    · next hall =>
      have hf := Option.some.inj h
      have h0 : (d.start (ix2 e q') idx 0 + d.window (ix2 e q') 0).toNat = r.val := congrArg (fun f => (f 0).val) hf
      have h1 : (d.start (ix2 e q') idx 1 + d.window (ix2 e q') 1).toNat = q.val := congrArg (fun f => (f 1).val) hf
      have ha0 := (hall 0).1
      rw [hs0, hw0] at h0 ha0
      rw [hs1, hw1] at h1
      exact ⟨by omega, Fin.ext (by omega)⟩
    · exact absurd h (by simp)
  · rintro ⟨hS, rfl⟩
    have hall : ∀ a, 0 ≤ d.start (ix2 e q') idx a + d.window (ix2 e q') a
        ∧ d.start (ix2 e q') idx a + d.window (ix2 e q') a < (⟨2, ![N, C]⟩ : Shape).size a := by
      intro a
      match a with
      | ⟨0, _⟩ =>
        show 0 ≤ d.start (ix2 e q') idx 0 + d.window (ix2 e q') 0 ∧ d.start (ix2 e q') idx 0 + d.window (ix2 e q') 0 < (N : Int)
        rw [hs0, hw0, hS]; have := r.isLt; omega
      | ⟨1, _⟩ =>
        show 0 ≤ d.start (ix2 e q') idx 1 + d.window (ix2 e q') 1 ∧ d.start (ix2 e q') idx 1 + d.window (ix2 e q') 1 < (C : Int)
        rw [hs1, hw1]; have := q'.isLt; omega
    rw [dif_pos hall]
    congr 1
    funext a
    match a with
    | ⟨0, _⟩ =>
      apply Fin.ext
      show (d.start (ix2 e q') idx 0 + d.window (ix2 e q') 0).toNat = r.val
      rw [hs0, hw0, hS]; omega
    | ⟨1, _⟩ =>
      apply Fin.ext
      show (d.start (ix2 e q') idx 1 + d.window (ix2 e q') 1).toNat = q'.val
      rw [hs1, hw1]; omega

end Rows

/-- The accumulating scatter of ROWS at element (r, q): the operand's element plus the sum, over the update rows e whose
    start index (read signed, not clamped) is r, of update element (e, q). An update whose index is outside the operand
    contributes nothing. -/
theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (r : Fin N) (q : Fin C) :
    Ideal.hostScatterAdd d x idx upd (ix2 r q)
      = x (ix2 r q) + ∑ e : Fin n, if (idx (ix2 e (0 : Fin 1))).toInt = (r.val : Int) then upd (ix2 e q) else 0 := by
  unfold Ideal.hostScatterAdd
  congr 1
  -- the sum over the updates landing at (r, q), as a double sum over update rows and columns
  rw [Finset.sum_filter, sum_idx2]
  refine Finset.sum_congr rfl fun e _ => ?_
  by_cases hS : (idx (ix2 e (0 : Fin 1))).toInt = (r.val : Int)
  · -- row e lands on row r: of its columns, only column q lands at (r, q)
    rw [if_pos hS, Finset.sum_eq_single q]
    · rw [if_pos ((rows_resultIdx d huw hiw hsd hiv idx e q r q).2 ⟨hS, rfl⟩)]
    · intro q' _ hne
      rw [if_neg (fun h => hne ((rows_resultIdx d huw hiw hsd hiv idx e q' r q).1 h).2)]
    · intro h; exact absurd (Finset.mem_univ q) h
  · -- row e lands elsewhere, or nowhere
    rw [if_neg hS]
    refine Finset.sum_eq_zero fun q' _ => ?_
    rw [if_neg (fun h => hS ((rows_resultIdx d huw hiw hsd hiv idx e q' r q).1 h).1)]

section Vec

variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1) (idx : IVec ⟨2, ![n, 1]⟩ w) (e : Fin n)

include huw hiw hsd hiv

/-- The window of update e starts at the e-th start index, read signed. -/
theorem vec_start0 : d.start (ix1 e) idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- There is no window axis: the window coordinate is 0. -/
theorem vec_window0 : d.window (ix1 e) 0 = 0 := by
  obtain ⟨uw, iw, sd, iv, wf⟩ := d
  simp only at huw hiw hsd hiv
  subst huw hiw hsd hiv
  unfold ScatterDims.window
  exact dif_neg (show (0 : Fin 1) ∉ (List.finRange 1).filter (· ∉ [(0 : Fin 1)]) by decide)

/-- Update e lands at r exactly when its start index is r. -/
theorem vec_resultIdx (r : Fin N) :
    d.resultIdx? (ix1 e) idx = some (ix1 r) ↔ (idx (ix2 e (0 : Fin 1))).toInt = (r.val : Int) := by
  have hs0 := vec_start0 d huw hiw hsd hiv idx e
  have hw0 := vec_window0 d huw hiw hsd hiv e
  unfold ScatterDims.resultIdx?
  constructor
  · intro h
    split at h
    · next hall =>
      have hf := Option.some.inj h
      have h0 : (d.start (ix1 e) idx 0 + d.window (ix1 e) 0).toNat = r.val := congrArg (fun f => (f 0).val) hf
      have ha0 := (hall 0).1
      rw [hs0, hw0] at h0 ha0
      omega
    · exact absurd h (by simp)
  · intro hS
    have hall : ∀ a, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [hs0, hw0, hS]; have := r.isLt; omega
    rw [dif_pos hall]
    congr 1
    funext a
    match a with
    | ⟨0, _⟩ =>
      apply Fin.ext
      show (d.start (ix1 e) idx 0 + d.window (ix1 e) 0).toNat = r.val
      rw [hs0, hw0, hS]; omega

end Vec

/-- The accumulating scatter of SCALARS at element r. -/
theorem scatterAdd_vec_apply {N n w : Nat}
    (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal)
    (r : Fin N) :
    Ideal.hostScatterAdd d x idx upd (ix1 r)
      = x (ix1 r) + ∑ e : Fin n, if (idx (ix2 e (0 : Fin 1))).toInt = (r.val : Int) then upd (ix1 e) else 0 := by
  unfold Ideal.hostScatterAdd
  congr 1
  -- the sum over the updates landing at r, re-indexed by the update's one coordinate
  rw [Finset.sum_filter, ← Equiv.sum_comp (idxEquiv1 (n := n)).symm]
  refine Finset.sum_congr rfl fun e _ => ?_
  show (if d.resultIdx? (ix1 e) idx = some (ix1 r) then upd (ix1 e) else 0) = _
  by_cases hS : (idx (ix2 e (0 : Fin 1))).toInt = (r.val : Int)
  · rw [if_pos hS, if_pos ((vec_resultIdx d huw hiw hsd hiv idx e r).2 hS)]
  · rw [if_neg hS, if_neg (fun h => hS ((vec_resultIdx d huw hiw hsd hiv idx e r).1 h))]

/-- The gather of whole ROWS at element (e, q): the operand at row idx[e] (read signed and clamped into [0, N-1]), column q. -/
theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) :=
  Cert.LibGather.gather_rows_apply d hoff hcoll hob hsim hivd hss x idx e q hN

end Cert.LibIndexed

end
-- ==== Proof.RTailA.lean ====
/-
  The reference's first part, read as values.

  The reference computes, from the rows e n, the labels and the masses: the weights m n = mass n ^ 0.5; the weighted
  segment sums wsum k d = sum over the points of cluster k of e n d * m n and msum k = sum of m n; the centroids
  wsum / msum; for each point the squared distance to the centroid row its (normalized, clamped) label selects; the
  counts; the per-cluster sums of those squared distances; their quotient by the counts; and the mean over the 256
  clusters: the intra-cluster loss. Here these are first written as the composition of the printed operations, in the
  printed order, and then read at an element: under the decoded precondition (real rows, real weights, every cluster's
  total weight nonzero) the centroid array is the real centroid and the loss is the real mean intra-cluster squared
  distance, computed directly.
-/
import proofs.«414854_j77403900608667_3_alg».proof.ReferenceIdeal
import proofs.«414854_j77403900608667_3_alg».proof.Proof.Gen.ReferenceIdeal
import proofs.«414854_j77403900608667_3_alg».proof.Proof.Spec
import proofs.«414854_j77403900608667_3_alg».proof.Proof.LibIndexed
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

noncomputable section

open scoped BigOperators

namespace Cert.ReferenceIdeal.Hand

open Idealize.ShloMosaic Idealize.ShloMosaic.ValueIdx
open Cert.ReferenceIdeal Cert.ReferenceIdeal.Facts₀

/-! ## The printed operations, composed

Written for any float values (the reading below is at the exact extended reals). -/

section Terms

variable {F : FTy → Type} [FloatOps F]

/-- %1: the weights, mass ^ 0.5. -/
def R_m (Ms : FVec F S262144 .f32) : FVec F S262144 .f32 :=
  Host.powf (F := F) Ms (broadcastInDim S262144 ![] bcast_S_S262144 (constant (F := F) S_ .f32 0x3F000000#32))

/-- %4: the rows times their weights. -/
def R_we (E : FVec F S262144x128 .f32) (Ms : FVec F S262144 .f32) : FVec F S262144x128 .f32 :=
  mulf (F := F) E
    (broadcastInDim S262144x128 ![0, 1] bcast_S262144x1_S262144x128_0_1
      (broadcastInDim S262144x1 ![0] bcast_S262144_S262144x1_0 (R_m Ms)))

/-- %7: the weighted segment sums of the rows. -/
def R_wsum (E : FVec F S262144x128 .f32) (Lb : IVec S262144 32) (Ms : FVec F S262144 .f32) :
    FVec F S256x128 .f32 :=
  Host.scatterAdd (F := F) scatter_S256x128_S262144x1_S262144x128_1_0_0_1
    (broadcastInDim S256x128 ![] bcast_S_S256x128 (constant (F := F) S_ .f32 0x00000000#32))
    (broadcastInDim S262144x1 ![0] bcast_S262144_S262144x1_0 Lb)
    (R_we E Ms)

/-- %10: the segment sums of the weights. -/
def R_msum (Lb : IVec S262144 32) (Ms : FVec F S262144 .f32) : FVec F S256 .f32 :=
  Host.scatterAdd (F := F) scatter_S256_S262144x1_S262144_n_0_0_1
    (broadcastInDim S256 ![] bcast_S_S256 (constant (F := F) S_ .f32 0x00000000#32))
    (broadcastInDim S262144x1 ![0] bcast_S262144_S262144x1_0 Lb)
    (R_m Ms)

/-- %13: the centroids, wsum / msum. -/
def R_centG (E : FVec F S262144x128 .f32) (Lb : IVec S262144 32) (Ms : FVec F S262144 .f32) :
    FVec F S256x128 .f32 :=
  Host.divf (F := F) (R_wsum E Lb Ms)
    (broadcastInDim S256x128 ![0, 1] bcast_S256x1_S256x128_0_1
      (broadcastInDim S256x1 ![0] bcast_S256_S256x1_0 (R_msum Lb Ms)))

/-- %18: the labels normalized, a negative label moved up by 256. -/
def R_lbn (Lb : IVec S262144 32) : IVec S262144 32 :=
  select
    (cmpi .slt Lb (broadcastInDim S262144 ![] bcast_S_S262144 (constantI S_ 32 0#32)))
    (addi Lb (broadcastInDim S262144 ![] bcast_S_S262144 (constantI S_ 32 256#32)))
    Lb

/-- %20: for each point, the centroid row its normalized label selects. -/
def R_gath (E : FVec F S262144x128 .f32) (Lb : IVec S262144 32) (Ms : FVec F S262144 .f32) :
    FVec F S262144x128 .f32 :=
  Host.gather gather_S256x128_S262144x1_S262144x128_1_0_n_n_0_1_1128 (R_centG E Lb Ms)
    (broadcastInDim S262144x1 ![0] bcast_S262144_S262144x1_0 (R_lbn Lb))

/-- %21: the differences row minus selected centroid. -/
def R_diff (E : FVec F S262144x128 .f32) (Lb : IVec S262144 32) (Ms : FVec F S262144 .f32) :
    FVec F S262144x128 .f32 :=
  subf (F := F) E (R_gath E Lb Ms)

/-- %23: each point's squared distance to its selected centroid. -/
def R_sq (E : FVec F S262144x128 .f32) (Lb : IVec S262144 32) (Ms : FVec F S262144 .f32) :
    FVec F S262144 .f32 :=
  Host.reduceAdd (F := F) (mulf (F := F) (R_diff E Lb Ms) (R_diff E Lb Ms))
    (constant (F := F) S_ .f32 0x00000000#32) reducesTo_S262144x128_S262144_d1 h_S_

/-- %27: the counts. -/
def R_cnt (Lb : IVec S262144 32) : FVec F S256 .f32 :=
  Host.scatterAdd (F := F) scatter_S256_S262144x1_S262144_n_0_0_1
    (broadcastInDim S256 ![] bcast_S_S256 (constant (F := F) S_ .f32 0x00000000#32))
    (broadcastInDim S262144x1 ![0] bcast_S262144_S262144x1_0 Lb)
    (broadcastInDim S262144 ![] bcast_S_S262144 (constant (F := F) S_ .f32 0x3F800000#32))

/-- %30: the per-cluster sums of the squared distances. -/
def R_sqsum (E : FVec F S262144x128 .f32) (Lb : IVec S262144 32) (Ms : FVec F S262144 .f32) :
    FVec F S256 .f32 :=
  Host.scatterAdd (F := F) scatter_S256_S262144x1_S262144_n_0_0_1
    (broadcastInDim S256 ![] bcast_S_S256 (constant (F := F) S_ .f32 0x00000000#32))
    (broadcastInDim S262144x1 ![0] bcast_S262144_S262144x1_0 Lb)
    (R_sq E Lb Ms)

/-- %31: each cluster's mean squared distance. -/
def R_mean (E : FVec F S262144x128 .f32) (Lb : IVec S262144 32) (Ms : FVec F S262144 .f32) :
    FVec F S256 .f32 :=
  Host.divf (F := F) (R_sqsum E Lb Ms) (R_cnt Lb)

/-- %33: the intra-cluster loss, the mean over the 256 clusters. -/
def R_intraG (E : FVec F S262144x128 .f32) (Lb : IVec S262144 32) (Ms : FVec F S262144 .f32) :
    FVec F S_ .f32 :=
  Host.divf (F := F)
    (Host.reduceAdd (F := F) (R_mean E Lb Ms) (constant (F := F) S_ .f32 0x00000000#32) reducesTo_S256_S_d0 h_S_)
    (constant (F := F) S_ .f32 0x43800000#32)

/-- %34: the 256 x 256 array of ones, for any float values. -/
def R_onesG : FVec F S256x256 .f32 :=
  broadcastInDim S256x256 ![] bcast_S_S256x256 (constant (F := F) S_ .f32 0x3F800000#32)

end Terms

/-! ## The three results at the exact extended reals -/

/-- %13: the centroids. -/
def R_cent (E : FVec Ideal S262144x128 .f32) (Lb : IVec S262144 32) (Ms : FVec Ideal S262144 .f32) :
    FVec Ideal S256x128 .f32 := R_centG E Lb Ms

/-- %33: the intra-cluster loss. -/
def R_intra (E : FVec Ideal S262144x128 .f32) (Lb : IVec S262144 32) (Ms : FVec Ideal S262144 .f32) :
    FVec Ideal S_ .f32 := R_intraG E Lb Ms

/-- %34: the 256 x 256 array of ones. -/
def R_ones : FVec Ideal S256x256 .f32 := R_onesG (F := Ideal)

/-! ## Sums of coerced reals -/

/-- The coercion of the reals into the extended reals goes through a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- ... and through a choice between a real and zero. -/
theorem coe_ite (p : Prop) [Decidable p] (a : ℝ) :
    ((if p then a else 0 : ℝ) : EReal) = if p then ((a : ℝ) : EReal) else 0 := by
  split_ifs <;> simp

/-- A segment sum of coerced reals is the coerced real segment sum. -/
theorem seg_coe (mem : Fin 262144 → Fin 256 → Prop) [∀ n k, Decidable (mem n k)] (g : Fin 262144 → ℝ) (k : Fin 256) :
    (∑ n : Fin 262144, if mem n k then ((g n : ℝ) : EReal) else 0) = ((Cert.Spec.segR mem g k : ℝ) : EReal) := by
  unfold Cert.Spec.segR
  rw [coe_sum]
  exact Finset.sum_congr rfl fun n _ => (coe_ite _ _).symm

/-- A cluster whose total weight is not zero has a point: its count is not zero. -/
theorem cnt_ne_zero (mem : Fin 262144 → Fin 256 → Prop) [∀ n k, Decidable (mem n k)] (w : Fin 262144 → ℝ) (k : Fin 256)
    (h : Cert.Spec.segR mem w k ≠ 0) : Cert.Spec.cnt mem k ≠ 0 := by
  intro hc
  apply h
  unfold Cert.Spec.cnt Cert.Spec.segR at hc
  unfold Cert.Spec.segR
  have hz := (Finset.sum_eq_zero_iff_of_nonneg (fun n _ => by split_ifs <;> norm_num)).1 hc
  refine Finset.sum_eq_zero fun n hn => ?_
  have h1 := hz n hn
  by_cases hm : mem n k
  · rw [if_pos hm] at h1; exact absurd h1 one_ne_zero
  · rw [if_neg hm]

/-- Two segment sums whose summands agree on the cluster's points are equal. -/
theorem segR_congr (mem : Fin 262144 → Fin 256 → Prop) [∀ n k, Decidable (mem n k)] (g g' : Fin 262144 → ℝ) (k : Fin 256)
    (h : ∀ n, mem n k → g n = g' n) : Cert.Spec.segR mem g k = Cert.Spec.segR mem g' k := by
  unfold Cert.Spec.segR
  refine Finset.sum_congr rfl fun n _ => ?_
  by_cases hm : mem n k
  · rw [if_pos hm, if_pos hm, h n hm]
  · rw [if_neg hm, if_neg hm]

/-! ## The constants -/

/-- The word 0x43800000 is 256. -/
theorem ofBits_256 : Ideal.ofBits .f32 0x43800000#32 = ((256 : ℝ) : EReal) := by
  simp [Ideal.ofBits, Ideal.ieee, -EReal.coe_mul]; norm_num

/-! ## The layout operations at an element -/

/-- A vector made a column: entry (n, 0) is entry n. -/
theorem col_apply {α : Type} (x : S262144.Idx → α) (n : Fin 262144) :
    broadcastInDim S262144x1 ![0] bcast_S262144_S262144x1_0 x (ix2 n (0 : Fin 1)) = x (ix1 n) :=
  broadcastInDim_apply _ _ x _ (ix1 n) fun a => by
    match a with
    | ⟨0, _⟩ => rfl

/-- A column spread along the rows: entry (n, d) is the column's entry (n, 0). -/
theorem spread_apply {α : Type} (x : S262144x1.Idx → α) (n : Fin 262144) (d : Fin 128) :
    broadcastInDim S262144x128 ![0, 1] bcast_S262144x1_S262144x128_0_1 x (ix2 n d) = x (ix2 n (0 : Fin 1)) :=
  broadcastInDim_apply _ _ x _ (ix2 n (0 : Fin 1)) fun a => by
    match a with
    | ⟨0, _⟩ => rfl
    | ⟨1, _⟩ => rfl

/-- The same for the 256 clusters: a vector made a column ... -/
theorem col256_apply {α : Type} (x : S256.Idx → α) (k : Fin 256) :
    broadcastInDim S256x1 ![0] bcast_S256_S256x1_0 x (ix2 k (0 : Fin 1)) = x (ix1 k) :=
  broadcastInDim_apply _ _ x _ (ix1 k) fun a => by
    match a with
    | ⟨0, _⟩ => rfl

/-- ... and the column spread along the rows. -/
theorem spread256_apply {α : Type} (x : S256x1.Idx → α) (k : Fin 256) (d : Fin 128) :
    broadcastInDim S256x128 ![0, 1] bcast_S256x1_S256x128_0_1 x (ix2 k d) = x (ix2 k (0 : Fin 1)) :=
  broadcastInDim_apply _ _ x _ (ix2 k (0 : Fin 1)) fun a => by
    match a with
    | ⟨0, _⟩ => rfl
    | ⟨1, _⟩ => rfl

/-- The source index over point n with coordinate d on the summed axis is (n, d). -/
theorem lift_row (h : S262144x128.Reduces [1] S262144) (n : Fin 262144) (d : Fin 128) :
    h.lift (ix1 n) d = ix2 n d := by
  funext a
  match a with
  | ⟨0, _⟩ => exact Fin.ext rfl
  | ⟨1, _⟩ => exact Fin.ext rfl

/-! ## The accumulating scatters by the labels, at an element -/

/-- Rows scattered by the labels into zeros: at (k, d), the sum over the points labelled k of the update's (n, d). -/
theorem scat_rows_apply (Lb : IVec S262144 32) (upd : FVec Ideal S262144x128 .f32) (k : Fin 256) (d : Fin 128) :
    Host.scatterAdd (F := Ideal) scatter_S256x128_S262144x1_S262144x128_1_0_0_1
        (broadcastInDim S256x128 ![] bcast_S_S256x128 (constant (F := Ideal) S_ .f32 0x00000000#32))
        (broadcastInDim S262144x1 ![0] bcast_S262144_S262144x1_0 Lb) upd (ix2 k d)
      = ∑ n : Fin 262144, if Cert.Spec.lab Lb n k then upd (ix2 n d) else 0 := by
  show Ideal.hostScatterAdd scatter_S256x128_S262144x1_S262144x128_1_0_0_1 _ _ upd (ix2 k d) = _
  rw [Cert.LibIndexed.scatterAdd_rows_apply _ rfl rfl rfl rfl]
  rw [show broadcastInDim S256x128 ![] bcast_S_S256x128 (constant (F := Ideal) S_ .f32 0x00000000#32) (ix2 k d)
        = Ideal.ofBits .f32 0x00000000#32 from rfl, Ideal.ofBits_zero_f32, zero_add]
  refine Finset.sum_congr rfl fun n _ => ?_
  have hidx := col_apply Lb n
  by_cases h : Cert.Spec.lab Lb n k
  · rw [if_pos h, if_pos (by rw [hidx]; exact h)]
  · rw [if_neg h, if_neg (by rw [hidx]; exact h)]

/-- Scalars scattered by the labels into zeros: at k, the sum over the points labelled k of the update's n. -/
theorem scat_vec_apply (Lb : IVec S262144 32) (upd : FVec Ideal S262144 .f32) (k : Fin 256) :
    Host.scatterAdd (F := Ideal) scatter_S256_S262144x1_S262144_n_0_0_1
        (broadcastInDim S256 ![] bcast_S_S256 (constant (F := Ideal) S_ .f32 0x00000000#32))
        (broadcastInDim S262144x1 ![0] bcast_S262144_S262144x1_0 Lb) upd (ix1 k)
      = ∑ n : Fin 262144, if Cert.Spec.lab Lb n k then upd (ix1 n) else 0 := by
  show Ideal.hostScatterAdd scatter_S256_S262144x1_S262144_n_0_0_1 _ _ upd (ix1 k) = _
  rw [Cert.LibIndexed.scatterAdd_vec_apply _ rfl rfl rfl rfl]
  rw [show broadcastInDim S256 ![] bcast_S_S256 (constant (F := Ideal) S_ .f32 0x00000000#32) (ix1 k)
        = Ideal.ofBits .f32 0x00000000#32 from rfl, Ideal.ofBits_zero_f32, zero_add]
  refine Finset.sum_congr rfl fun n _ => ?_
  have hidx := col_apply Lb n
  by_cases h : Cert.Spec.lab Lb n k
  · rw [if_pos h, if_pos (by rw [hidx]; exact h)]
  · rw [if_neg h, if_neg (by rw [hidx]; exact h)]

/-! ## The row a label selects -/

/-- The centroid row point n's normalized label selects, clamped into the 256 rows. -/
def rowSel (Lb : IVec S262144 32) (n : Fin 262144) : Fin 256 :=
  ⟨min (R_lbn Lb (ix1 n)).toInt.toNat (256 - 1), by omega⟩

/-- A point labelled k selects row k: its label is not negative, so it is kept, and it is below 256. -/
theorem rowSel_of_lab (Lb : IVec S262144 32) (n : Fin 262144) (k : Fin 256) (h : Cert.Spec.lab Lb n k) :
    rowSel Lb n = k := by
  have hk : (Lb (ix1 n)).toInt = (k.val : Int) := h
  have hslt : (Lb (ix1 n)).slt 0#32 = false := by
    show decide ((Lb (ix1 n)).toInt < (0#32).toInt) = false
    rw [hk]
    exact decide_eq_false (by simp)
  have hsel : R_lbn Lb (ix1 n) = Lb (ix1 n) := by
    show Scalar.select (IntOp.cmpi .slt (Lb (ix1 n)) 0#32) (IntOp.addi (Lb (ix1 n)) 256#32) (Lb (ix1 n)) = _
    show Scalar.select (BitVec.ofBool ((Lb (ix1 n)).slt 0#32)) _ _ = _
    rw [hslt]
    exact select_zero _ _
  apply Fin.ext
  show min (R_lbn Lb (ix1 n)).toInt.toNat (256 - 1) = k.val
  rw [hsel, hk]
  have := k.isLt
  omega

/-- The gather at (n, d): the centroid array at the selected row. -/
theorem gath_apply (E : FVec Ideal S262144x128 .f32) (Lb : IVec S262144 32) (Ms : FVec Ideal S262144 .f32)
    (n : Fin 262144) (d : Fin 128) :
    R_gath E Lb Ms (ix2 n d) = R_centG E Lb Ms (ix2 (rowSel Lb n) d) := by
  unfold R_gath
  rw [Cert.LibIndexed.gather_rows_apply _ rfl rfl rfl rfl rfl rfl _ _ n d (by norm_num)]
  have hidx := col_apply (R_lbn Lb) n
  refine congrArg (fun r => R_centG E Lb Ms (ix2 r d)) (Fin.ext ?_)
  exact congrArg (fun z : BitVec 32 => min z.toInt.toNat (256 - 1)) hidx

/-! ## The values under the decoded precondition -/

section Values

variable {E : FVec Ideal S262144x128 .f32} {Lb : IVec S262144 32} {Ms : FVec Ideal S262144 .f32}
  (e : Fin 262144 → Fin 128 → ℝ) (w : Fin 262144 → ℝ)
  (hE : ∀ n d, E (ix2 n d) = ((e n d : ℝ) : EReal))
  (hW : ∀ n, Ideal.pow (Ms (ix1 n)) (Ideal.ofBits .f32 0x3F000000#32) = ((w n : ℝ) : EReal))
  (hms : ∀ k, Cert.Spec.segR (Cert.Spec.lab Lb) w k ≠ 0)

include hW in
/-- The weight of point n is the real w n. -/
theorem m_real (n : Fin 262144) : R_m Ms (ix1 n) = ((w n : ℝ) : EReal) := hW n

include hE hW in
/-- Row n times its weight. -/
theorem we_real (n : Fin 262144) (d : Fin 128) : R_we E Ms (ix2 n d) = ((e n d * w n : ℝ) : EReal) := by
  unfold R_we
  rw [mulf_apply, spread_apply, col_apply, hE, m_real w hW, EReal.coe_mul]

include hE hW in
/-- The weighted segment sum of coordinate d over cluster k. -/
theorem wsum_real (k : Fin 256) (d : Fin 128) :
    R_wsum E Lb Ms (ix2 k d) = ((Cert.Spec.segR (Cert.Spec.lab Lb) (fun n => e n d * w n) k : ℝ) : EReal) := by
  unfold R_wsum
  rw [scat_rows_apply, ← seg_coe]
  exact Finset.sum_congr rfl fun n _ => by rw [we_real e w hE hW]

include hW in
/-- The segment sum of the weights over cluster k. -/
theorem msum_real (k : Fin 256) :
    R_msum Lb Ms (ix1 k) = ((Cert.Spec.segR (Cert.Spec.lab Lb) w k : ℝ) : EReal) := by
  unfold R_msum
  rw [scat_vec_apply, ← seg_coe]
  exact Finset.sum_congr rfl fun n _ => by rw [m_real w hW]

include hE hW hms in
/-- The centroid array is the real centroid. -/
theorem centG_real (k : Fin 256) (d : Fin 128) :
    R_centG E Lb Ms (ix2 k d) = ((Cert.Spec.cent (Cert.Spec.lab Lb) e w k d : ℝ) : EReal) := by
  unfold R_centG
  rw [hostDivf_apply, spread256_apply, col256_apply, wsum_real e w hE hW, msum_real w hW, Ideal.div_coe (hms k),
    ← EReal.coe_mul]
  unfold Cert.Spec.cent
  rw [mul_one_div]

include hE hW hms in
/-- Point n's squared distance to the centroid its label selects. -/
theorem sq_real (n : Fin 262144) :
    R_sq E Lb Ms (ix1 n)
      = ((∑ d : Fin 128, (e n d - Cert.Spec.cent (Cert.Spec.lab Lb) e w (rowSel Lb n) d)
            * (e n d - Cert.Spec.cent (Cert.Spec.lab Lb) e w (rowSel Lb n) d) : ℝ) : EReal) := by
  unfold R_sq
  rw [hostReduceAdd_apply, Ideal.hostReduceAdd_single reducesTo_S262144x128_S262144_d1 (by decide)]
  rw [show constant (F := Ideal) S_ .f32 0x00000000#32 (Shape.Idx.first h_S_) = Ideal.ofBits .f32 0x00000000#32 from rfl,
    Ideal.ofBits_zero_f32, zero_add, coe_sum]
  show ∑ d : Fin 128, mulf (F := Ideal) (R_diff E Lb Ms) (R_diff E Lb Ms)
      ((by decide : S262144x128.Reduces [1] S262144).lift (ix1 n) d) = _
  refine Finset.sum_congr rfl fun d _ => ?_
  refine (congrArg (mulf (F := Ideal) (R_diff E Lb Ms) (R_diff E Lb Ms)) (lift_row _ n d)).trans ?_
  rw [mulf_apply]
  unfold R_diff
  rw [subf_apply, gath_apply, hE, centG_real e w hE hW hms, ← EReal.coe_sub, ← EReal.coe_mul]

/-- The count of cluster k. -/
theorem cnt_real (k : Fin 256) : R_cnt (F := Ideal) Lb (ix1 k) = ((Cert.Spec.cnt (Cert.Spec.lab Lb) k : ℝ) : EReal) := by
  unfold R_cnt Cert.Spec.cnt
  rw [scat_vec_apply, ← seg_coe]
  refine Finset.sum_congr rfl fun n _ => ?_
  rw [show broadcastInDim S262144 ![] bcast_S_S262144 (constant (F := Ideal) S_ .f32 0x3F800000#32) (ix1 n)
        = Ideal.ofBits .f32 0x3F800000#32 from rfl, Ideal.ofBits_one_f32, EReal.coe_one]

include hE hW hms in
/-- The sum over cluster k of the squared distances to centroid k. -/
theorem sqsum_real (k : Fin 256) :
    R_sqsum E Lb Ms (ix1 k)
      = ((Cert.Spec.segR (Cert.Spec.lab Lb)
            (fun n => ∑ d : Fin 128, (e n d - Cert.Spec.cent (Cert.Spec.lab Lb) e w k d)
              * (e n d - Cert.Spec.cent (Cert.Spec.lab Lb) e w k d)) k : ℝ) : EReal) := by
  unfold R_sqsum
  rw [scat_vec_apply]
  -- inside the cluster the selected row is k
  rw [segR_congr (Cert.Spec.lab Lb)
      (fun n => ∑ d : Fin 128, (e n d - Cert.Spec.cent (Cert.Spec.lab Lb) e w k d)
        * (e n d - Cert.Spec.cent (Cert.Spec.lab Lb) e w k d))
      (fun n => ∑ d : Fin 128, (e n d - Cert.Spec.cent (Cert.Spec.lab Lb) e w (rowSel Lb n) d)
        * (e n d - Cert.Spec.cent (Cert.Spec.lab Lb) e w (rowSel Lb n) d)) k
      (fun n hn => by rw [rowSel_of_lab Lb n k hn]), ← seg_coe]
  exact Finset.sum_congr rfl fun n _ => by rw [sq_real e w hE hW hms]

include hE hW hms in
/-- Cluster k's mean squared distance. -/
theorem mean_real (k : Fin 256) :
    R_mean E Lb Ms (ix1 k)
      = ((Cert.Spec.segR (Cert.Spec.lab Lb)
            (fun n => ∑ d : Fin 128, (e n d - Cert.Spec.cent (Cert.Spec.lab Lb) e w k d)
              * (e n d - Cert.Spec.cent (Cert.Spec.lab Lb) e w k d)) k
          / Cert.Spec.cnt (Cert.Spec.lab Lb) k : ℝ) : EReal) := by
  unfold R_mean
  rw [hostDivf_apply, sqsum_real e w hE hW hms, cnt_real, Ideal.div_coe (cnt_ne_zero _ w k (hms k)), ← EReal.coe_mul,
    mul_one_div]

include hE hW hms in
/-- The intra-cluster loss is the real mean intra-cluster squared distance, computed directly. -/
theorem intraG_real :
    R_intraG E Lb Ms ix0 = ((Cert.Spec.intraDirect (Cert.Spec.lab Lb) e w : ℝ) : EReal) := by
  have hX : (∑ i : S256.Idx, R_mean E Lb Ms i)
      = ((∑ k : Fin 256, Cert.Spec.segR (Cert.Spec.lab Lb)
            (fun n => ∑ d : Fin 128, (e n d - Cert.Spec.cent (Cert.Spec.lab Lb) e w k d)
              * (e n d - Cert.Spec.cent (Cert.Spec.lab Lb) e w k d)) k
          / Cert.Spec.cnt (Cert.Spec.lab Lb) k : ℝ) : EReal) := by
    rw [coe_sum, ← Equiv.sum_comp (idxEquiv1 (n := 256)).symm]
    exact Finset.sum_congr rfl fun k _ => by
      show R_mean E Lb Ms (ix1 k) = _
      rw [mean_real e w hE hW hms]
  unfold R_intraG
  rw [hostDivf_apply, hostReduceAdd_apply, Ideal.hostReduceAdd_total reducesTo_S256_S_d0 (fun b => b.elim0)]
  rw [show constant (F := Ideal) S_ .f32 0x00000000#32 (Shape.Idx.first h_S_) = Ideal.ofBits .f32 0x00000000#32 from rfl,
    Ideal.ofBits_zero_f32, zero_add]
  rw [show constant (F := Ideal) S_ .f32 0x43800000#32 ix0 = Ideal.ofBits .f32 0x43800000#32 from rfl, ofBits_256]
  rw [Ideal.div_coe (by norm_num : (256 : ℝ) ≠ 0), hX, ← EReal.coe_mul, mul_one_div]
  rfl

include hE hW hms in
/-- The centroid array is the real centroid. -/
theorem R_cent_real (k : Fin 256) (d : Fin 128) :
    R_cent E Lb Ms (ix2 k d) = ((Cert.Spec.cent (Cert.Spec.lab Lb) e w k d : ℝ) : EReal) :=
  centG_real e w hE hW hms k d

include hE hW hms in
/-- The intra-cluster loss is the real mean intra-cluster squared distance, computed directly. -/
theorem R_intra_real :
    R_intra E Lb Ms ix0 = ((Cert.Spec.intraDirect (Cert.Spec.lab Lb) e w : ℝ) : EReal) :=
  intraG_real e w hE hW hms

end Values

end Cert.ReferenceIdeal.Hand

end
-- ==== Proof.RTailB.lean ====
/-
  The reference's first 47 operations, run: from any contents of the device's buffers, after them the centroid
  buffer holds the composed centroid term of the three arguments, the loss buffer the composed intra-cluster loss,
  the table buffer the 256 x 256 array of ones, and the fourth argument is untouched. Each is first shown for any
  float values, where the two sides are the same composition of the same operations, and then read at the exact
  extended reals.
-/
import proofs.«414854_j77403900608667_3_alg».proof.Proof.ROps
import proofs.«414854_j77403900608667_3_alg».proof.Proof.RTailA

noncomputable section

namespace Cert.ReferenceIdeal.Hand

open Cert.ReferenceIdeal Cert.ReferenceIdeal.Gen Idealize.ShloMosaic Idealize.ShloMosaic.TcCoe Idealize.SL.Sem
  Idealize.ShloMosaic.StableHlo

section AnyFloat

variable {F : FTy → Type} [FloatOps F]

set_option maxRecDepth 8192 in
set_option maxHeartbeats 4000000 in
/-- After the operations the centroid buffer (%13) is the composed centroid term of the arguments. -/
theorem tailA_v13_gen (W : Valuation τ sig (Elt F)) :
    StableHlo.after (opsA (F := F)) W (Proc.devRef .tc main_v13)
      = R_centG (F := F) (W (Proc.devRef .tc main_arg0)) (W (Proc.devRef .tc main_arg1)) (W (Proc.devRef .tc main_arg2)) := by
  after_results_simp <;> rfl

set_option maxRecDepth 8192 in
set_option maxHeartbeats 4000000 in
/-- After the operations the loss buffer (%33) is the composed intra-cluster loss of the arguments. -/
theorem tailA_v33_gen (W : Valuation τ sig (Elt F)) :
    StableHlo.after (opsA (F := F)) W (Proc.devRef .tc main_v33)
      = R_intraG (F := F) (W (Proc.devRef .tc main_arg0)) (W (Proc.devRef .tc main_arg1)) (W (Proc.devRef .tc main_arg2)) := by
  after_results_simp <;> rfl

set_option maxRecDepth 8192 in
set_option maxHeartbeats 4000000 in
/-- After the operations the table buffer (%34) is the array of ones. -/
theorem tailA_v34_gen (W : Valuation τ sig (Elt F)) :
    StableHlo.after (opsA (F := F)) W (Proc.devRef .tc main_v34) = R_onesG (F := F) := by
  after_results_simp <;> rfl

set_option maxRecDepth 8192 in
set_option maxHeartbeats 4000000 in
/-- The operations do not write the fourth argument. -/
theorem tailA_arg3_gen (W : Valuation τ sig (Elt F)) :
    StableHlo.after (opsA (F := F)) W (Proc.devRef .tc main_arg3) = W (Proc.devRef .tc main_arg3) := by
  after_results_simp <;> rfl

end AnyFloat

/-- At the exact extended reals: the centroid buffer. -/
theorem tailA_v13 (W : Valuation τ sig (Elt Ideal)) :
    StableHlo.after (opsA (F := Ideal)) W (Proc.devRef .tc main_v13)
      = R_cent (W (Proc.devRef .tc main_arg0)) (W (Proc.devRef .tc main_arg1)) (W (Proc.devRef .tc main_arg2)) :=
  tailA_v13_gen W

/-- At the exact extended reals: the loss buffer. -/
theorem tailA_v33 (W : Valuation τ sig (Elt Ideal)) :
    StableHlo.after (opsA (F := Ideal)) W (Proc.devRef .tc main_v33)
      = R_intra (W (Proc.devRef .tc main_arg0)) (W (Proc.devRef .tc main_arg1)) (W (Proc.devRef .tc main_arg2)) :=
  tailA_v33_gen W

/-- At the exact extended reals: the table buffer. -/
theorem tailA_v34 (W : Valuation τ sig (Elt Ideal)) :
    StableHlo.after (opsA (F := Ideal)) W (Proc.devRef .tc main_v34) = R_ones :=
  tailA_v34_gen W

/-- At the exact extended reals: the fourth argument is untouched. -/
theorem tailA_arg3 (W : Valuation τ sig (Elt Ideal)) :
    StableHlo.after (opsA (F := Ideal)) W (Proc.devRef .tc main_arg3) = W (Proc.devRef .tc main_arg3) :=
  tailA_arg3_gen W

end Cert.ReferenceIdeal.Hand

end
-- ==== Proof.ChainA.lean ====
/-
  The pair enumeration and the inter-cluster loss are computed by the same operations in the kernel's program (its
  lists after the first stretch) and in the reference (its lists from the all-ones table on); only the buffers are
  numbered differently. This module carries lists 1, 2, 3, 4, 5, 6, 7, 8 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 1 of the chain: equal live values before it give equal live values after it. -/
theorem step_1 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v28 : WK (Proc.devRef .tc Cert.KernelIdeal.main_v28) = WR (Proc.devRef .tc Cert.ReferenceIdeal.main_v34)) :
    after (Cert.KernelIdeal.Gen.hostOps1_1 (F := Ideal)) WK (Proc.devRef .tc Cert.KernelIdeal.main_v15)
        = after (Cert.ReferenceIdeal.Hand.opsB_1 (F := Ideal)) WR (Proc.devRef .tc Cert.ReferenceIdeal.main_v13)
    ∧ after (Cert.KernelIdeal.Gen.hostOps1_1 (F := Ideal)) WK (Proc.devRef .tc Cert.KernelIdeal.main_v27)
        = after (Cert.ReferenceIdeal.Hand.opsB_1 (F := Ideal)) WR (Proc.devRef .tc Cert.ReferenceIdeal.main_v33)
    ∧ after (Cert.KernelIdeal.Gen.hostOps1_1 (F := Ideal)) WK (Proc.devRef .tc Cert.KernelIdeal.main_arg3)
        = after (Cert.ReferenceIdeal.Hand.opsB_1 (F := Ideal)) WR (Proc.devRef .tc Cert.ReferenceIdeal.main_arg3)
    ∧ after (Cert.KernelIdeal.Gen.hostOps1_1 (F := Ideal)) WK (Proc.devRef .tc Cert.KernelIdeal.main_v29)
        = after (Cert.ReferenceIdeal.Hand.opsB_1 (F := Ideal)) WR (Proc.devRef .tc Cert.ReferenceIdeal.main_v35) := by
  after_results_simp
  exact ⟨h_v15,
    h_v27,
    h_arg3,
    by rw [h_v28] <;> rfl⟩

set_option maxHeartbeats 4000000 in
/-- List 2 of the chain: equal live values before it give equal live values after it. -/
theorem step_2 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v29 : WK (Proc.devRef .tc Cert.KernelIdeal.main_v29) = WR (Proc.devRef .tc Cert.ReferenceIdeal.main_v35)) :
    after (Cert.KernelIdeal.Gen.hostOps1_2 (F := Ideal)) WK (Proc.devRef .tc Cert.KernelIdeal.main_v15)
        = after (Cert.ReferenceIdeal.Hand.opsB_2 (F := Ideal)) WR (Proc.devRef .tc Cert.ReferenceIdeal.main_v13)
    ∧ after (Cert.KernelIdeal.Gen.hostOps1_2 (F := Ideal)) WK (Proc.devRef .tc Cert.KernelIdeal.main_v27)
        = after (Cert.ReferenceIdeal.Hand.opsB_2 (F := Ideal)) WR (Proc.devRef .tc Cert.ReferenceIdeal.main_v33)
    ∧ after (Cert.KernelIdeal.Gen.hostOps1_2 (F := Ideal)) WK (Proc.devRef .tc Cert.KernelIdeal.main_arg3)
        = after (Cert.ReferenceIdeal.Hand.opsB_2 (F := Ideal)) WR (Proc.devRef .tc Cert.ReferenceIdeal.main_arg3)
    ∧ after (Cert.KernelIdeal.Gen.hostOps1_2 (F := Ideal)) WK (Proc.devRef .tc Cert.KernelIdeal.main_v31)
        = after (Cert.ReferenceIdeal.Hand.opsB_2 (F := Ideal)) WR (Proc.devRef .tc Cert.ReferenceIdeal.main_v37) := by
  after_results_simp
  exact ⟨h_v15,
    h_v27,
    h_arg3,
    by rw [h_v29] <;> rfl⟩

set_option maxHeartbeats 4000000 in
/-- List 3 of the chain: equal live values before it give equal live values after it. -/
theorem step_3 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v31 : WK (Proc.devRef .tc Cert.KernelIdeal.main_v31) = WR (Proc.devRef .tc Cert.ReferenceIdeal.main_v37)) :
    after (Cert.KernelIdeal.Gen.hostOps1_3 (F := Ideal)) WK (Proc.devRef .tc Cert.KernelIdeal.main_v15)
        = after (Cert.ReferenceIdeal.Hand.opsB_3 (F := Ideal)) WR (Proc.devRef .tc Cert.ReferenceIdeal.main_v13)
    ∧ after (Cert.KernelIdeal.Gen.hostOps1_3 (F := Ideal)) WK (Proc.devRef .tc Cert.KernelIdeal.main_v27)
        = after (Cert.ReferenceIdeal.Hand.opsB_3 (F := Ideal)) WR (Proc.devRef .tc Cert.ReferenceIdeal.main_v33)
    ∧ after (Cert.KernelIdeal.Gen.hostOps1_3 (F := Ideal)) WK (Proc.devRef .tc Cert.KernelIdeal.main_arg3)
        = after (Cert.ReferenceIdeal.Hand.opsB_3 (F := Ideal)) WR (Proc.devRef .tc Cert.ReferenceIdeal.main_arg3)
    ∧ after (Cert.KernelIdeal.Gen.hostOps1_3 (F := Ideal)) WK (Proc.devRef .tc Cert.KernelIdeal.main_v32)
        = after (Cert.ReferenceIdeal.Hand.opsB_3 (F := Ideal)) WR (Proc.devRef .tc Cert.ReferenceIdeal.main_v38) := by
  after_results_simp
  exact ⟨h_v15,
    h_v27,
    h_arg3,
    by rw [h_v31] <;> rfl⟩

set_option maxHeartbeats 4000000 in
/-- List 4 of the chain: equal live values before it give equal live values after it. -/
theorem step_4 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v32 : WK (Proc.devRef .tc Cert.KernelIdeal.main_v32) = WR (Proc.devRef .tc Cert.ReferenceIdeal.main_v38)) :
    after (Cert.KernelIdeal.Gen.hostOps1_4 (F := Ideal)) WK (Proc.devRef .tc Cert.KernelIdeal.main_v15)
        = after (Cert.ReferenceIdeal.Hand.opsB_4 (F := Ideal)) WR (Proc.devRef .tc Cert.ReferenceIdeal.main_v13)
    ∧ after (Cert.KernelIdeal.Gen.hostOps1_4 (F := Ideal)) WK (Proc.devRef .tc Cert.KernelIdeal.main_v27)
        = after (Cert.ReferenceIdeal.Hand.opsB_4 (F := Ideal)) WR (Proc.devRef .tc Cert.ReferenceIdeal.main_v33)
    ∧ after (Cert.KernelIdeal.Gen.hostOps1_4 (F := Ideal)) WK (Proc.devRef .tc Cert.KernelIdeal.main_arg3)
        = after (Cert.ReferenceIdeal.Hand.opsB_4 (F := Ideal)) WR (Proc.devRef .tc Cert.ReferenceIdeal.main_arg3)
    ∧ after (Cert.KernelIdeal.Gen.hostOps1_4 (F := Ideal)) WK (Proc.devRef .tc Cert.KernelIdeal.main_v32)
        = after (Cert.ReferenceIdeal.Hand.opsB_4 (F := Ideal)) WR (Proc.devRef .tc Cert.ReferenceIdeal.main_v38)
    ∧ after (Cert.KernelIdeal.Gen.hostOps1_4 (F := Ideal)) WK (Proc.devRef .tc Cert.KernelIdeal.main_v33)
        = after (Cert.ReferenceIdeal.Hand.opsB_4 (F := Ideal)) WR (Proc.devRef .tc Cert.ReferenceIdeal.main_v39)
    ∧ after (Cert.KernelIdeal.Gen.hostOps1_4 (F := Ideal)) WK (Proc.devRef .tc Cert.KernelIdeal.main_c_7)
        = after (Cert.ReferenceIdeal.Hand.opsB_4 (F := Ideal)) WR (Proc.devRef .tc Cert.ReferenceIdeal.main_c_12) := by
  after_results_simp
  exact ⟨h_v15,
    h_v27,
    h_arg3,
    h_v32,
    by first | trivial | rfl,
    by first | trivial | rfl⟩

set_option maxHeartbeats 4000000 in
/-- List 5 of the chain: equal live values before it give equal live values after it. -/
theorem step_5 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v32 : WK (Proc.devRef .tc Cert.KernelIdeal.main_v32) = WR (Proc.devRef .tc Cert.ReferenceIdeal.main_v38))
    (h_v33 : WK (Proc.devRef .tc Cert.KernelIdeal.main_v33) = WR (Proc.devRef .tc Cert.ReferenceIdeal.main_v39))
    (h_c_7 : WK (Proc.devRef .tc Cert.KernelIdeal.main_c_7) = WR (Proc.devRef .tc Cert.ReferenceIdeal.main_c_12)) :
    after (Cert.KernelIdeal.Gen.hostOps1_5 (F := Ideal)) WK (Proc.devRef .tc Cert.KernelIdeal.main_v15)
        = after (Cert.ReferenceIdeal.Hand.opsB_5 (F := Ideal)) WR (Proc.devRef .tc Cert.ReferenceIdeal.main_v13)
    ∧ after (Cert.KernelIdeal.Gen.hostOps1_5 (F := Ideal)) WK (Proc.devRef .tc Cert.KernelIdeal.main_v27)
        = after (Cert.ReferenceIdeal.Hand.opsB_5 (F := Ideal)) WR (Proc.devRef .tc Cert.ReferenceIdeal.main_v33)
    ∧ after (Cert.KernelIdeal.Gen.hostOps1_5 (F := Ideal)) WK (Proc.devRef .tc Cert.KernelIdeal.main_arg3)
        = after (Cert.ReferenceIdeal.Hand.opsB_5 (F := Ideal)) WR (Proc.devRef .tc Cert.ReferenceIdeal.main_arg3)
    ∧ after (Cert.KernelIdeal.Gen.hostOps1_5 (F := Ideal)) WK (Proc.devRef .tc Cert.KernelIdeal.main_v33)
        = after (Cert.ReferenceIdeal.Hand.opsB_5 (F := Ideal)) WR (Proc.devRef .tc Cert.ReferenceIdeal.main_v39)
    ∧ after (Cert.KernelIdeal.Gen.hostOps1_5 (F := Ideal)) WK (Proc.devRef .tc Cert.KernelIdeal.main_v34)
        = after (Cert.ReferenceIdeal.Hand.opsB_5 (F := Ideal)) WR (Proc.devRef .tc Cert.ReferenceIdeal.main_v40) := by
  after_results_simp
  exact ⟨h_v15,
    h_v27,
    h_arg3,
    h_v33,
    by rw [h_v32, h_c_7] <;> rfl⟩

set_option maxHeartbeats 4000000 in
/-- List 6 of the chain: equal live values before it give equal live values after it. -/
theorem step_6 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v33 : WK (Proc.devRef .tc Cert.KernelIdeal.main_v33) = WR (Proc.devRef .tc Cert.ReferenceIdeal.main_v39))
    (h_v34 : WK (Proc.devRef .tc Cert.KernelIdeal.main_v34) = WR (Proc.devRef .tc Cert.ReferenceIdeal.main_v40)) :
    after (Cert.KernelIdeal.Gen.hostOps1_6 (F := Ideal)) WK (Proc.devRef .tc Cert.KernelIdeal.main_v15)
        = after (Cert.ReferenceIdeal.Hand.opsB_6 (F := Ideal)) WR (Proc.devRef .tc Cert.ReferenceIdeal.main_v13)
    ∧ after (Cert.KernelIdeal.Gen.hostOps1_6 (F := Ideal)) WK (Proc.devRef .tc Cert.KernelIdeal.main_v27)
        = after (Cert.ReferenceIdeal.Hand.opsB_6 (F := Ideal)) WR (Proc.devRef .tc Cert.ReferenceIdeal.main_v33)
    ∧ after (Cert.KernelIdeal.Gen.hostOps1_6 (F := Ideal)) WK (Proc.devRef .tc Cert.KernelIdeal.main_arg3)
        = after (Cert.ReferenceIdeal.Hand.opsB_6 (F := Ideal)) WR (Proc.devRef .tc Cert.ReferenceIdeal.main_arg3)
    ∧ after (Cert.KernelIdeal.Gen.hostOps1_6 (F := Ideal)) WK (Proc.devRef .tc Cert.KernelIdeal.main_v42)
        = after (Cert.ReferenceIdeal.Hand.opsB_6 (F := Ideal)) WR (Proc.devRef .tc Cert.ReferenceIdeal.main_v48) := by
  after_results_simp
  exact ⟨h_v15,
    h_v27,
    h_arg3,
    by rw [h_v33, h_v34] <;> rfl⟩

set_option maxHeartbeats 4000000 in
/-- List 7 of the chain: equal live values before it give equal live values after it. -/
theorem step_7 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v42 : WK (Proc.devRef .tc Cert.KernelIdeal.main_v42) = WR (Proc.devRef .tc Cert.ReferenceIdeal.main_v48)) :
    after (Cert.KernelIdeal.Gen.hostOps1_7 (F := Ideal)) WK (Proc.devRef .tc Cert.KernelIdeal.main_v15)
        = after (Cert.ReferenceIdeal.Hand.opsB_7 (F := Ideal)) WR (Proc.devRef .tc Cert.ReferenceIdeal.main_v13)
    ∧ after (Cert.KernelIdeal.Gen.hostOps1_7 (F := Ideal)) WK (Proc.devRef .tc Cert.KernelIdeal.main_v27)
        = after (Cert.ReferenceIdeal.Hand.opsB_7 (F := Ideal)) WR (Proc.devRef .tc Cert.ReferenceIdeal.main_v33)
    ∧ after (Cert.KernelIdeal.Gen.hostOps1_7 (F := Ideal)) WK (Proc.devRef .tc Cert.KernelIdeal.main_arg3)
        = after (Cert.ReferenceIdeal.Hand.opsB_7 (F := Ideal)) WR (Proc.devRef .tc Cert.ReferenceIdeal.main_arg3)
    ∧ after (Cert.KernelIdeal.Gen.hostOps1_7 (F := Ideal)) WK (Proc.devRef .tc Cert.KernelIdeal.main_v43)
        = after (Cert.ReferenceIdeal.Hand.opsB_7 (F := Ideal)) WR (Proc.devRef .tc Cert.ReferenceIdeal.main_v49) := by
  after_results_simp
  exact ⟨h_v15,
    h_v27,
    h_arg3,
    by rw [h_v42] <;> rfl⟩

set_option maxHeartbeats 4000000 in
/-- List 8 of the chain: equal live values before it give equal live values after it. -/
theorem step_8 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49)) :
    after (Cert.KernelIdeal.Gen.hostOps1_8 (F := Ideal)) WK (Proc.devRef .tc Cert.KernelIdeal.main_v15)
        = after (Cert.ReferenceIdeal.Hand.opsB_8 (F := Ideal)) WR (Proc.devRef .tc Cert.ReferenceIdeal.main_v13)
    ∧ after (Cert.KernelIdeal.Gen.hostOps1_8 (F := Ideal)) WK (Proc.devRef .tc Cert.KernelIdeal.main_v27)
        = after (Cert.ReferenceIdeal.Hand.opsB_8 (F := Ideal)) WR (Proc.devRef .tc Cert.ReferenceIdeal.main_v33)
    ∧ after (Cert.KernelIdeal.Gen.hostOps1_8 (F := Ideal)) WK (Proc.devRef .tc Cert.KernelIdeal.main_arg3)
        = after (Cert.ReferenceIdeal.Hand.opsB_8 (F := Ideal)) WR (Proc.devRef .tc Cert.ReferenceIdeal.main_arg3)
    ∧ after (Cert.KernelIdeal.Gen.hostOps1_8 (F := Ideal)) WK (Proc.devRef .tc Cert.KernelIdeal.main_v43)
        = after (Cert.ReferenceIdeal.Hand.opsB_8 (F := Ideal)) WR (Proc.devRef .tc Cert.ReferenceIdeal.main_v49)
    ∧ after (Cert.KernelIdeal.Gen.hostOps1_8 (F := Ideal)) WK (Proc.devRef .tc Cert.KernelIdeal.main_c_11)
        = after (Cert.ReferenceIdeal.Hand.opsB_8 (F := Ideal)) WR (Proc.devRef .tc Cert.ReferenceIdeal.main_c_16) := by
  after_results_simp
  exact ⟨h_v15,
    h_v27,
    h_arg3,
    h_v43,
    by first | trivial | rfl⟩
end Cert.Chain

end
-- ==== Proof.ChainB.lean ====
/-
  The pair enumeration and the inter-cluster loss are computed by the same operations in the kernel's program (its
  lists after the first stretch) and in the reference (its lists from the all-ones table on); only the buffers are
  numbered differently. This module carries lists 9, 10 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 9 of the chain: equal live values before it give equal live values after it. -/
theorem step_9 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49))
    (h_c_11 : WK (Proc.devRef .tc Cert.KernelIdeal.main_c_11) = WR (Proc.devRef .tc Cert.ReferenceIdeal.main_c_16)) :
    after (Cert.KernelIdeal.Gen.hostOps1_9 (F := Ideal)) WK (Proc.devRef .tc Cert.KernelIdeal.main_v15)
        = after (Cert.ReferenceIdeal.Hand.opsB_9 (F := Ideal)) WR (Proc.devRef .tc Cert.ReferenceIdeal.main_v13)
    ∧ after (Cert.KernelIdeal.Gen.hostOps1_9 (F := Ideal)) WK (Proc.devRef .tc Cert.KernelIdeal.main_v27)
        = after (Cert.ReferenceIdeal.Hand.opsB_9 (F := Ideal)) WR (Proc.devRef .tc Cert.ReferenceIdeal.main_v33)
    ∧ after (Cert.KernelIdeal.Gen.hostOps1_9 (F := Ideal)) WK (Proc.devRef .tc Cert.KernelIdeal.main_arg3)
        = after (Cert.ReferenceIdeal.Hand.opsB_9 (F := Ideal)) WR (Proc.devRef .tc Cert.ReferenceIdeal.main_arg3)
    ∧ after (Cert.KernelIdeal.Gen.hostOps1_9 (F := Ideal)) WK (Proc.devRef .tc Cert.KernelIdeal.main_v43)
        = after (Cert.ReferenceIdeal.Hand.opsB_9 (F := Ideal)) WR (Proc.devRef .tc Cert.ReferenceIdeal.main_v49)
    ∧ after (Cert.KernelIdeal.Gen.hostOps1_9 (F := Ideal)) WK (Proc.devRef .tc Cert.KernelIdeal.main_v44)
        = after (Cert.ReferenceIdeal.Hand.opsB_9 (F := Ideal)) WR (Proc.devRef .tc Cert.ReferenceIdeal.main_v50) := by
  after_results_simp
  exact ⟨h_v15,
    h_v27,
    h_arg3,
    h_v43,
    by rw [h_v43, h_c_11] <;> rfl⟩

set_option maxHeartbeats 4000000 in
/-- List 10 of the chain: equal live values before it give equal live values after it. -/
theorem step_10 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49))
    (h_v44 : WK (Proc.devRef .tc Cert.KernelIdeal.main_v44) = WR (Proc.devRef .tc Cert.ReferenceIdeal.main_v50)) :
    after (Cert.KernelIdeal.Gen.hostOps1_10 (F := Ideal)) WK (Proc.devRef .tc Cert.KernelIdeal.main_v15)
        = after (Cert.ReferenceIdeal.Hand.opsB_10 (F := Ideal)) WR (Proc.devRef .tc Cert.ReferenceIdeal.main_v13)
    ∧ after (Cert.KernelIdeal.Gen.hostOps1_10 (F := Ideal)) WK (Proc.devRef .tc Cert.KernelIdeal.main_v27)
        = after (Cert.ReferenceIdeal.Hand.opsB_10 (F := Ideal)) WR (Proc.devRef .tc Cert.ReferenceIdeal.main_v33)
    ∧ after (Cert.KernelIdeal.Gen.hostOps1_10 (F := Ideal)) WK (Proc.devRef .tc Cert.KernelIdeal.main_arg3)
        = after (Cert.ReferenceIdeal.Hand.opsB_10 (F := Ideal)) WR (Proc.devRef .tc Cert.ReferenceIdeal.main_arg3)
    ∧ after (Cert.KernelIdeal.Gen.hostOps1_10 (F := Ideal)) WK (Proc.devRef .tc Cert.KernelIdeal.main_v43)
        = after (Cert.ReferenceIdeal.Hand.opsB_10 (F := Ideal)) WR (Proc.devRef .tc Cert.ReferenceIdeal.main_v49)
    ∧ after (Cert.KernelIdeal.Gen.hostOps1_10 (F := Ideal)) WK (Proc.devRef .tc Cert.KernelIdeal.main_v44)
        = after (Cert.ReferenceIdeal.Hand.opsB_10 (F := Ideal)) WR (Proc.devRef .tc Cert.ReferenceIdeal.main_v50)
    ∧ after (Cert.KernelIdeal.Gen.hostOps1_10 (F := Ideal)) WK (Proc.devRef .tc Cert.KernelIdeal.main_c_12)
        = after (Cert.ReferenceIdeal.Hand.opsB_10 (F := Ideal)) WR (Proc.devRef .tc Cert.ReferenceIdeal.main_c_17) := by
  after_results_simp
  exact ⟨h_v15,
    h_v27,
    h_arg3,
    h_v43,
    h_v44,
    by first | trivial | rfl⟩
end Cert.Chain

end
-- ==== Proof.ChainC.lean ====
/-
  The pair enumeration and the inter-cluster loss are computed by the same operations in the kernel's program (its
  lists after the first stretch) and in the reference (its lists from the all-ones table on); only the buffers are
  numbered differently. This module carries lists 11, 12 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 11 of the chain: equal live values before it give equal live values after it. -/
theorem step_11 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49))
    (h_v44 : WK (Proc.devRef .tc Cert.KernelIdeal.main_v44) = WR (Proc.devRef .tc Cert.ReferenceIdeal.main_v50))
    (h_c_12 : WK (Proc.devRef .tc Cert.KernelIdeal.main_c_12) = WR (Proc.devRef .tc Cert.ReferenceIdeal.main_c_17)) :
    after (Cert.KernelIdeal.Gen.hostOps1_11 (F := Ideal)) WK (Proc.devRef .tc Cert.KernelIdeal.main_v15)
        = after (Cert.ReferenceIdeal.Hand.opsB_11 (F := Ideal)) WR (Proc.devRef .tc Cert.ReferenceIdeal.main_v13)
    ∧ after (Cert.KernelIdeal.Gen.hostOps1_11 (F := Ideal)) WK (Proc.devRef .tc Cert.KernelIdeal.main_v27)
        = after (Cert.ReferenceIdeal.Hand.opsB_11 (F := Ideal)) WR (Proc.devRef .tc Cert.ReferenceIdeal.main_v33)
    ∧ after (Cert.KernelIdeal.Gen.hostOps1_11 (F := Ideal)) WK (Proc.devRef .tc Cert.KernelIdeal.main_arg3)
        = after (Cert.ReferenceIdeal.Hand.opsB_11 (F := Ideal)) WR (Proc.devRef .tc Cert.ReferenceIdeal.main_arg3)
    ∧ after (Cert.KernelIdeal.Gen.hostOps1_11 (F := Ideal)) WK (Proc.devRef .tc Cert.KernelIdeal.main_v43)
        = after (Cert.ReferenceIdeal.Hand.opsB_11 (F := Ideal)) WR (Proc.devRef .tc Cert.ReferenceIdeal.main_v49)
    ∧ after (Cert.KernelIdeal.Gen.hostOps1_11 (F := Ideal)) WK (Proc.devRef .tc Cert.KernelIdeal.main_v45)
        = after (Cert.ReferenceIdeal.Hand.opsB_11 (F := Ideal)) WR (Proc.devRef .tc Cert.ReferenceIdeal.main_v51) := by
  after_results_simp
  exact ⟨h_v15,
    h_v27,
    h_arg3,
    h_v43,
    by rw [h_v44, h_c_12] <;> rfl⟩

set_option maxHeartbeats 4000000 in
/-- List 12 of the chain: equal live values before it give equal live values after it. -/
theorem step_12 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49))
    (h_v45 : WK (Proc.devRef .tc Cert.KernelIdeal.main_v45) = WR (Proc.devRef .tc Cert.ReferenceIdeal.main_v51)) :
    after (Cert.KernelIdeal.Gen.hostOps1_12 (F := Ideal)) WK (Proc.devRef .tc Cert.KernelIdeal.main_v15)
        = after (Cert.ReferenceIdeal.Hand.opsB_12 (F := Ideal)) WR (Proc.devRef .tc Cert.ReferenceIdeal.main_v13)
    ∧ after (Cert.KernelIdeal.Gen.hostOps1_12 (F := Ideal)) WK (Proc.devRef .tc Cert.KernelIdeal.main_v27)
        = after (Cert.ReferenceIdeal.Hand.opsB_12 (F := Ideal)) WR (Proc.devRef .tc Cert.ReferenceIdeal.main_v33)
    ∧ after (Cert.KernelIdeal.Gen.hostOps1_12 (F := Ideal)) WK (Proc.devRef .tc Cert.KernelIdeal.main_arg3)
        = after (Cert.ReferenceIdeal.Hand.opsB_12 (F := Ideal)) WR (Proc.devRef .tc Cert.ReferenceIdeal.main_arg3)
    ∧ after (Cert.KernelIdeal.Gen.hostOps1_12 (F := Ideal)) WK (Proc.devRef .tc Cert.KernelIdeal.main_v43)
        = after (Cert.ReferenceIdeal.Hand.opsB_12 (F := Ideal)) WR (Proc.devRef .tc Cert.ReferenceIdeal.main_v49)
    ∧ after (Cert.KernelIdeal.Gen.hostOps1_12 (F := Ideal)) WK (Proc.devRef .tc Cert.KernelIdeal.main_v45)
        = after (Cert.ReferenceIdeal.Hand.opsB_12 (F := Ideal)) WR (Proc.devRef .tc Cert.ReferenceIdeal.main_v51)
    ∧ after (Cert.KernelIdeal.Gen.hostOps1_12 (F := Ideal)) WK (Proc.devRef .tc Cert.KernelIdeal.main_c_13)
        = after (Cert.ReferenceIdeal.Hand.opsB_12 (F := Ideal)) WR (Proc.devRef .tc Cert.ReferenceIdeal.main_c_18) := by
  after_results_simp
  exact ⟨h_v15,
    h_v27,
    h_arg3,
    h_v43,
    h_v45,
    by first | trivial | rfl⟩
end Cert.Chain

end
-- ==== Proof.ChainD.lean ====
/-
  The pair enumeration and the inter-cluster loss are computed by the same operations in the kernel's program (its
  lists after the first stretch) and in the reference (its lists from the all-ones table on); only the buffers are
  numbered differently. This module carries lists 13, 14 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 13 of the chain: equal live values before it give equal live values after it. -/
theorem step_13 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v43 : WK (Proc.devRef .tc Cert.KernelIdeal.main_v43) = WR (Proc.devRef .tc Cert.ReferenceIdeal.main_v49))
    (h_v45 : WK (Proc.devRef .tc Cert.KernelIdeal.main_v45) = WR (Proc.devRef .tc Cert.ReferenceIdeal.main_v51))
    (h_c_13 : WK (Proc.devRef .tc Cert.KernelIdeal.main_c_13) = WR (Proc.devRef .tc Cert.ReferenceIdeal.main_c_18)) :
    after (Cert.KernelIdeal.Gen.hostOps1_13 (F := Ideal)) WK (Proc.devRef .tc Cert.KernelIdeal.main_v15)
        = after (Cert.ReferenceIdeal.Hand.opsB_13 (F := Ideal)) WR (Proc.devRef .tc Cert.ReferenceIdeal.main_v13)
    ∧ after (Cert.KernelIdeal.Gen.hostOps1_13 (F := Ideal)) WK (Proc.devRef .tc Cert.KernelIdeal.main_v27)
        = after (Cert.ReferenceIdeal.Hand.opsB_13 (F := Ideal)) WR (Proc.devRef .tc Cert.ReferenceIdeal.main_v33)
    ∧ after (Cert.KernelIdeal.Gen.hostOps1_13 (F := Ideal)) WK (Proc.devRef .tc Cert.KernelIdeal.main_arg3)
        = after (Cert.ReferenceIdeal.Hand.opsB_13 (F := Ideal)) WR (Proc.devRef .tc Cert.ReferenceIdeal.main_arg3)
    ∧ after (Cert.KernelIdeal.Gen.hostOps1_13 (F := Ideal)) WK (Proc.devRef .tc Cert.KernelIdeal.main_v45)
        = after (Cert.ReferenceIdeal.Hand.opsB_13 (F := Ideal)) WR (Proc.devRef .tc Cert.ReferenceIdeal.main_v51)
    ∧ after (Cert.KernelIdeal.Gen.hostOps1_13 (F := Ideal)) WK (Proc.devRef .tc Cert.KernelIdeal.main_v46)
        = after (Cert.ReferenceIdeal.Hand.opsB_13 (F := Ideal)) WR (Proc.devRef .tc Cert.ReferenceIdeal.main_v52) := by
  after_results_simp
  exact ⟨h_v15,
    h_v27,
    h_arg3,
    h_v45,
    by rw [h_v43, h_c_13] <;> rfl⟩

set_option maxHeartbeats 4000000 in
/-- List 14 of the chain: equal live values before it give equal live values after it. -/
theorem step_14 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v45 : WK (Proc.devRef .tc Cert.KernelIdeal.main_v45) = WR (Proc.devRef .tc Cert.ReferenceIdeal.main_v51))
    (h_v46 : WK (Proc.devRef .tc Cert.KernelIdeal.main_v46) = WR (Proc.devRef .tc Cert.ReferenceIdeal.main_v52)) :
    after (Cert.KernelIdeal.Gen.hostOps1_14 (F := Ideal)) WK (Proc.devRef .tc Cert.KernelIdeal.main_v15)
        = after (Cert.ReferenceIdeal.Hand.opsB_14 (F := Ideal)) WR (Proc.devRef .tc Cert.ReferenceIdeal.main_v13)
    ∧ after (Cert.KernelIdeal.Gen.hostOps1_14 (F := Ideal)) WK (Proc.devRef .tc Cert.KernelIdeal.main_v27)
        = after (Cert.ReferenceIdeal.Hand.opsB_14 (F := Ideal)) WR (Proc.devRef .tc Cert.ReferenceIdeal.main_v33)
    ∧ after (Cert.KernelIdeal.Gen.hostOps1_14 (F := Ideal)) WK (Proc.devRef .tc Cert.KernelIdeal.main_arg3)
        = after (Cert.ReferenceIdeal.Hand.opsB_14 (F := Ideal)) WR (Proc.devRef .tc Cert.ReferenceIdeal.main_arg3)
    ∧ after (Cert.KernelIdeal.Gen.hostOps1_14 (F := Ideal)) WK (Proc.devRef .tc Cert.KernelIdeal.main_v45)
        = after (Cert.ReferenceIdeal.Hand.opsB_14 (F := Ideal)) WR (Proc.devRef .tc Cert.ReferenceIdeal.main_v51)
    ∧ after (Cert.KernelIdeal.Gen.hostOps1_14 (F := Ideal)) WK (Proc.devRef .tc Cert.KernelIdeal.main_v46)
        = after (Cert.ReferenceIdeal.Hand.opsB_14 (F := Ideal)) WR (Proc.devRef .tc Cert.ReferenceIdeal.main_v52)
    ∧ after (Cert.KernelIdeal.Gen.hostOps1_14 (F := Ideal)) WK (Proc.devRef .tc Cert.KernelIdeal.main_c_14)
        = after (Cert.ReferenceIdeal.Hand.opsB_14 (F := Ideal)) WR (Proc.devRef .tc Cert.ReferenceIdeal.main_c_19) := by
  after_results_simp
  exact ⟨h_v15,
    h_v27,
    h_arg3,
    h_v45,
    h_v46,
    by first | trivial | rfl⟩
end Cert.Chain

end
-- ==== Proof.ChainE.lean ====
/-
  The pair enumeration and the inter-cluster loss are computed by the same operations in the kernel's program (its
  lists after the first stretch) and in the reference (its lists from the all-ones table on); only the buffers are
  numbered differently. This module carries lists 15 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 15 of the chain: equal live values before it give equal live values after it. -/
theorem step_15 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v45 : WK (Proc.devRef .tc Cert.KernelIdeal.main_v45) = WR (Proc.devRef .tc Cert.ReferenceIdeal.main_v51))
    (h_v46 : WK (Proc.devRef .tc Cert.KernelIdeal.main_v46) = WR (Proc.devRef .tc Cert.ReferenceIdeal.main_v52))
    (h_c_14 : WK (Proc.devRef .tc Cert.KernelIdeal.main_c_14) = WR (Proc.devRef .tc Cert.ReferenceIdeal.main_c_19)) :
    after (Cert.KernelIdeal.Gen.hostOps1_15 (F := Ideal)) WK (Proc.devRef .tc Cert.KernelIdeal.main_v15)
        = after (Cert.ReferenceIdeal.Hand.opsB_15 (F := Ideal)) WR (Proc.devRef .tc Cert.ReferenceIdeal.main_v13)
    ∧ after (Cert.KernelIdeal.Gen.hostOps1_15 (F := Ideal)) WK (Proc.devRef .tc Cert.KernelIdeal.main_v27)
        = after (Cert.ReferenceIdeal.Hand.opsB_15 (F := Ideal)) WR (Proc.devRef .tc Cert.ReferenceIdeal.main_v33)
    ∧ after (Cert.KernelIdeal.Gen.hostOps1_15 (F := Ideal)) WK (Proc.devRef .tc Cert.KernelIdeal.main_arg3)
        = after (Cert.ReferenceIdeal.Hand.opsB_15 (F := Ideal)) WR (Proc.devRef .tc Cert.ReferenceIdeal.main_arg3)
    ∧ after (Cert.KernelIdeal.Gen.hostOps1_15 (F := Ideal)) WK (Proc.devRef .tc Cert.KernelIdeal.main_v45)
        = after (Cert.ReferenceIdeal.Hand.opsB_15 (F := Ideal)) WR (Proc.devRef .tc Cert.ReferenceIdeal.main_v51)
    ∧ after (Cert.KernelIdeal.Gen.hostOps1_15 (F := Ideal)) WK (Proc.devRef .tc Cert.KernelIdeal.main_v47)
        = after (Cert.ReferenceIdeal.Hand.opsB_15 (F := Ideal)) WR (Proc.devRef .tc Cert.ReferenceIdeal.main_v53) := by
  after_results_simp
  exact ⟨h_v15,
    h_v27,
    h_arg3,
    h_v45,
    by rw [h_v46, h_c_14] <;> rfl⟩
end Cert.Chain

end
-- ==== Proof.ChainF.lean ====
/-
  The pair enumeration and the inter-cluster loss are computed by the same operations in the kernel's program (its
  lists after the first stretch) and in the reference (its lists from the all-ones table on); only the buffers are
  numbered differently. This module carries lists 16 over, one lemma a list: from two valuations that agree on the values
  a list reads from before it (and on the values later lists still read), the valuations after the list agree on the
  values later lists read. On both sides the list's results are unfolded to the operations applied to the values read;
  the values read are then exchanged by the hypotheses, and the two terms are the same term.
-/
import proofs.«414854_j77403900608667_3_alg».proof.Proof.Gen.KernelIdeal.Launch
import proofs.«414854_j77403900608667_3_alg».proof.Proof.Gen.ReferenceIdeal
import proofs.«414854_j77403900608667_3_alg».proof.Proof.ROps
import Idealize.ShloMosaic.Lib.StableHlo.Run
import Idealize.ShloMosaic.PureOps.Ideal

noncomputable section

namespace Cert.Chain

open Idealize.ShloMosaic Idealize.ShloMosaic.StableHlo

set_option maxHeartbeats 4000000 in
/-- List 16 of the chain: equal live values before it give equal live values after it. -/
theorem step_16 (WK : Valuation Cert.KernelIdeal.τ Cert.KernelIdeal.sig (Elt Ideal))
    (WR : Valuation Cert.ReferenceIdeal.τ Cert.ReferenceIdeal.sig (Elt Ideal))
    (h_v15 : WK (Proc.devRef .tc Cert.KernelIdeal.main_v15) = WR (Proc.devRef .tc Cert.ReferenceIdeal.main_v13))
    (h_v27 : WK (Proc.devRef .tc Cert.KernelIdeal.main_v27) = WR (Proc.devRef .tc Cert.ReferenceIdeal.main_v33))
    (h_arg3 : WK (Proc.devRef .tc Cert.KernelIdeal.main_arg3) = WR (Proc.devRef .tc Cert.ReferenceIdeal.main_arg3))
    (h_v45 : WK (Proc.devRef .tc Cert.KernelIdeal.main_v45) = WR (Proc.devRef .tc Cert.ReferenceIdeal.main_v51))
    (h_v47 : WK (Proc.devRef .tc Cert.KernelIdeal.main_v47) = WR (Proc.devRef .tc Cert.ReferenceIdeal.main_v53)) :
    after (Cert.KernelIdeal.Gen.hostOps1_16 (F := Ideal)) WK (Proc.devRef .tc Cert.KernelIdeal.main_v27)
        = after (Cert.ReferenceIdeal.Hand.opsB_16 (F := Ideal)) WR (Proc.devRef .tc Cert.ReferenceIdeal.main_v33)
    ∧ after (Cert.KernelIdeal.Gen.hostOps1_16 (F := Ideal)) WK (Proc.devRef .tc Cert.KernelIdeal.main_v88)
        = after (Cert.ReferenceIdeal.Hand.opsB_16 (F := Ideal)) WR (Proc.devRef .tc Cert.ReferenceIdeal.main_v94)
    ∧ after (Cert.KernelIdeal.Gen.hostOps1_16 (F := Ideal)) WK (Proc.devRef .tc Cert.KernelIdeal.main_v89)
        = after (Cert.ReferenceIdeal.Hand.opsB_16 (F := Ideal)) WR (Proc.devRef .tc Cert.ReferenceIdeal.main_v95) := by
  after_results_simp
  exact ⟨h_v27,
    by rw [h_v15, h_v27, h_arg3, h_v45, h_v47] <;> rfl,
    by rw [h_v15, h_arg3, h_v45, h_v47] <;> rfl⟩
end Cert.Chain

end
-- ==== Proof.Chain.lean ====
/-
  The pair enumeration and the inter-cluster loss: the kernel's program (its sixteen lists after the first stretch)
  and the reference (its sixteen lists from the all-ones table on) apply the same operations to equal values, so their
  results are equal. What the lists compute is never opened here: each list is carried over by its own lemma, and
  between two lists only the values still read later are remembered. Those are, all along, the centroid rows, the
  intra-cluster loss and the cluster sizes (read by the last list), and besides them one to three integer index
  vectors, masks or scalars of the enumeration of the pairs i < j.
-/
import proofs.«414854_j77403900608667_3_alg».proof.Proof.ChainA
import proofs.«414854_j77403900608667_3_alg».proof.Proof.ChainB
import proofs.«414854_j77403900608667_3_alg».proof.Proof.ChainC
import proofs.«414854_j77403900608667_3_alg».proof.Proof.ChainD
import proofs.«414854_j77403900608667_3_alg».proof.Proof.ChainE
import proofs.«414854_j77403900608667_3_alg».proof.Proof.ChainF
import Idealize.ShloMosaic.Lib.StableHlo.Run
import Idealize.ShloMosaic.Lib.Pipeline.Frame
import Idealize.ShloMosaic.PureOps.Ideal

noncomputable section

namespace Cert.Chain

open Idealize.ShloMosaic Idealize.ShloMosaic.StableHlo

/-- The operations of a list of lists, run in order, are the first list's and then the rest's. -/
theorem after_flatten_cons {τ : Topo} {sig : RefSig} {Val : EltTy → Type} (l : List (HloOp τ sig Val))
    (ls : List (List (HloOp τ sig Val))) (V : Valuation τ sig Val) :
    after (List.flatten (l :: ls)) V = after (List.flatten ls) (after l V) := by
  rw [List.flatten_cons, after_append]

/-- From valuations that agree on the four values the sixteen lists read from before them (the centroid rows, the
    intra-cluster loss, the all-ones table the enumeration of pairs starts from, the cluster sizes), the kernel's lists
    and the reference's lists end with equal results: the total loss, the intra-cluster loss, and the weighted
    inter-cluster term. -/
theorem chain_sim (WK : Valuation Cert.KernelIdeal.τ Cert.KernelIdeal.sig (Elt Ideal))
    (WR : Valuation Cert.ReferenceIdeal.τ Cert.ReferenceIdeal.sig (Elt Ideal))
    (h15 : WK (Proc.devRef .tc Cert.KernelIdeal.main_v15) = WR (Proc.devRef .tc Cert.ReferenceIdeal.main_v13))
    (h27 : WK (Proc.devRef .tc Cert.KernelIdeal.main_v27) = WR (Proc.devRef .tc Cert.ReferenceIdeal.main_v33))
    (h28 : WK (Proc.devRef .tc Cert.KernelIdeal.main_v28) = WR (Proc.devRef .tc Cert.ReferenceIdeal.main_v34))
    (h3 : WK (Proc.devRef .tc Cert.KernelIdeal.main_arg3) = WR (Proc.devRef .tc Cert.ReferenceIdeal.main_arg3)) :
    after (List.flatten [Cert.KernelIdeal.Gen.hostOps1_1 (F := Ideal), Cert.KernelIdeal.Gen.hostOps1_2 (F := Ideal), Cert.KernelIdeal.Gen.hostOps1_3 (F := Ideal), Cert.KernelIdeal.Gen.hostOps1_4 (F := Ideal),
        Cert.KernelIdeal.Gen.hostOps1_5 (F := Ideal), Cert.KernelIdeal.Gen.hostOps1_6 (F := Ideal), Cert.KernelIdeal.Gen.hostOps1_7 (F := Ideal), Cert.KernelIdeal.Gen.hostOps1_8 (F := Ideal),
        Cert.KernelIdeal.Gen.hostOps1_9 (F := Ideal), Cert.KernelIdeal.Gen.hostOps1_10 (F := Ideal), Cert.KernelIdeal.Gen.hostOps1_11 (F := Ideal), Cert.KernelIdeal.Gen.hostOps1_12 (F := Ideal),
        Cert.KernelIdeal.Gen.hostOps1_13 (F := Ideal), Cert.KernelIdeal.Gen.hostOps1_14 (F := Ideal), Cert.KernelIdeal.Gen.hostOps1_15 (F := Ideal), Cert.KernelIdeal.Gen.hostOps1_16 (F := Ideal)]) WK (Proc.devRef .tc Cert.KernelIdeal.main_v88)
        = after (List.flatten (Cert.ReferenceIdeal.Hand.opsB (F := Ideal))) WR (Proc.devRef .tc Cert.ReferenceIdeal.main_v94)
    ∧ after (List.flatten [Cert.KernelIdeal.Gen.hostOps1_1 (F := Ideal), Cert.KernelIdeal.Gen.hostOps1_2 (F := Ideal), Cert.KernelIdeal.Gen.hostOps1_3 (F := Ideal), Cert.KernelIdeal.Gen.hostOps1_4 (F := Ideal),
        Cert.KernelIdeal.Gen.hostOps1_5 (F := Ideal), Cert.KernelIdeal.Gen.hostOps1_6 (F := Ideal), Cert.KernelIdeal.Gen.hostOps1_7 (F := Ideal), Cert.KernelIdeal.Gen.hostOps1_8 (F := Ideal),
        Cert.KernelIdeal.Gen.hostOps1_9 (F := Ideal), Cert.KernelIdeal.Gen.hostOps1_10 (F := Ideal), Cert.KernelIdeal.Gen.hostOps1_11 (F := Ideal), Cert.KernelIdeal.Gen.hostOps1_12 (F := Ideal),
        Cert.KernelIdeal.Gen.hostOps1_13 (F := Ideal), Cert.KernelIdeal.Gen.hostOps1_14 (F := Ideal), Cert.KernelIdeal.Gen.hostOps1_15 (F := Ideal), Cert.KernelIdeal.Gen.hostOps1_16 (F := Ideal)]) WK (Proc.devRef .tc Cert.KernelIdeal.main_v27)
        = after (List.flatten (Cert.ReferenceIdeal.Hand.opsB (F := Ideal))) WR (Proc.devRef .tc Cert.ReferenceIdeal.main_v33)
    ∧ after (List.flatten [Cert.KernelIdeal.Gen.hostOps1_1 (F := Ideal), Cert.KernelIdeal.Gen.hostOps1_2 (F := Ideal), Cert.KernelIdeal.Gen.hostOps1_3 (F := Ideal), Cert.KernelIdeal.Gen.hostOps1_4 (F := Ideal),
        Cert.KernelIdeal.Gen.hostOps1_5 (F := Ideal), Cert.KernelIdeal.Gen.hostOps1_6 (F := Ideal), Cert.KernelIdeal.Gen.hostOps1_7 (F := Ideal), Cert.KernelIdeal.Gen.hostOps1_8 (F := Ideal),
        Cert.KernelIdeal.Gen.hostOps1_9 (F := Ideal), Cert.KernelIdeal.Gen.hostOps1_10 (F := Ideal), Cert.KernelIdeal.Gen.hostOps1_11 (F := Ideal), Cert.KernelIdeal.Gen.hostOps1_12 (F := Ideal),
        Cert.KernelIdeal.Gen.hostOps1_13 (F := Ideal), Cert.KernelIdeal.Gen.hostOps1_14 (F := Ideal), Cert.KernelIdeal.Gen.hostOps1_15 (F := Ideal), Cert.KernelIdeal.Gen.hostOps1_16 (F := Ideal)]) WK (Proc.devRef .tc Cert.KernelIdeal.main_v89)
        = after (List.flatten (Cert.ReferenceIdeal.Hand.opsB (F := Ideal))) WR (Proc.devRef .tc Cert.ReferenceIdeal.main_v95) := by
  obtain ⟨e1_v15, e1_v27, e1_arg3, e1_v29⟩ := step_1 WK WR h15 h27 h3 h28
  obtain ⟨e2_v15, e2_v27, e2_arg3, e2_v31⟩ := step_2 _ _ e1_v15 e1_v27 e1_arg3 e1_v29
  obtain ⟨e3_v15, e3_v27, e3_arg3, e3_v32⟩ := step_3 _ _ e2_v15 e2_v27 e2_arg3 e2_v31
  obtain ⟨e4_v15, e4_v27, e4_arg3, e4_v32, e4_v33, e4_c_7⟩ := step_4 _ _ e3_v15 e3_v27 e3_arg3 e3_v32
  obtain ⟨e5_v15, e5_v27, e5_arg3, e5_v33, e5_v34⟩ := step_5 _ _ e4_v15 e4_v27 e4_arg3 e4_v32 e4_v33 e4_c_7
  obtain ⟨e6_v15, e6_v27, e6_arg3, e6_v42⟩ := step_6 _ _ e5_v15 e5_v27 e5_arg3 e5_v33 e5_v34
  obtain ⟨e7_v15, e7_v27, e7_arg3, e7_v43⟩ := step_7 _ _ e6_v15 e6_v27 e6_arg3 e6_v42
  obtain ⟨e8_v15, e8_v27, e8_arg3, e8_v43, e8_c_11⟩ := step_8 _ _ e7_v15 e7_v27 e7_arg3 e7_v43
  obtain ⟨e9_v15, e9_v27, e9_arg3, e9_v43, e9_v44⟩ := step_9 _ _ e8_v15 e8_v27 e8_arg3 e8_v43 e8_c_11
  obtain ⟨e10_v15, e10_v27, e10_arg3, e10_v43, e10_v44, e10_c_12⟩ := step_10 _ _ e9_v15 e9_v27 e9_arg3 e9_v43 e9_v44
  obtain ⟨e11_v15, e11_v27, e11_arg3, e11_v43, e11_v45⟩ := step_11 _ _ e10_v15 e10_v27 e10_arg3 e10_v43 e10_v44 e10_c_12
  obtain ⟨e12_v15, e12_v27, e12_arg3, e12_v43, e12_v45, e12_c_13⟩ := step_12 _ _ e11_v15 e11_v27 e11_arg3 e11_v43 e11_v45
  obtain ⟨e13_v15, e13_v27, e13_arg3, e13_v45, e13_v46⟩ := step_13 _ _ e12_v15 e12_v27 e12_arg3 e12_v43 e12_v45 e12_c_13
  obtain ⟨e14_v15, e14_v27, e14_arg3, e14_v45, e14_v46, e14_c_14⟩ := step_14 _ _ e13_v15 e13_v27 e13_arg3 e13_v45 e13_v46
  obtain ⟨e15_v15, e15_v27, e15_arg3, e15_v45, e15_v47⟩ := step_15 _ _ e14_v15 e14_v27 e14_arg3 e14_v45 e14_v46 e14_c_14
  obtain ⟨e16_v27, e16_v88, e16_v89⟩ := step_16 _ _ e15_v15 e15_v27 e15_arg3 e15_v45 e15_v47
  simp only [after_flatten_cons, List.flatten_nil, after_nil]
  exact ⟨e16_v88, e16_v27, e16_v89⟩

end Cert.Chain

end
-- ==== Proof.PreDecode.lean ====
/-
  The precondition, decoded.

  The printed predicate is a conjunction of four "for all" statements, each an and-reduction of a comparison read at every
  index: |E| < +inf, |Ms| < +inf, Ms >= 0, and, for every cluster k, the accumulating scatter of Ms ^ (1/2) by the labels is
  not 0 at k. Over the extended reals an entry whose absolute value is below +inf is a real number; on a nonnegative real
  the power 1/2 is the real square root; and the scatter at k is the zero it starts from plus the sum, over the points
  labelled k, of those square roots, which is the coercion of the real segment sum. So the predicate says: the embedding
  entries and the masses are reals, the masses are nonnegative, and in no cluster do the square roots of the masses sum
  to zero.
-/
import proofs.«414854_j77403900608667_3_alg».proof.Pre_finite_inputs
import proofs.«414854_j77403900608667_3_alg».proof.Proof.Gen.Pre_finite_inputs
import proofs.«414854_j77403900608667_3_alg».proof.Proof.Spec
import proofs.«414854_j77403900608667_3_alg».proof.Proof.LibIndexed
import Idealize.ShloMosaic.Lib.ReduceAll
import Idealize.ShloMosaic.Lib.StableHlo.Predicate
import Idealize.ShloMosaic.PureOps.Ideal

noncomputable section

open scoped BigOperators

namespace Cert.PreDecode

open Idealize.ShloMosaic Idealize.ShloMosaic.ValueIdx

attribute [local instance] Cert.Pre_finite_inputs.Gen.facts

/-- The word 0x7F800000 denotes +inf. -/
theorem ofBits_inf : Ideal.ofBits .f32 0x7F800000#32 = ⊤ := by
  simp [Ideal.ofBits, Ideal.ieee]

/-- The word 0x00000000 denotes 0. -/
theorem ofBits_zero : Ideal.ofBits .f32 0x00000000#32 = 0 := by
  simp [Ideal.ofBits, Ideal.ieee]

/-- The word 0x3F000000 denotes 1/2. -/
theorem ofBits_half : Ideal.ofBits .f32 0x3F000000#32 = (((1 / 2 : ℝ)) : EReal) := by
  simp [Ideal.ofBits, Ideal.ieee, -EReal.coe_mul]; norm_num

/-- On a nonnegative real the extended square root is the real one. -/
theorem sqrt_coe_nonneg {x : ℝ} (hx : 0 ≤ x) : Ideal.sqrt (x : EReal) = ((Real.sqrt x : ℝ) : EReal) := by
  rw [Ideal.sqrt_coe, if_neg (not_lt.mpr hx)]

/-- On a nonnegative real the power 1/2 is the real square root. -/
theorem pow_half_coe_nonneg {x : ℝ} (hx : 0 ≤ x) :
    Ideal.pow (x : EReal) (Ideal.ofBits .f32 0x3F000000#32) = ((Real.sqrt x : ℝ) : EReal) := by
  rw [ofBits_half, Ideal.pow_coe_coe, Real.sqrt_eq_rpow]
  rfl

/-- An extended real whose absolute value max x (-x) is below +inf is neither infinity: it is a real number. -/
theorem real_of_abs_lt_top (x : EReal) (h : max x (-x) < ⊤) : x = ((x.toReal : ℝ) : EReal) := by
  have h1 : x ≠ ⊤ := by
    rintro rfl
    simp at h
  have h2 : x ≠ ⊥ := by
    rintro rfl
    simp at h
  exact (EReal.coe_toReal h1 h2).symm

/-- The comparison "less than" is 1 exactly when x < y. -/
theorem cmp_olt_eq_one {x y : EReal} : Ideal.cmp .olt x y = 1#1 ↔ x < y := by
  simp only [Ideal.cmp, StableHlo.Predicate.ofBool_eq_one_iff, decide_eq_true_eq]

/-- The comparison "greater or equal" is 1 exactly when y ≤ x. -/
theorem cmp_oge_eq_one {x y : EReal} : Ideal.cmp .oge x y = 1#1 ↔ y ≤ x := by
  simp only [Ideal.cmp, StableHlo.Predicate.ofBool_eq_one_iff, decide_eq_true_eq]

/-- The comparison "not equal" is 1 exactly when x ≠ y. -/
theorem cmp_une_eq_one {x y : EReal} : Ideal.cmp .une x y = 1#1 ↔ x ≠ y := by
  simp only [Ideal.cmp, StableHlo.Predicate.ofBool_eq_one_iff, decide_eq_true_eq]

/-- The coercion of the reals into the extended reals commutes with a finite sum of selected terms. -/
theorem coe_sum_ite {ι : Type} (s : Finset ι) (p : ι → Prop) [DecidablePred p] (g : ι → ℝ) :
    (∑ n ∈ s, if p n then ((g n : ℝ) : EReal) else 0) = (((∑ n ∈ s, if p n then g n else 0) : ℝ) : EReal) := by
  classical
  induction s using Finset.induction_on with
  | empty => simp
  | insert a s ha ih =>
    rw [Finset.sum_insert ha, Finset.sum_insert ha, ih, EReal.coe_add]
    congr 1
    split_ifs <;> rfl

/-- The scalar shape has one index. -/
instance : Subsingleton (Cert.Pre_finite_inputs.S_).Idx := ⟨fun a b => funext fun d => d.elim0⟩

open Cert.Pre_finite_inputs in
/-- The labels laid out as a one-column table read, at row e, the label of point e. -/
theorem bcast_label (Lb : (⟨1, ![262144]⟩ : Shape).Idx → BitVec 32) (e : Fin 262144) :
    broadcastInDim S262144x1 ![0] Facts.bcast_S262144_S262144x1_0 Lb (ix2 e (0 : Fin 1)) = Lb (ix1 e) := by
  simp only [broadcastInDim]
  congr 1
  funext a
  match a with
  | ⟨0, _⟩ =>
    apply Fin.ext
    split
    · next h1 => change (262144 : Nat) = 1 at h1; omega
    · rfl

open Cert.Pre_finite_inputs in
/-- The accumulating scatter, by the labels, of real values g into a zero vector is, at cluster k, the segment sum of g. -/
theorem scatter_at (Lb : (⟨1, ![262144]⟩ : Shape).Idx → BitVec 32) (x : S256.Idx → EReal) (upd : S262144.Idx → EReal)
    (g : Fin 262144 → ℝ) (k : Fin 256) (hx : ∀ j, x j = 0) (hu : ∀ n, upd (ix1 n) = ((g n : ℝ) : EReal)) :
    Host.scatterAdd (F := Ideal) (φ := .f32) scatter_S256_S262144x1_S262144_n_0_0_1 x
        (broadcastInDim S262144x1 ![0] Facts.bcast_S262144_S262144x1_0 Lb) upd (ix1 k)
      = ((Cert.Spec.segR (Cert.Spec.lab Lb) g k : ℝ) : EReal) := by
  show Ideal.hostScatterAdd scatter_S256_S262144x1_S262144_n_0_0_1 x
        (broadcastInDim S262144x1 ![0] Facts.bcast_S262144_S262144x1_0 Lb) upd (ix1 k) = _
  rw [Cert.LibIndexed.scatterAdd_vec_apply _ rfl rfl rfl rfl, hx, zero_add]
  unfold Cert.Spec.segR
  rw [← coe_sum_ite]
  refine Finset.sum_congr rfl fun e _ => ?_
  rw [bcast_label, hu]
  by_cases hc : (Lb (ix1 e)).toInt = (k.val : Int)
  · rw [if_pos hc, if_pos (show Cert.Spec.lab Lb e k from hc)]
  · rw [if_neg hc, if_neg (show ¬ Cert.Spec.lab Lb e k from hc)]

open Cert.Pre_finite_inputs in
/-- The precondition, read back: every embedding entry and every mass is a real number, every mass is nonnegative, and in
    every cluster the square roots of the masses do not sum to zero. -/
theorem decode (E : (⟨2, ![262144, 128]⟩ : Shape).Idx → EReal) (Lb : (⟨1, ![262144]⟩ : Shape).Idx → BitVec 32)
    (Ms : (⟨1, ![262144]⟩ : Shape).Idx → EReal) (Sz : (⟨1, ![256]⟩ : Shape).Idx → BitVec 32)
    (h : Cert.Pre_finite_inputs.fn (F := Ideal) E Lb Ms Sz = fun _ => 1#1) :
    ∃ (e : Fin 262144 → Fin 128 → ℝ) (μ : Fin 262144 → ℝ),
      (∀ n d, E (ix2 n d) = ((e n d : ℝ) : EReal)) ∧ (∀ n, Ms (ix1 n) = ((μ n : ℝ) : EReal)) ∧ (∀ n, 0 ≤ μ n)
        ∧ (∀ k, Cert.Spec.segR (Cert.Spec.lab Lb) (fun n => Real.sqrt (μ n)) k ≠ 0) := by
  have h0 := congrFun h ix0
  simp only [Cert.Pre_finite_inputs.fn, Cert.Pre_finite_inputs.fn_part1, andi, IntOp.andi_eq_one] at h0
  obtain ⟨⟨⟨hE, hM⟩, hP⟩, hS⟩ := h0
  -- every entry of E and of Ms has a finite absolute value, and every mass is nonnegative
  have hEf : ∀ n d, max (E (ix2 n d)) (-(E (ix2 n d))) < ⊤ := by
    intro n d
    have hc : Ideal.cmp .olt (max (E (ix2 n d)) (-(E (ix2 n d)))) (Ideal.ofBits .f32 0x7F800000#32) = 1#1 :=
      Host.reduce_andi_all _ _ _ _ _ hE (ix2 n d)
    rw [ofBits_inf] at hc
    exact cmp_olt_eq_one.1 hc
  have hMf : ∀ n, max (Ms (ix1 n)) (-(Ms (ix1 n))) < ⊤ := by
    intro n
    have hc : Ideal.cmp .olt (max (Ms (ix1 n)) (-(Ms (ix1 n)))) (Ideal.ofBits .f32 0x7F800000#32) = 1#1 :=
      Host.reduce_andi_all _ _ _ _ _ hM (ix1 n)
    rw [ofBits_inf] at hc
    exact cmp_olt_eq_one.1 hc
  have hMp : ∀ n, (0 : EReal) ≤ Ms (ix1 n) := by
    intro n
    have hc : Ideal.cmp .oge (Ms (ix1 n)) (Ideal.ofBits .f32 0x00000000#32) = 1#1 :=
      Host.reduce_andi_all _ _ _ _ _ hP (ix1 n)
    rw [ofBits_zero] at hc
    exact cmp_oge_eq_one.1 hc
  -- the real numbers behind the entries
  obtain ⟨μ, hμ⟩ : ∃ μ : Fin 262144 → ℝ, ∀ n, Ms (ix1 n) = ((μ n : ℝ) : EReal) :=
    ⟨fun n => (Ms (ix1 n)).toReal, fun n => real_of_abs_lt_top _ (hMf n)⟩
  have hnn : ∀ n, 0 ≤ μ n := fun n => EReal.coe_nonneg.1 (by rw [← hμ n]; exact hMp n)
  refine ⟨fun n d => (E (ix2 n d)).toReal, μ, fun n d => real_of_abs_lt_top _ (hEf n d), hμ, hnn, ?_⟩
  -- the scattered sum of square roots at cluster k is the segment sum, and the comparison says it is not zero
  intro k
  have hc := Host.reduce_andi_all _ _ _ _ _ hS (ix1 k)
  rw [cmpf_apply] at hc
  have hne := cmp_une_eq_one.1 hc
  have hz : ∀ j, broadcastInDim S256 ![] Facts.bcast_S_S256 (constant (F := Ideal) S_ .f32 0x00000000#32) j = 0 :=
    fun _ => ofBits_zero
  have hu : ∀ n, Host.powf (F := Ideal) Ms
      (broadcastInDim S262144 ![] Facts.bcast_S_S262144 (constant S_ .f32 0x3F000000#32)) (ix1 n)
        = ((Real.sqrt (μ n) : ℝ) : EReal) := by
    intro n
    show Ideal.pow (Ms (ix1 n)) (Ideal.ofBits .f32 0x3F000000#32) = _
    rw [hμ n, pow_half_coe_nonneg (hnn n)]
  rw [hz, scatter_at Lb _ _ (fun n => Real.sqrt (μ n)) k hz hu] at hne
  exact EReal.coe_ne_zero.1 hne

end Cert.PreDecode

end
-- ==== Proof.SpecAlg.lean ====
/-
  The identity between the two ways of computing the mean intra-cluster squared distance, on the reals.

  For one cluster and ANY fixed vector c (it need not be the centroid), expanding the square gives
    sum over the cluster of |e n - c|^2 = (sum of |e n|^2) - 2 (sum of e n) . c + (number of points) |c|^2,
  because c does not depend on the point: the cross term's sum over points moves inside the dot product and the last
  term is a constant counted once per point. Dividing by the count and averaging over the clusters preserves it.
  The expansion is proved over arbitrary finite index types and then read at the points and coordinates of the loss.
-/
import proofs.«414854_j77403900608667_3_alg».proof.Proof.Spec
import Mathlib.Algebra.BigOperators.Ring.Finset
import Mathlib.Tactic.Ring

noncomputable section

open scoped BigOperators

namespace Cert.Spec

section Abstract

variable {ι δ : Type} [Fintype ι] [Fintype δ] (p : ι → Prop) [DecidablePred p] (e : ι → δ → ℝ) (c : δ → ℝ)

/-- One point's share: inside the cluster the expanded square, outside it nothing. -/
theorem point_expand (n : ι) :
    (if p n then ∑ d : δ, (e n d - c d) * (e n d - c d) else 0)
      = (if p n then ∑ d : δ, e n d * e n d else 0)
        - 2 * (∑ d : δ, (if p n then e n d else 0) * c d)
        + (if p n then (1 : ℝ) else 0) * (∑ d : δ, c d * c d) := by
  by_cases h : p n
  · simp only [if_pos h, one_mul]
    rw [Finset.mul_sum, ← Finset.sum_sub_distrib, ← Finset.sum_add_distrib]
    exact Finset.sum_congr rfl fun d _ => by ring
  · simp only [if_neg h, zero_mul, Finset.sum_const_zero, mul_zero, sub_zero, add_zero]

/-- One cluster: the sum over its points of squared distances to a fixed vector, expanded. -/
theorem cluster_expand :
    (∑ n : ι, if p n then ∑ d : δ, (e n d - c d) * (e n d - c d) else 0)
      = (∑ n : ι, if p n then ∑ d : δ, e n d * e n d else 0)
        - 2 * (∑ d : δ, (∑ n : ι, if p n then e n d else 0) * c d)
        + (∑ n : ι, if p n then (1 : ℝ) else 0) * (∑ d : δ, c d * c d) := by
  rw [Finset.sum_congr rfl fun n _ => point_expand p e c n,
    Finset.sum_add_distrib, Finset.sum_sub_distrib, ← Finset.mul_sum, ← Finset.sum_mul, Finset.sum_comm]
  congr 2
  congr 1
  exact Finset.sum_congr rfl fun d _ => (Finset.sum_mul _ _ _).symm

end Abstract

variable (mem : Fin 262144 → Fin 256 → Prop) [∀ n k, Decidable (mem n k)]
  (e : Fin 262144 → Fin 128 → ℝ) (w : Fin 262144 → ℝ)

/-- The same at the loss's points and coordinates, in the vocabulary of segment sums. -/
theorem seg_expand (k : Fin 256) (c : Fin 128 → ℝ) :
    segR mem (fun n => ∑ d : Fin 128, (e n d - c d) * (e n d - c d)) k
      = segR mem (fun n => ∑ d : Fin 128, e n d * e n d) k
        - 2 * (∑ d : Fin 128, segR mem (fun n => e n d) k * c d)
        + segR mem (fun _ => 1) k * (∑ d : Fin 128, c d * c d) :=
  cluster_expand (fun n => mem n k) e c

/-- The mean over clusters, computed either way. -/
theorem intraExpanded_eq_intraDirect : intraExpanded mem e w = intraDirect mem e w := by
  have h : ∀ k : Fin 256,
      (segR mem (fun n => ∑ d : Fin 128, e n d * e n d) k
        - 2 * (∑ d : Fin 128, segR mem (fun n => e n d) k * cent mem e w k d)
        + cnt mem k * (∑ d : Fin 128, cent mem e w k d * cent mem e w k d)) / cnt mem k
      = segR mem (fun n => ∑ d : Fin 128, (e n d - cent mem e w k d) * (e n d - cent mem e w k d)) k / cnt mem k :=
    fun k => congrArg (· / cnt mem k) (seg_expand mem e k (cent mem e w k)).symm
  exact congrArg (· / 256) (Finset.sum_congr rfl fun k _ => h k)

end Cert.Spec

end
-- ==== Proof.Bridge.lean ====
/-
  The two programs' results are equal.

  Under the precondition every embedding entry and every mass is a real number, the masses are nonnegative, and every
  cluster's total weight is nonzero. Then (i) the kernel's weight sqrt(mass) and the reference's mass^(1/2) are one
  real; (ii) the array the kernel accumulates holds, per core, the one-hot columns against the augmented rows, so the
  sum over the two cores is a segment sum per column; (iii) both programs' centroids are the same real quotients of
  segment sums, and the kernel's expanded intra-cluster loss equals the reference's direct one (the identity of
  SpecAlg); (iv) from the centroids, the intra loss and the cluster sizes on, the two programs run the same operations,
  so the remaining results agree without being opened.
-/
import proofs.«414854_j77403900608667_3_alg».proof.Defs
import proofs.«414854_j77403900608667_3_alg».proof.Proof.KIFrame
import proofs.«414854_j77403900608667_3_alg».proof.Proof.KAcc
import proofs.«414854_j77403900608667_3_alg».proof.Proof.KTailA
import proofs.«414854_j77403900608667_3_alg».proof.Proof.RRun
import proofs.«414854_j77403900608667_3_alg».proof.Proof.RTailB
import proofs.«414854_j77403900608667_3_alg».proof.Proof.Chain
import proofs.«414854_j77403900608667_3_alg».proof.Proof.PreDecode
import proofs.«414854_j77403900608667_3_alg».proof.Proof.SpecAlg

noncomputable section

namespace Cert.Bridge

open Idealize.ShloMosaic Idealize.ShloMosaic.TcCoe Idealize.SL.Sem Idealize.ShloMosaic.ValueIdx

local instance : Cert.Pre_finite_inputs.Facts := Cert.Pre_finite_inputs.Gen.facts
local instance : Cert.KernelIdeal.Facts := Cert.KernelIdeal.Gen.facts
local instance : Cert.ReferenceIdeal.Facts := Cert.ReferenceIdeal.Gen.facts

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the kernel's host operations start from on core c: the launch contents with the pipeline's arrays at what
    the region left. -/
abbrev WK0 (c : Dev Cert.KernelIdeal.nD) : Valuation Cert.KernelIdeal.τ Cert.KernelIdeal.sig (Elt Ideal) :=
  Pipeline.withArrays Cert.KernelIdeal.spec0 c (Cert.KernelIdeal.Hand.V0 m c)
    fun w => (Cert.KernelIdeal.Hand.dats m 0 c).arrAt w Cert.KernelIdeal.cfg0.N

/-- After the kernel's first stretch. -/
abbrev WK (c : Dev Cert.KernelIdeal.nD) : Valuation Cert.KernelIdeal.τ Cert.KernelIdeal.sig (Elt Ideal) :=
  StableHlo.after (Cert.KernelIdeal.Gen.hostOps1 (F := Ideal)) (WK0 m c)

/-- After the reference's own part. -/
abbrev WR (c : Dev Cert.ReferenceIdeal.nD) : Valuation Cert.ReferenceIdeal.τ Cert.ReferenceIdeal.sig (Elt Ideal) :=
  StableHlo.after (Cert.ReferenceIdeal.Hand.opsA (F := Ideal)) (fun b => m' (c, b))

end

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal in
/-- The kernel's first stretch starts from the region's output array at window 3's place. -/
theorem WK0_v0 (c : Dev Cert.KernelIdeal.nD) :
    WK0 m c (Proc.devRef .tc Cert.KernelIdeal.main_v0)
      = (Cert.KernelIdeal.Hand.dats m 0 c).arrAt 3 Cert.KernelIdeal.cfg0.N :=
  Pipeline.withArrays_arr Cert.KernelIdeal.spec0 Cert.KernelIdeal.Gen.launch0.win.arr_inj c _ _ 3

/-- The cluster sizes are no array of the pipeline: the first stretch finds them as launched. -/
theorem WK0_arg3 (c : Dev Cert.KernelIdeal.nD) :
    WK0 m c (Proc.devRef .tc Cert.KernelIdeal.main_arg3) = m (c, Cert.KernelIdeal.main_arg3) :=
  Pipeline.withArrays_of_ne Cert.KernelIdeal.spec0 c _ _ Cert.KernelIdeal.main_arg3 (by decide)

/-- THE VALUES GOING INTO THE SHARED PART AGREE: centroids, intra-cluster loss, the ones matrix and the cluster sizes,
    on memories that satisfy the precondition and agree on the arguments. -/
theorem entry_agree (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    WK m c (Proc.devRef .tc Cert.KernelIdeal.main_v15) = WR m' c (Proc.devRef .tc Cert.ReferenceIdeal.main_v13)
    ∧ WK m c (Proc.devRef .tc Cert.KernelIdeal.main_v27) = WR m' c (Proc.devRef .tc Cert.ReferenceIdeal.main_v33)
    ∧ WK m c (Proc.devRef .tc Cert.KernelIdeal.main_v28) = WR m' c (Proc.devRef .tc Cert.ReferenceIdeal.main_v34)
    ∧ WK m c (Proc.devRef .tc Cert.KernelIdeal.main_arg3) = WR m' c (Proc.devRef .tc Cert.ReferenceIdeal.main_arg3) := by
  obtain ⟨a0, a1, a2, a3⟩ := hagree c
  -- the precondition, decoded: real entries, real nonnegative masses, nonzero total weights
  obtain ⟨e, μ, hE, hM, hμ, hms⟩ := Cert.PreDecode.decode _ _ _ _ (hpre c)
  -- one weight on both sides: the square root of the mass
  have hWK : ∀ n, Cert.Spec.wK (m ((c.tc : Thread Cert.KernelIdeal.nD Cert.KernelIdeal.τ).loc Cert.KernelIdeal.main_arg2)) n
      = ((Real.sqrt (μ n) : ℝ) : EReal) := fun n => by
    unfold Cert.Spec.wK; rw [hM n]; exact Cert.PreDecode.sqrt_coe_nonneg (hμ n)
  have hWR : ∀ n, Ideal.pow (m ((c.tc : Thread Cert.KernelIdeal.nD Cert.KernelIdeal.τ).loc Cert.KernelIdeal.main_arg2) (ix1 n))
      (Ideal.ofBits .f32 0x3F000000#32) = ((Real.sqrt (μ n) : ℝ) : EReal) := fun n => by
    rw [hM n]; exact Cert.PreDecode.pow_half_coe_nonneg (hμ n)
  -- the region's output array, per core the one-hot columns against the augmented rows
  have hp1 : ∀ c' k j, (WK0 m c (Proc.devRef .tc Cert.KernelIdeal.main_v0)) (ix3 c' k j)
      = Cert.Spec.P1 (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) c' k j := fun c' k j => by
    rw [WK0_v0]; exact Cert.KernelIdeal.Hand.p1_apply m c c' k j
  unfold WK WR
  refine ⟨?_, ?_, ?_, ?_⟩
  · -- centroids: the same real quotient of segment sums
    rw [Cert.KernelIdeal.Hand.tailA_v15, Cert.ReferenceIdeal.Hand.tailA_v13]
    show _ = Cert.ReferenceIdeal.Hand.R_cent (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    rw [a0, a1, a2]
    funext i
    obtain ⟨k, d, rfl⟩ : ∃ (k : Fin 256) (d : Fin 128), i = ix2 k d := ⟨i 0, i 1, eq_ix2 i⟩
    rw [Cert.KernelIdeal.Hand.K_cent_real _ _ _ e _ hE hWK hms _ hp1 k d]
    exact (Cert.ReferenceIdeal.Hand.R_cent_real e _ hE hWR hms k d).symm
  · -- the intra-cluster loss: expanded on one side, direct on the other
    rw [Cert.KernelIdeal.Hand.tailA_v27, Cert.ReferenceIdeal.Hand.tailA_v33]
    show _ = Cert.ReferenceIdeal.Hand.R_intra (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    rw [a0, a1, a2]
    funext i
    obtain rfl : i = ix0 := eq_ix0 i
    rw [Cert.KernelIdeal.Hand.K_intra_real _ _ _ e _ hE hWK hms _ hp1, Cert.Spec.intraExpanded_eq_intraDirect]
    exact (Cert.ReferenceIdeal.Hand.R_intra_real e _ hE hWR hms).symm
  · -- the ones matrix: one constant, broadcast
    rw [Cert.KernelIdeal.Hand.tailA_v28, Cert.ReferenceIdeal.Hand.tailA_v34]
    rfl
  · -- the cluster sizes: an argument, as launched
    rw [Cert.KernelIdeal.Hand.tailA_arg3, Cert.ReferenceIdeal.Hand.tailA_arg3, WK0_arg3]
    exact a3.symm

end Values

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's host operations after its first stretch: the shared part. -/
abbrev restK : List (HloOp Cert.KernelIdeal.τ Cert.KernelIdeal.sig (Elt Ideal)) :=
  List.flatten [Cert.KernelIdeal.Gen.hostOps1_1, Cert.KernelIdeal.Gen.hostOps1_2, Cert.KernelIdeal.Gen.hostOps1_3,
    Cert.KernelIdeal.Gen.hostOps1_4, Cert.KernelIdeal.Gen.hostOps1_5, Cert.KernelIdeal.Gen.hostOps1_6,
    Cert.KernelIdeal.Gen.hostOps1_7, Cert.KernelIdeal.Gen.hostOps1_8, Cert.KernelIdeal.Gen.hostOps1_9,
    Cert.KernelIdeal.Gen.hostOps1_10, Cert.KernelIdeal.Gen.hostOps1_11, Cert.KernelIdeal.Gen.hostOps1_12,
    Cert.KernelIdeal.Gen.hostOps1_13, Cert.KernelIdeal.Gen.hostOps1_14, Cert.KernelIdeal.Gen.hostOps1_15,
    Cert.KernelIdeal.Gen.hostOps1_16]

/-- Every buffer after the kernel's whole tail is the shared part run from the first stretch's contents. -/
theorem tail_split (c : Dev Cert.KernelIdeal.nD) (b : Ref Cert.KernelIdeal.sig .tc) :
    Pipeline.afterTail₀ Cert.KernelIdeal.cfgs (Cert.KernelIdeal.Hand.dats m) 0 (Cert.KernelIdeal.Hand.V0 m)
        Cert.KernelIdeal.Hand.tailOps c b
      = StableHlo.after restK (WK m c) (Proc.devRef .tc b) := by
  unfold Pipeline.afterTail₀
  show StableHlo.after (Cert.KernelIdeal.Gen.hostOps1 ++ restK) _ _ = _
  rw [StableHlo.after_append]

/-- Every buffer after the reference's whole program is the shared part run from its own part's contents. -/
theorem ref_split (c : Dev Cert.ReferenceIdeal.nD) (b : Ref Cert.ReferenceIdeal.sig .tc) :
    StableHlo.after (Cert.ReferenceIdeal.Hand.ops (F := Ideal)) (fun b => m' (c, b)) (Proc.devRef .tc b)
      = StableHlo.after (List.flatten Cert.ReferenceIdeal.Hand.opsB) (WR m' c) (Proc.devRef .tc b) := by
  show StableHlo.after (Cert.ReferenceIdeal.Hand.opsA ++ List.flatten Cert.ReferenceIdeal.Hand.opsB) _ _ = _
  rw [StableHlo.after_append]

/-- THE THREE RESULTS AGREE. -/
theorem results_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    StableHlo.after (Cert.ReferenceIdeal.Hand.ops (F := Ideal)) (fun b => m' (c, b)) (Proc.devRef .tc Cert.ReferenceIdeal.main_v94)
        = Pipeline.afterTail₀ Cert.KernelIdeal.cfgs (Cert.KernelIdeal.Hand.dats m) 0 (Cert.KernelIdeal.Hand.V0 m) Cert.KernelIdeal.Hand.tailOps c Cert.KernelIdeal.main_v88
    ∧ StableHlo.after (Cert.ReferenceIdeal.Hand.ops (F := Ideal)) (fun b => m' (c, b)) (Proc.devRef .tc Cert.ReferenceIdeal.main_v33)
        = Pipeline.afterTail₀ Cert.KernelIdeal.cfgs (Cert.KernelIdeal.Hand.dats m) 0 (Cert.KernelIdeal.Hand.V0 m) Cert.KernelIdeal.Hand.tailOps c Cert.KernelIdeal.main_v27
    ∧ StableHlo.after (Cert.ReferenceIdeal.Hand.ops (F := Ideal)) (fun b => m' (c, b)) (Proc.devRef .tc Cert.ReferenceIdeal.main_v95)
        = Pipeline.afterTail₀ Cert.KernelIdeal.cfgs (Cert.KernelIdeal.Hand.dats m) 0 (Cert.KernelIdeal.Hand.V0 m) Cert.KernelIdeal.Hand.tailOps c Cert.KernelIdeal.main_v89 := by
  obtain ⟨h15, h27, h28, h3⟩ := entry_agree m m' hpre hagree c
  obtain ⟨s88, s27, s89⟩ := Cert.Chain.chain_sim (WK m c) (WR m' c) h15 h27 h28 h3
  exact ⟨((tail_split m c _).trans (s88.trans (ref_split m' c _).symm)).symm,
    ((tail_split m c _).trans (s27.trans (ref_split m' c _).symm)).symm,
    ((tail_split m c _).trans (s89.trans (ref_split m' c _).symm)).symm⟩

end Results

end Cert.Bridge

end
-- ==== Proof.lean ====
/-
  The certificate of the cluster loss: a fused kernel against its segment-sum reference.

  The kernel makes one pass over the points: on each of two cores, sixteen blocks of 8192 rows, each block's one-hot
  label matrix transposed against the block's augmented rows (weighted row | raw row | weight, one, squared norm),
  accumulated into a [256, 384] block; the host then adds the two cores' blocks, cuts out the per-cluster sums, forms
  the weighted centroids and the intra-cluster loss in expanded form, and runs the pairwise inter-cluster term. The
  reference forms the same per-cluster sums by scatter-add, the intra-cluster loss directly, and the same pairwise term.
  On inputs whose masses are nonnegative and whose clusters all carry nonzero total weight every quantity is a real
  number, the per-cluster sums are the same segment sums, the expanded and the direct intra-cluster loss are equal by
  expanding a square, and the pairwise term is the same operations on equal centroids.

  Frames: the kernel's pipeline is run at every grid point (the output block reset at a core's first block, added to
  at the others, written back at its last) and the host operations after it touch no argument; the reference is a
  list of host operations. The three format round trips the idealization removed are the identity at the exact reals.
-/
import proofs.«414854_j77403900608667_3_alg».proof.Defs
import proofs.«414854_j77403900608667_3_alg».proof.Proof.Gen.Kernel
import proofs.«414854_j77403900608667_3_alg».proof.Proof.Gen.KernelIdeal
import proofs.«414854_j77403900608667_3_alg».proof.Proof.Gen.ReferenceIdeal
import proofs.«414854_j77403900608667_3_alg».proof.Proof.Gen.Pre_finite_inputs
import proofs.«414854_j77403900608667_3_alg».proof.Proof.KBFrame
import proofs.«414854_j77403900608667_3_alg».proof.Proof.KIFrame
import proofs.«414854_j77403900608667_3_alg».proof.Proof.RRun
import proofs.«414854_j77403900608667_3_alg».proof.Proof.Bridge
import Idealize.ShloMosaic.Adequacy
import Idealize.ShloMosaic.Init

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

/-- The kernel as printed runs and leaves its arguments as they were. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference is a list of host operations none of which writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.Hand.after_arg0 _),
      (h c Cert.ReferenceIdeal.main_arg1).trans (Cert.ReferenceIdeal.Hand.after_arg1 _),
      (h c Cert.ReferenceIdeal.main_arg2).trans (Cert.ReferenceIdeal.Hand.after_arg2 _),
      (h c Cert.ReferenceIdeal.main_arg3).trans (Cert.ReferenceIdeal.Hand.after_arg3 _)⟩)
    (Cert.ReferenceIdeal.Hand.run (F := Ideal) m ρ)

/-- The three round trips through the narrower format that the idealization removed are the identity at the exact
    reals. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both idealized programs run, and their three results agree. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v88,
    fun c => Pipeline.afterTail₀ Cert.KernelIdeal.cfgs (Cert.KernelIdeal.Hand.dats m) 0 (Cert.KernelIdeal.Hand.V0 m) Cert.KernelIdeal.Hand.tailOps c Cert.KernelIdeal.main_v27,
    fun c => Pipeline.afterTail₀ Cert.KernelIdeal.cfgs (Cert.KernelIdeal.Hand.dats m) 0 (Cert.KernelIdeal.Hand.V0 m) Cert.KernelIdeal.Hand.tailOps c Cert.KernelIdeal.main_v89,
    ?_, ?_⟩
  · -- the kernel's run: each result where the host operations after the region leave it; the arguments by its frame
    refine (θ_run Cert.KernelIdeal.defs _ _).mono (fun r h c => ?_) (Cert.KernelIdeal.Hand.run_main (F := Ideal) m ρ)
    exact ⟨(h c).2 Cert.KernelIdeal.main_v88 (Pipeline.mem_restRefs_of Cert.KernelIdeal.main_v88 (by decide) (by decide)),
      (h c).2 Cert.KernelIdeal.main_v27 (Pipeline.mem_restRefs_of Cert.KernelIdeal.main_v27 (by decide) (by decide)),
      (h c).2 Cert.KernelIdeal.main_v89 (Pipeline.mem_restRefs_of Cert.KernelIdeal.main_v89 (by decide) (by decide)),
      ((h c).1 0).trans (((Cert.KernelIdeal.Hand.dats m 0 c).arrAt_in 0 rfl _).trans
        ((Cert.KernelIdeal.Hand.A_eq m c 0).trans (Cert.KernelIdeal.Hand.V_main_arg0 m c))),
      ((h c).1 1).trans (((Cert.KernelIdeal.Hand.dats m 0 c).arrAt_in 1 rfl _).trans
        ((Cert.KernelIdeal.Hand.A_eq m c 1).trans (Cert.KernelIdeal.Hand.V_main_arg1 m c))),
      ((h c).1 2).trans (((Cert.KernelIdeal.Hand.dats m 0 c).arrAt_in 2 rfl _).trans
        ((Cert.KernelIdeal.Hand.A_eq m c 2).trans (Cert.KernelIdeal.Hand.V_main_arg2 m c))),
      ((h c).2 Cert.KernelIdeal.main_arg3 (Pipeline.mem_restRefs_of Cert.KernelIdeal.main_arg3 (by decide) (by decide))).trans
        (Cert.KernelIdeal.Hand.afterTail_main_arg3 m (Cert.KernelIdeal.Hand.dats m) c)⟩
  · -- the reference's run: each result by the equality of results; the arguments because no operation writes one
    refine (θ_run Cert.ReferenceIdeal.defs _ _).mono (fun r h c => ?_) (Cert.ReferenceIdeal.Hand.run (F := Ideal) m' ρ')
    obtain ⟨e94, e33, e95⟩ := Cert.Bridge.results_eq m m' hpre hagree c
    exact ⟨(h c Cert.ReferenceIdeal.main_v94).trans e94, (h c Cert.ReferenceIdeal.main_v33).trans e33,
      (h c Cert.ReferenceIdeal.main_v95).trans e95,
      (h c Cert.ReferenceIdeal.main_arg0).trans (Cert.ReferenceIdeal.Hand.after_arg0 _),
      (h c Cert.ReferenceIdeal.main_arg1).trans (Cert.ReferenceIdeal.Hand.after_arg1 _),
      (h c Cert.ReferenceIdeal.main_arg2).trans (Cert.ReferenceIdeal.Hand.after_arg2 _),
      (h c Cert.ReferenceIdeal.main_arg3).trans (Cert.ReferenceIdeal.Hand.after_arg3 _)⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
